-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S102400x768 : Shape := ⟨2, ![102400, 768]⟩
abbrev S2x1638400 : Shape := ⟨2, ![2, 1638400]⟩
abbrev S102400 : Shape := ⟨1, ![102400]⟩
abbrev S128 : Shape := ⟨1, ![128]⟩
abbrev S768x64 : Shape := ⟨2, ![768, 64]⟩
abbrev S64 : Shape := ⟨1, ![64]⟩
abbrev S832x64 : Shape := ⟨2, ![832, 64]⟩
abbrev S_ : Shape := ⟨0, ![]⟩

class Facts : Prop where
  bcast_S_S102400x768 : S_.BroadcastsInDim S102400x768 (![] : Fin 0 → Fin S102400x768.rank)
  reducesTo_S102400x768_S_d0_1 : S102400x768.ReducesTo [0, 1] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_
  bcast_S_S832x64 : S_.BroadcastsInDim S832x64 (![] : Fin 0 → Fin S832x64.rank)
  reducesTo_S832x64_S_d0_1 : S832x64.ReducesTo [0, 1] S_
  bcast_S_S102400 : S_.BroadcastsInDim S102400 (![] : Fin 0 → Fin S102400.rank)
  reducesTo_S102400_S_d0 : S102400.ReducesTo [0] S_

variable [Facts]

def fn_part1 {F : FTy → Type} [FloatOps F] (main_arg2 : IVec S102400 32) (main_arg7 : FVec F S64 .f32) (main_v13 : IVec S_ 1) (main_v16 : IVec S832x64 1) : IVec S_ 1 :=
  let main_c_5 : IVec S_ 1 := constantI S_ 1 1#1
  let main_v17 : IVec S_ 1 := (fun x v => Host.reduce IntOp.andi x v reducesTo_S832x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S102400 32 := broadcastInDim S102400 ![] bcast_S_S102400 main_c_8
  let main_v25 : IVec S102400 1 := cmpi .sge main_arg2 main_v24
  let main_c_9 : IVec S_ 1 := constantI S_ 1 1#1
  let main_v26 : IVec S_ 1 := (fun x v => Host.reduce IntOp.andi x v reducesTo_S102400_S_d0 h_S_) main_v25 main_c_9
  let main_v27 : IVec S_ 1 := andi main_v23 main_v26
  let main_c_10 : IVec S_ 32 := constantI S_ 32 128#32
  let main_v28 : IVec S102400 32 := broadcastInDim S102400 ![] bcast_S_S102400 main_c_10
  let main_v29 : IVec S102400 1 := cmpi .slt main_arg2 main_v28
  let main_c_11 : IVec S_ 1 := constantI S_ 1 1#1
  let main_v30 : IVec S_ 1 := (fun x v => Host.reduce IntOp.andi x v reducesTo_S102400_S_d0 h_S_) main_v29 main_c_11
  let main_v31 : IVec S_ 1 := andi main_v27 main_v30
  main_v31

def fn {F : FTy → Type} [FloatOps F] (main_arg0 : FVec F S102400x768 .f32) (main_arg1 : IVec S2x1638400 32) (main_arg2 : IVec S102400 32) (main_arg3 : IVec S128 32) (main_arg4 : FVec F S768x64 .f32) (main_arg5 : FVec F S64 .f32) (main_arg6 : FVec F S832x64 .f32) (main_arg7 : FVec F S64 .f32) : IVec S_ 1 :=
  let main_v0 : FVec F S102400x768 .f32 := Host.absf main_arg0
  let main_cst : FVec F S_ .f32 := constant S_ .f32 0x7F800000#32
  let main_v1 : FVec F S102400x768 .f32 := broadcastInDim S102400x768 ![] bcast_S_S102400x768 main_cst
  let main_v2 : IVec S102400x768 1 := cmpf .olt main_v0 main_v1
  let main_c : IVec S_ 1 := constantI S_ 1 1#1
  let main_v3 : IVec S_ 1 := (fun x v => Host.reduce IntOp.andi x v reducesTo_S102400x768_S_d0_1 h_S_) main_v2 main_c
  let main_v4 : FVec F S768x64 .f32 := Host.absf main_arg4
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S832x64 .f32 := Host.absf main_arg6
  let main_cst_4 : FVec F S_ .f32 := constant S_ .f32 0x7F800000#32
  let main_v15 : FVec F S832x64 .f32 := broadcastInDim S832x64 ![] bcast_S_S832x64 main_cst_4
  let main_v16 : IVec S832x64 1 := cmpf .olt main_v14 main_v15
  fn_part1 (F := F) main_arg2 main_arg7 main_v13 main_v16
-- ==== Kernel.lean ====
abbrev S102400x768 : Shape := ⟨2, ![102400, 768]⟩
abbrev S2x1638400 : Shape := ⟨2, ![2, 1638400]⟩
abbrev S102400 : Shape := ⟨1, ![102400]⟩
abbrev S128 : Shape := ⟨1, ![128]⟩
abbrev S768x64 : Shape := ⟨2, ![768, 64]⟩
abbrev S64 : Shape := ⟨1, ![64]⟩
abbrev S832x64 : Shape := ⟨2, ![832, 64]⟩
abbrev S1x1638400 : Shape := ⟨2, ![1, 1638400]⟩
abbrev S1638400 : Shape := ⟨1, ![1638400]⟩
abbrev S1740800 : Shape := ⟨1, ![1740800]⟩
abbrev S_ : Shape := ⟨0, ![]⟩
abbrev S1740800x1 : Shape := ⟨2, ![1740800, 1]⟩
abbrev S102400x1 : Shape := ⟨2, ![102400, 1]⟩
abbrev S1x64 : Shape := ⟨2, ![1, 64]⟩
abbrev S102400x64 : Shape := ⟨2, ![102400, 64]⟩
abbrev S2048x768 : Shape := ⟨2, ![2048, 768]⟩
abbrev S2048x1 : Shape := ⟨2, ![2048, 1]⟩
abbrev S2048x64 : Shape := ⟨2, ![2048, 64]⟩
abbrev S1740800x64 : Shape := ⟨2, ![1740800, 64]⟩
abbrev S128x1 : Shape := ⟨2, ![128, 1]⟩
abbrev S128x64 : Shape := ⟨2, ![128, 64]⟩
abbrev S128x768 : Shape := ⟨2, ![128, 768]⟩
abbrev S64x64 : Shape := ⟨2, ![64, 64]⟩
abbrev S2048x128 : Shape := ⟨2, ![2048, 128]⟩
abbrev S1x128 : Shape := ⟨2, ![1, 128]⟩
abbrev S4096x64 : Shape := ⟨2, ![4096, 64]⟩
abbrev S4096x1 : Shape := ⟨2, ![4096, 1]⟩
abbrev S4096x128 : Shape := ⟨2, ![4096, 128]⟩
abbrev S128x128 : Shape := ⟨2, ![128, 128]⟩

abbrev nBuf : Space → Nat
  | .hbm => 106
  | .vmem => 27
  | .smem => 0
  | _ => 0

abbrev bufTy : (tb : Table) → Fin (tcTables nBuf tb) → BufTy
  | .hbm, ⟨0, _⟩ => ⟨S102400x768, .f32⟩
  | .hbm, ⟨1, _⟩ => ⟨S2x1638400, .i32⟩
  | .hbm, ⟨2, _⟩ => ⟨S102400, .i32⟩
  | .hbm, ⟨3, _⟩ => ⟨S128, .i32⟩
  | .hbm, ⟨4, _⟩ => ⟨S768x64, .f32⟩
  | .hbm, ⟨5, _⟩ => ⟨S64, .f32⟩
  | .hbm, ⟨6, _⟩ => ⟨S832x64, .f32⟩
  | .hbm, ⟨7, _⟩ => ⟨S64, .f32⟩
  | .hbm, ⟨8, _⟩ => ⟨S1x1638400, .i32⟩
  | .hbm, ⟨9, _⟩ => ⟨S1638400, .i32⟩
  | .hbm, ⟨10, _⟩ => ⟨S1x1638400, .i32⟩
  | .hbm, ⟨11, _⟩ => ⟨S1638400, .i32⟩
  | .hbm, ⟨12, _⟩ => ⟨S102400, .i32⟩
  | .hbm, ⟨13, _⟩ => ⟨S1740800, .i32⟩
  | .hbm, ⟨14, _⟩ => ⟨S1740800, .i32⟩
  | .hbm, ⟨15, _⟩ => ⟨S_, .f32⟩
  | .hbm, ⟨16, _⟩ => ⟨S1740800, .f32⟩
  | .hbm, ⟨17, _⟩ => ⟨S_, .f32⟩
  | .hbm, ⟨18, _⟩ => ⟨S102400, .f32⟩
  | .hbm, ⟨19, _⟩ => ⟨S1740800x1, .i32⟩
  | .hbm, ⟨20, _⟩ => ⟨S102400, .f32⟩
  | .hbm, ⟨21, _⟩ => ⟨S_, .f32⟩
  | .hbm, ⟨22, _⟩ => ⟨S102400, .f32⟩
  | .hbm, ⟨23, _⟩ => ⟨S102400, .f32⟩
  | .hbm, ⟨24, _⟩ => ⟨S102400, .f32⟩
  | .hbm, ⟨25, _⟩ => ⟨S102400x1, .f32⟩
  | .hbm, ⟨26, _⟩ => ⟨S1x64, .f32⟩
  | .hbm, ⟨27, _⟩ => ⟨S1x64, .f32⟩
  | .hbm, ⟨28, _⟩ => ⟨S102400x1, .i32⟩
  | .hbm, ⟨29, _⟩ => ⟨S102400x64, .f32⟩
  | .hbm, ⟨30, _⟩ => ⟨S_, .i32⟩
  | .hbm, ⟨31, _⟩ => ⟨S1740800, .i32⟩
  | .hbm, ⟨32, _⟩ => ⟨S1740800, .i1⟩
  | .hbm, ⟨33, _⟩ => ⟨S_, .i32⟩
  | .hbm, ⟨34, _⟩ => ⟨S1740800, .i32⟩
  | .hbm, ⟨35, _⟩ => ⟨S1740800, .i32⟩
  | .hbm, ⟨36, _⟩ => ⟨S1740800, .i32⟩
  | .hbm, ⟨37, _⟩ => ⟨S1740800x1, .i32⟩
  | .hbm, ⟨38, _⟩ => ⟨S1740800x64, .f32⟩
  | .hbm, ⟨39, _⟩ => ⟨S_, .f32⟩
  | .hbm, ⟨40, _⟩ => ⟨S102400x64, .f32⟩
  | .hbm, ⟨41, _⟩ => ⟨S1740800x1, .i32⟩
  | .hbm, ⟨42, _⟩ => ⟨S102400x64, .f32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S128x1, .i32⟩
  | .hbm, ⟨51, _⟩ => ⟨S128x64, .f32⟩
  | .hbm, ⟨52, _⟩ => ⟨S_, .i32⟩
  | .hbm, ⟨53, _⟩ => ⟨S128, .i32⟩
  | .hbm, ⟨54, _⟩ => ⟨S128, .i1⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S128, .i32⟩
  | .hbm, ⟨59, _⟩ => ⟨S128x1, .i32⟩
  | .hbm, ⟨60, _⟩ => ⟨S128x1, .f32⟩
  | .hbm, ⟨61, _⟩ => ⟨S128x64, .f32⟩
  | .hbm, ⟨62, _⟩ => ⟨S128x64, .f32⟩
  | .hbm, ⟨63, _⟩ => ⟨S1x64, .f32⟩
  | .hbm, ⟨64, _⟩ => ⟨S128x64, .f32⟩
  | .hbm, ⟨65, _⟩ => ⟨S128x64, .f32⟩
  | .hbm, ⟨66, _⟩ => ⟨S_, .i32⟩
  | .hbm, ⟨67, _⟩ => ⟨S128, .i32⟩
  | .hbm, ⟨68, _⟩ => ⟨S128, .i1⟩
  | .hbm, ⟨69, _⟩ => ⟨S_, .i32⟩
  | .hbm, ⟨70, _⟩ => ⟨S128, .i32⟩
  | .hbm, ⟨71, _⟩ => ⟨S128, .i32⟩
  | .hbm, ⟨72, _⟩ => ⟨S128, .i32⟩
  | .hbm, ⟨73, _⟩ => ⟨S128x1, .i32⟩
  | .hbm, ⟨74, _⟩ => ⟨S128x768, .f32⟩
  | .hbm, ⟨75, _⟩ => ⟨S64x64, .f32⟩
  | .hbm, ⟨76, _⟩ => ⟨S768x64, .f32⟩
  | .hbm, ⟨77, _⟩ => ⟨S_, .f32⟩
  | .hbm, ⟨78, _⟩ => ⟨S128x768, .f32⟩
  | .hbm, ⟨79, _⟩ => ⟨S128x768, .f32⟩
  | .hbm, ⟨80, _⟩ => ⟨S128x64, .f32⟩
  | .hbm, ⟨81, _⟩ => ⟨S102400x64, .f32⟩
  | .hbm, ⟨82, _⟩ => ⟨S_, .i32⟩
  | .hbm, ⟨83, _⟩ => ⟨S1740800, .i32⟩
  | .hbm, ⟨84, _⟩ => ⟨S1740800, .i1⟩
  | .hbm, ⟨85, _⟩ => ⟨S_, .i32⟩
  | .hbm, ⟨86, _⟩ => ⟨S1740800, .i32⟩
  | .hbm, ⟨87, _⟩ => ⟨S1740800, .i32⟩
  | .hbm, ⟨88, _⟩ => ⟨S1740800, .i32⟩
  | .hbm, ⟨89, _⟩ => ⟨S1740800x1, .i32⟩
  | .hbm, ⟨90, _⟩ => ⟨S1740800x64, .f32⟩
  | .hbm, ⟨91, _⟩ => ⟨S_, .f32⟩
  | .hbm, ⟨92, _⟩ => ⟨S102400x64, .f32⟩
  | .hbm, ⟨93, _⟩ => ⟨S1740800x1, .i32⟩
  | .hbm, ⟨94, _⟩ => ⟨S102400x64, .f32⟩
  | .hbm, ⟨95, _⟩ => ⟨S128x64, .f32⟩
  | .hbm, ⟨96, _⟩ => ⟨S1x128, .f32⟩
  | .hbm, ⟨97, _⟩ => ⟨S128x1, .f32⟩
  | .hbm, ⟨98, _⟩ => ⟨S128x64, .f32⟩
  | .hbm, ⟨99, _⟩ => ⟨S128x64, .f32⟩
  | .hbm, ⟨100, _⟩ => ⟨S128x128, .f32⟩
  | .hbm, ⟨101, _⟩ => ⟨S_, .f32⟩
  | .hbm, ⟨102, _⟩ => ⟨S128x1, .f32⟩
  | .hbm, ⟨103, _⟩ => ⟨S128x1, .f32⟩
  | .hbm, ⟨104, _⟩ => ⟨S128x128, .f32⟩
  | .hbm, ⟨105, _⟩ => ⟨S128x128, .f32⟩
  | .local _ .vmem, ⟨0, _⟩ => ⟨S2048x768, .f32⟩
  | .local _ .vmem, ⟨1, _⟩ => ⟨S2048x768, .f32⟩
  | .local _ .vmem, ⟨2, _⟩ => ⟨S768x64, .f32⟩
  | .local _ .vmem, ⟨3, _⟩ => ⟨S2048x1, .f32⟩
  | .local _ .vmem, ⟨4, _⟩ => ⟨S2048x1, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x1, .f32⟩
  | .local _ .vmem, ⟨10, _⟩ => ⟨S2048x1, .f32⟩
  | .local _ .vmem, ⟨11, _⟩ => ⟨S1x64, .f32⟩
  | .local _ .vmem, ⟨12, _⟩ => ⟨S2048x1, .i32⟩
  | .local _ .vmem, ⟨13, _⟩ => ⟨S2048x1, .i32⟩
  | .local _ .vmem, ⟨14, _⟩ => ⟨S128x64, .f32⟩
  | .local _ .vmem, ⟨15, _⟩ => ⟨S64x64, .f32⟩
  | .local _ .vmem, ⟨16, _⟩ => ⟨S2048x64, .f32⟩
  | .local _ .vmem, ⟨17, _⟩ => ⟨S2048x64, .f32⟩
  | .local _ .vmem, ⟨18, _⟩ => ⟨S4096x64, .f32⟩
  | .local _ .vmem, ⟨19, _⟩ => ⟨S4096x64, .f32⟩
  | .local _ .vmem, ⟨20, _⟩ => ⟨S4096x1, .f32⟩
  | .local _ .vmem, ⟨21, _⟩ => ⟨S4096x1, .f32⟩
  | .local _ .vmem, ⟨22, _⟩ => ⟨S1x64, .f32⟩
  | .local _ .vmem, ⟨23, _⟩ => ⟨S4096x1, .i32⟩
  | .local _ .vmem, ⟨24, _⟩ => ⟨S4096x1, .i32⟩
  | .local _ .vmem, ⟨25, _⟩ => ⟨S128x64, .f32⟩
  | .local _ .vmem, ⟨26, _⟩ => ⟨S1x128, .f32⟩
  | _, _ => ⟨S102400x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call0_cst : Ref sig .tc := ⟨.hbm, 77, rfl⟩
abbrev main_call0_v0 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70_0 : Ref sig .tc := ⟨.hbm, 95, rfl⟩
abbrev main_v70_1 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem5_0 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1638400_S1x1638400_0_0 : S2x1638400.Slices ![0, 0] S1x1638400
  shapeCasts_S1x1638400_S1638400 : S1x1638400.ShapeCasts S1638400
  slices_S2x1638400_S1x1638400_1_0 : S2x1638400.Slices ![1, 0] S1x1638400
  concatenates_S1638400_S102400_S1740800_d0 : Shape.Concatenates [S1638400, S102400] S1740800 0
  bcast_S_S1740800 : S_.BroadcastsInDim S1740800 (![] : Fin 0 → Fin S1740800.rank)
  bcast_S_S102400 : S_.BroadcastsInDim S102400 (![] : Fin 0 → Fin S102400.rank)
  bcast_S1740800_S1740800x1_0 : S1740800.BroadcastsInDim S1740800x1 (![0] : Fin 1 → Fin S1740800x1.rank)
  shapeCasts_S102400_S102400x1 : S102400.ShapeCasts S102400x1
  shapeCasts_S64_S1x64 : S64.ShapeCasts S1x64
  inb_S2048x768_S2048x768_0_0 : ∀ a, (![0, 0] : Fin 2 → Nat) a + S2048x768.size a ≤ S2048x768.size a
  h_S2048x768 : 0 < S2048x768.numel
  bitsLt_bf16_f32 : FTy.bits .bf16 < FTy.bits .f32
  inb_S768x64_S768x64_0_0 : ∀ a, (![0, 0] : Fin 2 → Nat) a + S768x64.size a ≤ S768x64.size a
  h_S768x64 : 0 < S768x64.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S2048x64_S2048x64_0_0 : ∀ a, (![0, 0] : Fin 2 → Nat) a + S2048x64.size a ≤ S2048x64.size a
  h_S2048x64 : 0 < S2048x64.numel
  bcast_S_S102400x64 : S_.BroadcastsInDim S102400x64 (![] : Fin 0 → Fin S102400x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  slices_S832x64_S64x64_0_0 : S832x64.Slices ![0, 0] S64x64
  slices_S832x64_S768x64_64_0 : S832x64.Slices ![64, 0] S768x64
  bcast_S_S128x768 : S_.BroadcastsInDim S128x768 (![] : Fin 0 → Fin S128x768.rank)
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  iota_S2048x128_d1_w32 : S2048x128.Iotas .tc 32 [1]
  broadcasts_S2048x1_S2048x128 : S2048x1.Broadcasts S2048x128
  natLt_1_32 : 1 < 32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x128_S1x128_0_0 : ∀ a, (![0, 0] : Fin 2 → Nat) a + S1x128.size a ≤ S1x128.size a
  h_S1x128 : 0 < S1x128.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  broadcasts_S1x64_S4096x64 : S1x64.Broadcasts S4096x64
  iota_S4096x128_d1_w32 : S4096x128.Iotas .tc 32 [1]
  broadcasts_S4096x1_S4096x128 : S4096x1.Broadcasts S4096x128
  shapeCasts_S1x128_S1x128 : S1x128.ShapeCasts S1x128
  reduces_S4096x128_S128 : S4096x128.Reduces [0] S128
  shapeCasts_S128_S1x128 : S128.ShapeCasts S1x128
  transposes_S1x128_S128x1_1_0 : S1x128.Transposes [1, 0] S128x1
  concatenates_S128x64_S128x64_S128x128_d1 : Shape.Concatenates [S128x64, S128x64] S128x128 1
  bcast_S_S128x1 : S_.BroadcastsInDim S128x1 (![] : Fin 0 → Fin S128x1.rank)
  bcast_S128x1_S128x128_0_1 : S128x1.BroadcastsInDim S128x128 (![0, 1] : Fin 2 → Fin S128x128.rank)
  scatter_S102400_S1740800x1_S1740800_n_0_0_1_wf : ScatterDims.WF S102400 S1740800x1 S1740800 [] [0] [0] 1
  dot_S2048x768_S768x64_S2048x64_1_0_0_1_n_n_wf : DotDims.WF S2048x768 S768x64 S2048x64 [1] [0] [0] [1] [] []
  gather_S102400x64_S1740800x1_S1740800x64_1_0_n_n_0_1_164_wf : GatherDims.WF S102400x64 S1740800x1 S1740800x64 [1] [0] [] [0] [] 1 ![1, 64]
  scatter_S102400x64_S1740800x1_S1740800x64_1_0_0_1_wf : ScatterDims.WF S102400x64 S1740800x1 S1740800x64 [1] [0] [0] 1
  gather_S102400x64_S128x1_S128x64_1_0_n_n_0_1_164_wf : GatherDims.WF S102400x64 S128x1 S128x64 [1] [0] [] [0] [] 1 ![1, 64]
  gather_S102400x1_S128x1_S128x1_1_0_n_n_0_1_11_wf : GatherDims.WF S102400x1 S128x1 S128x1 [1] [0] [] [0] [] 1 ![1, 1]
  gather_S102400x768_S128x1_S128x768_1_0_n_n_0_1_1768_wf : GatherDims.WF S102400x768 S128x1 S128x768 [1] [0] [] [0] [] 1 ![1, 768]
  dot_S128x768_S768x64_S128x64_1_0_0_1_n_n_wf : DotDims.WF S128x768 S768x64 S128x64 [1] [0] [0] [1] [] []
  dot_S2048x64_S64x64_S2048x64_1_0_0_1_n_n_wf : DotDims.WF S2048x64 S64x64 S2048x64 [1] [0] [0] [1] [] []
  dot_S2048x128_S128x64_S2048x64_1_0_0_1_n_n_wf : DotDims.WF S2048x128 S128x64 S2048x64 [1] [0] [0] [1] [] []
  dot_S4096x128_S4096x64_S128x64_0_0_1_1_n_n_wf : DotDims.WF S4096x128 S4096x64 S128x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S102400x768.size a
  hwx0_0 : ∀ i : grid0.Coords, EltTy.bits .f32 = 32 ∨ (Rect.block (s := S102400x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .f32 = 32 ∨ (Rect.block (s := S768x64) S768x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S102400x1.size a
  hwx0_2 : ∀ i : grid0.Coords, EltTy.bits .f32 = 32 ∨ (Rect.block (s := S102400x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S102400x64.size a
  hwx0_3 : ∀ i : grid0.Coords, EltTy.bits .f32 = 32 ∨ (Rect.block (s := S102400x64) S2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S102400x64.size a
  hwx1_0 : ∀ i : grid1.Coords, EltTy.bits .f32 = 32 ∨ (Rect.block (s := S102400x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S102400x1.size a
  hwx1_1 : ∀ i : grid1.Coords, EltTy.bits .f32 = 32 ∨ (Rect.block (s := S102400x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S102400x1.size a
  hwx1_3 : ∀ i : grid1.Coords, EltTy.bits .i32 = 32 ∨ (Rect.block (s := S102400x1) S2048x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x64.size a ≤ S102400x64.size a
  hwx1_6 : ∀ i : grid1.Coords, EltTy.bits .f32 = 32 ∨ (Rect.block (s := S102400x64) S2048x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S102400x64.size a
  hwx2_0 : ∀ i : grid2.Coords, EltTy.bits .f32 = 32 ∨ (Rect.block (s := S102400x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S102400x1.size a
  hwx2_1 : ∀ i : grid2.Coords, EltTy.bits .f32 = 32 ∨ (Rect.block (s := S102400x1) S4096x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x1.size a ≤ S102400x1.size a
  hwx2_3 : ∀ i : grid2.Coords, EltTy.bits .i32 = 32 ∨ (Rect.block (s := S102400x1) S4096x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)

variable [Facts₀]

def scatter_S102400_S1740800x1_S1740800_n_0_0_1 : ScatterDims S102400 S1740800x1 S1740800 where
  updateWindowDims := []
  insertedWindowDims := [0]
  scatterDimsToOperandDims := [0]
  indexVectorDim := 1
  wf := scatter_S102400_S1740800x1_S1740800_n_0_0_1_wf
def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def gather_S102400x64_S1740800x1_S1740800x64_1_0_n_n_0_1_164 : GatherDims S102400x64 S1740800x1 S1740800x64 where
  offsetDims := [1]
  collapsedSliceDims := [0]
  operandBatchingDims := []
  startIndicesBatchingDims := []
  startIndexMap := [0]
  indexVectorDim := 1
  sliceSizes := ![1, 64]
  wf := gather_S102400x64_S1740800x1_S1740800x64_1_0_n_n_0_1_164_wf
def scatter_S102400x64_S1740800x1_S1740800x64_1_0_0_1 : ScatterDims S102400x64 S1740800x1 S1740800x64 where
  updateWindowDims := [1]
  insertedWindowDims := [0]
  scatterDimsToOperandDims := [0]
  indexVectorDim := 1
  wf := scatter_S102400x64_S1740800x1_S1740800x64_1_0_0_1_wf
def gather_S102400x64_S128x1_S128x64_1_0_n_n_0_1_164 : GatherDims S102400x64 S128x1 S128x64 where
  offsetDims := [1]
  collapsedSliceDims := [0]
  operandBatchingDims := []
  startIndicesBatchingDims := []
  startIndexMap := [0]
  indexVectorDim := 1
  sliceSizes := ![1, 64]
  wf := gather_S102400x64_S128x1_S128x64_1_0_n_n_0_1_164_wf
def gather_S102400x1_S128x1_S128x1_1_0_n_n_0_1_11 : GatherDims S102400x1 S128x1 S128x1 where
  offsetDims := [1]
  collapsedSliceDims := [0]
  operandBatchingDims := []
  startIndicesBatchingDims := []
  startIndexMap := [0]
  indexVectorDim := 1
  sliceSizes := ![1, 1]
  wf := gather_S102400x1_S128x1_S128x1_1_0_n_n_0_1_11_wf
def gather_S102400x768_S128x1_S128x768_1_0_n_n_0_1_1768 : GatherDims S102400x768 S128x1 S128x768 where
  offsetDims := [1]
  collapsedSliceDims := [0]
  operandBatchingDims := []
  startIndicesBatchingDims := []
  startIndexMap := [0]
  indexVectorDim := 1
  sliceSizes := ![1, 768]
  wf := gather_S102400x768_S128x1_S128x768_1_0_n_n_0_1_1768_wf
def dot_S128x768_S768x64_S128x64_1_0_0_1_n_n : DotDims S128x768 S768x64 S128x64 where
  lhsContracting := [1]
  rhsContracting := [0]
  lhsNonContracting := [0]
  rhsNonContracting := [1]
  lhsBatch := []
  rhsBatch := []
  wf := dot_S128x768_S768x64_S128x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S4096x128_S4096x64_S128x64_0_0_1_1_n_n : DotDims S4096x128 S4096x64 S128x64 where
  lhsContracting := [0]
  rhsContracting := [0]
  lhsNonContracting := [1]
  rhsNonContracting := [1]
  lhsBatch := []
  rhsBatch := []
  wf := dot_S4096x128_S4096x64_S128x64_0_0_1_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v58) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S2048x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v69) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S4096x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v70_0) S128x64.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70_1) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S102400x768 : Shape := ⟨2, ![102400, 768]⟩
abbrev S2x1638400 : Shape := ⟨2, ![2, 1638400]⟩
abbrev S102400 : Shape := ⟨1, ![102400]⟩
abbrev S128 : Shape := ⟨1, ![128]⟩
abbrev S768x64 : Shape := ⟨2, ![768, 64]⟩
abbrev S64 : Shape := ⟨1, ![64]⟩
abbrev S832x64 : Shape := ⟨2, ![832, 64]⟩
abbrev S1x1638400 : Shape := ⟨2, ![1, 1638400]⟩
abbrev S1638400 : Shape := ⟨1, ![1638400]⟩
abbrev S102400x64 : Shape := ⟨2, ![102400, 64]⟩
abbrev S1740800 : Shape := ⟨1, ![1740800]⟩
abbrev S_ : Shape := ⟨0, ![]⟩
abbrev S1740800x1 : Shape := ⟨2, ![1740800, 1]⟩
abbrev S1740800x64 : Shape := ⟨2, ![1740800, 64]⟩
abbrev S1x64 : Shape := ⟨2, ![1, 64]⟩
abbrev S102400x1 : Shape := ⟨2, ![102400, 1]⟩
abbrev S102400x832 : Shape := ⟨2, ![102400, 832]⟩
abbrev S102400x128 : Shape := ⟨2, ![102400, 128]⟩
abbrev S128x128 : Shape := ⟨2, ![128, 128]⟩
abbrev S128x1 : Shape := ⟨2, ![128, 1]⟩

abbrev nBuf : Space → Nat
  | .hbm => 176
  | .vmem => 0
  | .smem => 0
  | _ => 0

abbrev hbmTy0_0 (i : Nat) : BufTy := match i % 128 with
  | 0 => ⟨S102400x768, .f32⟩
  | 1 => ⟨S2x1638400, .i32⟩
  | 2 => ⟨S102400, .i32⟩
  | 3 => ⟨S128, .i32⟩
  | 4 => ⟨S768x64, .f32⟩
  | 5 => ⟨S64, .f32⟩
  | 6 => ⟨S832x64, .f32⟩
  | 7 => ⟨S64, .f32⟩
  | 8 => ⟨S1x1638400, .i32⟩
  | 9 => ⟨S1638400, .i32⟩
  | 10 => ⟨S1x1638400, .i32⟩
  | 11 => ⟨S1638400, .i32⟩
  | 12 => ⟨S102400x64, .f32⟩
  | 13 => ⟨S102400, .i32⟩
  | 14 => ⟨S1740800, .i32⟩
  | 15 => ⟨S1740800, .i32⟩
  | 16 => ⟨S_, .f32⟩
  | 17 => ⟨S1740800, .f32⟩
  | 18 => ⟨S_, .f32⟩
  | 19 => ⟨S102400, .f32⟩
  | 20 => ⟨S1740800x1, .i32⟩
  | 21 => ⟨S102400, .f32⟩
  | 22 => ⟨S_, .f32⟩
  | 23 => ⟨S102400, .f32⟩
  | 24 => ⟨S102400, .f32⟩
  | 25 => ⟨S102400, .f32⟩
  | 26 => ⟨S_, .i32⟩
  | 27 => ⟨S1740800, .i32⟩
  | 28 => ⟨S1740800, .i1⟩
  | 29 => ⟨S_, .i32⟩
  | 30 => ⟨S1740800, .i32⟩
  | 31 => ⟨S1740800, .i32⟩
  | 32 => ⟨S1740800, .i32⟩
  | 33 => ⟨S1740800x1, .i32⟩
  | 34 => ⟨S1740800, .f32⟩
  | 35 => ⟨S_, .i32⟩
  | 36 => ⟨S1740800, .i32⟩
  | 37 => ⟨S1740800, .i1⟩
  | 38 => ⟨S_, .i32⟩
  | 39 => ⟨S1740800, .i32⟩
  | 40 => ⟨S1740800, .i32⟩
  | 41 => ⟨S1740800, .i32⟩
  | 42 => ⟨S1740800x1, .i32⟩
  | 43 => ⟨S1740800, .f32⟩
  | 44 => ⟨S1740800, .f32⟩
  | 45 => ⟨S_, .i32⟩
  | 46 => ⟨S1740800, .i32⟩
  | 47 => ⟨S1740800, .i1⟩
  | 48 => ⟨S_, .i32⟩
  | 49 => ⟨S1740800, .i32⟩
  | 50 => ⟨S1740800, .i32⟩
  | 51 => ⟨S1740800, .i32⟩
  | 52 => ⟨S1740800x1, .i32⟩
  | 53 => ⟨S1740800x64, .f32⟩
  | 54 => ⟨S1740800x1, .f32⟩
  | 55 => ⟨S1740800x64, .f32⟩
  | 56 => ⟨S1740800x64, .f32⟩
  | 57 => ⟨S_, .f32⟩
  | 58 => ⟨S102400x64, .f32⟩
  | 59 => ⟨S1740800x1, .i32⟩
  | 60 => ⟨S102400x64, .f32⟩
  | 61 => ⟨S1x64, .f32⟩
  | 62 => ⟨S102400x64, .f32⟩
  | 63 => ⟨S102400x64, .f32⟩
  | 64 => ⟨S_, .i32⟩
  | 65 => ⟨S102400, .i32⟩
  | 66 => ⟨S102400, .i1⟩
  | 67 => ⟨S_, .i32⟩
  | 68 => ⟨S102400, .i32⟩
  | 69 => ⟨S102400, .i32⟩
  | 70 => ⟨S102400, .i32⟩
  | 71 => ⟨S102400x1, .i32⟩
  | 72 => ⟨S102400, .i32⟩
  | 73 => ⟨S_, .i32⟩
  | 74 => ⟨S102400, .i32⟩
  | 75 => ⟨S102400, .i1⟩
  | 76 => ⟨S_, .i32⟩
  | 77 => ⟨S102400, .i32⟩
  | 78 => ⟨S102400, .i32⟩
  | 79 => ⟨S102400, .i32⟩
  | 80 => ⟨S102400x1, .i32⟩
  | 81 => ⟨S102400x768, .f32⟩
  | 82 => ⟨S102400x832, .f32⟩
  | 83 => ⟨S_, .f32⟩
  | 84 => ⟨S102400x832, .f32⟩
  | 85 => ⟨S102400x832, .f32⟩
  | 86 => ⟨S102400x64, .f32⟩
  | 87 => ⟨S102400, .i32⟩
  | 88 => ⟨S1740800, .i32⟩
  | 89 => ⟨S1740800, .i32⟩
  | 90 => ⟨S_, .f32⟩
  | 91 => ⟨S1740800, .f32⟩
  | 92 => ⟨S_, .f32⟩
  | 93 => ⟨S102400, .f32⟩
  | 94 => ⟨S1740800x1, .i32⟩
  | 95 => ⟨S102400, .f32⟩
  | 96 => ⟨S_, .f32⟩
  | 97 => ⟨S102400, .f32⟩
  | 98 => ⟨S102400, .f32⟩
  | 99 => ⟨S102400, .f32⟩
  | 100 => ⟨S_, .i32⟩
  | 101 => ⟨S1740800, .i32⟩
  | 102 => ⟨S1740800, .i1⟩
  | 103 => ⟨S_, .i32⟩
  | 104 => ⟨S1740800, .i32⟩
  | 105 => ⟨S1740800, .i32⟩
  | 106 => ⟨S1740800, .i32⟩
  | 107 => ⟨S1740800x1, .i32⟩
  | 108 => ⟨S1740800, .f32⟩
  | 109 => ⟨S_, .i32⟩
  | 110 => ⟨S1740800, .i32⟩
  | 111 => ⟨S1740800, .i1⟩
  | 112 => ⟨S_, .i32⟩
  | 113 => ⟨S1740800, .i32⟩
  | 114 => ⟨S1740800, .i32⟩
  | 115 => ⟨S1740800, .i32⟩
  | 116 => ⟨S1740800x1, .i32⟩
  | 117 => ⟨S1740800, .f32⟩
  | 118 => ⟨S1740800, .f32⟩
  | 119 => ⟨S_, .i32⟩
  | 120 => ⟨S1740800, .i32⟩
  | 121 => ⟨S1740800, .i1⟩
  | 122 => ⟨S_, .i32⟩
  | 123 => ⟨S1740800, .i32⟩
  | 124 => ⟨S1740800, .i32⟩
  | 125 => ⟨S1740800, .i32⟩
  | 126 => ⟨S1740800x1, .i32⟩
  | 127 => ⟨S1740800x64, .f32⟩
  | _ => ⟨S102400x768, .f32⟩

abbrev hbmTy0_1 (i : Nat) : BufTy := match i % 128 with
  | 0 => ⟨S1740800x1, .f32⟩
  | 1 => ⟨S1740800x64, .f32⟩
  | 2 => ⟨S1740800x64, .f32⟩
  | 3 => ⟨S_, .f32⟩
  | 4 => ⟨S102400x64, .f32⟩
  | 5 => ⟨S1740800x1, .i32⟩
  | 6 => ⟨S102400x64, .f32⟩
  | 7 => ⟨S1x64, .f32⟩
  | 8 => ⟨S102400x64, .f32⟩
  | 9 => ⟨S102400x64, .f32⟩
  | 10 => ⟨S_, .f32⟩
  | 11 => ⟨S102400x64, .f32⟩
  | 12 => ⟨S102400x64, .f32⟩
  | 13 => ⟨S_, .i32⟩
  | 14 => ⟨S102400, .i32⟩
  | 15 => ⟨S102400, .i1⟩
  | 16 => ⟨S_, .i32⟩
  | 17 => ⟨S102400, .i32⟩
  | 18 => ⟨S102400, .i32⟩
  | 19 => ⟨S102400, .i32⟩
  | 20 => ⟨S102400x1, .i32⟩
  | 21 => ⟨S102400, .i32⟩
  | 22 => ⟨S_, .i32⟩
  | 23 => ⟨S102400, .i32⟩
  | 24 => ⟨S102400, .i1⟩
  | 25 => ⟨S_, .i32⟩
  | 26 => ⟨S102400, .i32⟩
  | 27 => ⟨S102400, .i32⟩
  | 28 => ⟨S102400, .i32⟩
  | 29 => ⟨S102400x1, .i32⟩
  | 30 => ⟨S102400x64, .f32⟩
  | 31 => ⟨S102400x128, .f32⟩
  | 32 => ⟨S_, .f32⟩
  | 33 => ⟨S128x128, .f32⟩
  | 34 => ⟨S102400x1, .i32⟩
  | 35 => ⟨S128x128, .f32⟩
  | 36 => ⟨S_, .f32⟩
  | 37 => ⟨S102400, .f32⟩
  | 38 => ⟨S_, .f32⟩
  | 39 => ⟨S128, .f32⟩
  | 40 => ⟨S102400x1, .i32⟩
  | 41 => ⟨S128, .f32⟩
  | 42 => ⟨S_, .f32⟩
  | 43 => ⟨S128, .f32⟩
  | 44 => ⟨S128, .f32⟩
  | 45 => ⟨S128x1, .f32⟩
  | 46 => ⟨S128x128, .f32⟩
  | 47 => ⟨S128x128, .f32⟩
  | _ => ⟨S102400x768, .f32⟩

abbrev hbmTy (i : Nat) : BufTy := match i / 128 with
  | 0 => hbmTy0_0 i
  | 1 => hbmTy0_1 i
  | _ => ⟨S102400x768, .f32⟩

abbrev bufTy : (tb : Table) → Fin (tcTables nBuf tb) → BufTy
  | .hbm, ⟨i, _⟩ => hbmTy i
  | _, _ => ⟨S102400x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call0_cst : Ref sig .tc := ⟨.hbm, 83, rfl⟩
abbrev main_call0_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_17 : Ref sig .tc := ⟨.hbm, 109, rfl⟩
abbrev main_v80 : Ref sig .tc := ⟨.hbm, 110, rfl⟩
abbrev main_v81 : Ref sig .tc := ⟨.hbm, 111, rfl⟩
abbrev main_c_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_19 : Ref sig .tc := ⟨.hbm, 119, rfl⟩
abbrev main_v88 : Ref sig .tc := ⟨.hbm, 120, rfl⟩
abbrev main_v89 : Ref sig .tc := ⟨.hbm, 121, rfl⟩
abbrev main_c_20 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_21 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_call1_cst : Ref sig .tc := ⟨.hbm, 138, rfl⟩
abbrev main_call1_v0 : Ref sig .tc := ⟨.hbm, 139, rfl⟩
abbrev main_v104 : Ref sig .tc := ⟨.hbm, 140, rfl⟩
abbrev main_c_22 : Ref sig .tc := ⟨.hbm, 141, rfl⟩
abbrev main_v105 : Ref sig .tc := ⟨.hbm, 142, rfl⟩
abbrev main_v106 : Ref sig .tc := ⟨.hbm, 143, rfl⟩
abbrev main_c_23 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_c_24 : Ref sig .tc := ⟨.hbm, 150, rfl⟩
abbrev main_v112 : Ref sig .tc := ⟨.hbm, 151, rfl⟩
abbrev main_v113 : Ref sig .tc := ⟨.hbm, 152, rfl⟩
abbrev main_c_25 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_27 : Ref sig .tc := ⟨.hbm, 164, rfl⟩
abbrev main_v123 : Ref sig .tc := ⟨.hbm, 165, rfl⟩
abbrev main_cst_28 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_29 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩

abbrev nD : Nat := 1
abbrev τ : Topo := Topo.v7x

variable {F : FTy → Type} [FloatOps F]

class Facts₀ : Prop where
  slices_S2x1638400_S1x1638400_0_0 : S2x1638400.Slices ![0, 0] S1x1638400
  shapeCasts_S1x1638400_S1638400 : S1x1638400.ShapeCasts S1638400
  slices_S2x1638400_S1x1638400_1_0 : S2x1638400.Slices ![1, 0] S1x1638400
  concatenates_S1638400_S102400_S1740800_d0 : Shape.Concatenates [S1638400, S102400] S1740800 0
  bcast_S_S1740800 : S_.BroadcastsInDim S1740800 (![] : Fin 0 → Fin S1740800.rank)
  bcast_S_S102400 : S_.BroadcastsInDim S102400 (![] : Fin 0 → Fin S102400.rank)
  bcast_S1740800_S1740800x1_0 : S1740800.BroadcastsInDim S1740800x1 (![0] : Fin 1 → Fin S1740800x1.rank)
  bcast_S1740800x1_S1740800x64_0_1 : S1740800x1.BroadcastsInDim S1740800x64 (![0, 1] : Fin 2 → Fin S1740800x64.rank)
  bcast_S_S102400x64 : S_.BroadcastsInDim S102400x64 (![] : Fin 0 → Fin S102400x64.rank)
  bcast_S64_S1x64_1 : S64.BroadcastsInDim S1x64 (![1] : Fin 1 → Fin S1x64.rank)
  bcast_S1x64_S102400x64_0_1 : S1x64.BroadcastsInDim S102400x64 (![0, 1] : Fin 2 → Fin S102400x64.rank)
  bcast_S102400_S102400x1_0 : S102400.BroadcastsInDim S102400x1 (![0] : Fin 1 → Fin S102400x1.rank)
  concatenates_S102400x64_S102400x768_S102400x832_d1 : Shape.Concatenates [S102400x64, S102400x768] S102400x832 1
  bcast_S_S102400x832 : S_.BroadcastsInDim S102400x832 (![] : Fin 0 → Fin S102400x832.rank)
  concatenates_S102400x64_S102400x64_S102400x128_d1 : Shape.Concatenates [S102400x64, S102400x64] S102400x128 1
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  dot_S102400x768_S768x64_S102400x64_1_0_0_1_n_n_wf : DotDims.WF S102400x768 S768x64 S102400x64 [1] [0] [0] [1] [] []
  scatter_S102400_S1740800x1_S1740800_n_0_0_1_wf : ScatterDims.WF S102400 S1740800x1 S1740800 [] [0] [0] 1
  gather_S102400_S1740800x1_S1740800_n_0_n_n_0_1_1_wf : GatherDims.WF S102400 S1740800x1 S1740800 [] [0] [] [0] [] 1 ![1]
  gather_S102400x64_S1740800x1_S1740800x64_1_0_n_n_0_1_164_wf : GatherDims.WF S102400x64 S1740800x1 S1740800x64 [1] [0] [] [0] [] 1 ![1, 64]
  scatter_S102400x64_S1740800x1_S1740800x64_1_0_0_1_wf : ScatterDims.WF S102400x64 S1740800x1 S1740800x64 [1] [0] [0] 1
  gather_S128_S102400x1_S102400_n_0_n_n_0_1_1_wf : GatherDims.WF S128 S102400x1 S102400 [] [0] [] [0] [] 1 ![1]
  gather_S102400x768_S102400x1_S102400x768_1_0_n_n_0_1_1768_wf : GatherDims.WF S102400x768 S102400x1 S102400x768 [1] [0] [] [0] [] 1 ![1, 768]
  dot_S102400x832_S832x64_S102400x64_1_0_0_1_n_n_wf : DotDims.WF S102400x832 S832x64 S102400x64 [1] [0] [0] [1] [] []
  gather_S102400x64_S102400x1_S102400x64_1_0_n_n_0_1_164_wf : GatherDims.WF S102400x64 S102400x1 S102400x64 [1] [0] [] [0] [] 1 ![1, 64]
  scatter_S128x128_S102400x1_S102400x128_1_0_0_1_wf : ScatterDims.WF S128x128 S102400x1 S102400x128 [1] [0] [0] 1
  scatter_S128_S102400x1_S102400_n_0_0_1_wf : ScatterDims.WF S128 S102400x1 S102400 [] [0] [0] 1

variable [Facts₀]

def dot_S102400x768_S768x64_S102400x64_1_0_0_1_n_n : DotDims S102400x768 S768x64 S102400x64 where
  lhsContracting := [1]
  rhsContracting := [0]
  lhsNonContracting := [0]
  rhsNonContracting := [1]
  lhsBatch := []
  rhsBatch := []
  wf := dot_S102400x768_S768x64_S102400x64_1_0_0_1_n_n_wf
def scatter_S102400_S1740800x1_S1740800_n_0_0_1 : ScatterDims S102400 S1740800x1 S1740800 where
  updateWindowDims := []
  insertedWindowDims := [0]
  scatterDimsToOperandDims := [0]
  indexVectorDim := 1
  wf := scatter_S102400_S1740800x1_S1740800_n_0_0_1_wf
def gather_S102400_S1740800x1_S1740800_n_0_n_n_0_1_1 : GatherDims S102400 S1740800x1 S1740800 where
  offsetDims := []
  collapsedSliceDims := [0]
  operandBatchingDims := []
  startIndicesBatchingDims := []
  startIndexMap := [0]
  indexVectorDim := 1
  sliceSizes := ![1]
  wf := gather_S102400_S1740800x1_S1740800_n_0_n_n_0_1_1_wf
def gather_S102400x64_S1740800x1_S1740800x64_1_0_n_n_0_1_164 : GatherDims S102400x64 S1740800x1 S1740800x64 where
  offsetDims := [1]
  collapsedSliceDims := [0]
  operandBatchingDims := []
  startIndicesBatchingDims := []
  startIndexMap := [0]
  indexVectorDim := 1
  sliceSizes := ![1, 64]
  wf := gather_S102400x64_S1740800x1_S1740800x64_1_0_n_n_0_1_164_wf
def scatter_S102400x64_S1740800x1_S1740800x64_1_0_0_1 : ScatterDims S102400x64 S1740800x1 S1740800x64 where
  updateWindowDims := [1]
  insertedWindowDims := [0]
  scatterDimsToOperandDims := [0]
  indexVectorDim := 1
  wf := scatter_S102400x64_S1740800x1_S1740800x64_1_0_0_1_wf
def gather_S128_S102400x1_S102400_n_0_n_n_0_1_1 : GatherDims S128 S102400x1 S102400 where
  offsetDims := []
  collapsedSliceDims := [0]
  operandBatchingDims := []
  startIndicesBatchingDims := []
  startIndexMap := [0]
  indexVectorDim := 1
  sliceSizes := ![1]
  wf := gather_S128_S102400x1_S102400_n_0_n_n_0_1_1_wf
def gather_S102400x768_S102400x1_S102400x768_1_0_n_n_0_1_1768 : GatherDims S102400x768 S102400x1 S102400x768 where
  offsetDims := [1]
  collapsedSliceDims := [0]
  operandBatchingDims := []
  startIndicesBatchingDims := []
  startIndexMap := [0]
  indexVectorDim := 1
  sliceSizes := ![1, 768]
  wf := gather_S102400x768_S102400x1_S102400x768_1_0_n_n_0_1_1768_wf
def dot_S102400x832_S832x64_S102400x64_1_0_0_1_n_n : DotDims S102400x832 S832x64 S102400x64 where
  lhsContracting := [1]
  rhsContracting := [0]
  lhsNonContracting := [0]
  rhsNonContracting := [1]
  lhsBatch := []
  rhsBatch := []
  wf := dot_S102400x832_S832x64_S102400x64_1_0_0_1_n_n_wf
def gather_S102400x64_S102400x1_S102400x64_1_0_n_n_0_1_164 : GatherDims S102400x64 S102400x1 S102400x64 where
  offsetDims := [1]
  collapsedSliceDims := [0]
  operandBatchingDims := []
  startIndicesBatchingDims := []
  startIndexMap := [0]
  indexVectorDim := 1
  sliceSizes := ![1, 64]
  wf := gather_S102400x64_S102400x1_S102400x64_1_0_n_n_0_1_164_wf
def scatter_S128x128_S102400x1_S102400x128_1_0_0_1 : ScatterDims S128x128 S102400x1 S102400x128 where
  updateWindowDims := [1]
  insertedWindowDims := [0]
  scatterDimsToOperandDims := [0]
  indexVectorDim := 1
  wf := scatter_S128x128_S102400x1_S102400x128_1_0_0_1_wf
def scatter_S128_S102400x1_S102400_n_0_0_1 : ScatterDims S128 S102400x1 S102400 where
  updateWindowDims := []
  insertedWindowDims := [0]
  scatterDimsToOperandDims := [0]
  indexVectorDim := 1
  wf := scatter_S128_S102400x1_S102400_n_0_0_1_wf

class Facts : Prop extends Facts₀ where

variable [Facts]
-- ==== Proof.Spec.lean ====
/-
  The two programs as index-by-index formulas over the extended reals.

  A graph of 102400 nodes carries 1740800 directed edges (the given ones, then one self-loop per node); edge e has a
  source position s e and a target position d e, 32-bit words. A word used to READ a table is taken the numpy way
  (a negative position counts from the end) and then clamped into the table; a word used to ADD INTO a table lands on
  row r exactly when it is r as a signed integer, and is dropped otherwise. deg n counts the edges landing on n,
  dinv n = (max (deg n) 1)^(-1/2).

  Reference form: each layer gathers P (src e) * (dinv (src e) * dinv (dst e)) and adds it into the target row.
  Kernel form: the rows are pre-scaled by dinv before the gather and the summed row is scaled by dinv n afterwards;
  the second layer's product over the 832 concatenated features is split into its first 64 and last 768 columns, the
  latter pre-multiplied once per graph (zK) and selected by the node's graph; the per-graph sums are accumulated over
  25 tiles of 4096 nodes, and the root half of each graph's sum is the node count times the root's row.
-/
import Idealize.ShloMosaic.PureOps.Ideal
import Idealize.ShloMosaic.Lib.ValueIdx

noncomputable section

namespace Cert.Spec

open Idealize.ShloMosaic Idealize.ShloMosaic.ValueIdx
open scoped BigOperators

/-! ## Positions read off 32-bit words -/

/-- numpy's negative indexing: a negative position counts from the end of an axis of length len. -/
def wrapPos (len v : BitVec 32) : BitVec 32 := if v.slt 0#32 then v + len else v

/-- A gather clamps its signed start position into the axis. -/
def clampPos (n : Nat) (hn : 0 < n) (v : BitVec 32) : Fin n := ⟨min v.toInt.toNat (n - 1), by omega⟩

/-- The row that table[v] reads on an axis of length n: wrapped, then clamped. -/
def rowOf (n : Nat) (hn : 0 < n) (v : BitVec 32) : Fin n := clampPos n hn (wrapPos (BitVec.ofNat 32 n) v)

/-- An update at position v lands on row r exactly when v, read signed, is r. -/
def Lands {n : Nat} (v : BitVec 32) (r : Fin n) : Prop := v.toInt = (r.val : Int)

instance {n : Nat} (v : BitVec 32) (r : Fin n) : Decidable (Lands v r) := inferInstanceAs (Decidable (_ = _))

/-- The edge list's sources: the given ones, then every node (its self-loop). -/
def srcOf (ei : IVec ⟨2, ![2, 1638400]⟩ 32) (e : Fin 1740800) : BitVec 32 :=
  if h : e.val < 1638400 then ei (ix2 (0 : Fin 2) (⟨e.val, h⟩ : Fin 1638400)) else BitVec.ofNat 32 (e.val - 1638400)

/-- The edge list's targets: the given ones, then every node. -/
def dstOf (ei : IVec ⟨2, ![2, 1638400]⟩ 32) (e : Fin 1740800) : BitVec 32 :=
  if h : e.val < 1638400 then ei (ix2 (1 : Fin 2) (⟨e.val, h⟩ : Fin 1638400)) else BitVec.ofNat 32 (e.val - 1638400)

section Forms

variable (x : FVec Ideal ⟨2, ![102400, 768]⟩ .f32) (W1 : FVec Ideal ⟨2, ![768, 64]⟩ .f32) (b1 : FVec Ideal ⟨1, ![64]⟩ .f32)
  (W2 : FVec Ideal ⟨2, ![832, 64]⟩ .f32) (b2 : FVec Ideal ⟨1, ![64]⟩ .f32)
  (s d : Fin 1740800 → BitVec 32) (bt : Fin 102400 → BitVec 32) (rt : Fin 128 → BitVec 32)

/-! ## Shared by both forms -/

/-- The node an edge reads from. -/
def srcRow (e : Fin 1740800) : Fin 102400 := rowOf 102400 (by decide) (s e)
/-- The node an edge's target word reads as a table position. -/
def dstRow (e : Fin 1740800) : Fin 102400 := rowOf 102400 (by decide) (d e)
/-- The number of edges landing on node n. -/
def deg (n : Fin 102400) : EReal := 0 + ∑ e ∈ Finset.univ.filter (fun e => Lands (d e) n), (1 : EReal)
/-- The symmetric normalisation's factor at node n. -/
def dinv (n : Fin 102400) : EReal := Ideal.rsqrt (max (deg d n) 1)
/-- The first layer's projection x W1. -/
def proj1 (n : Fin 102400) (j : Fin 64) : EReal := ∑ k : Fin 768, x (ix2 n k) * W1 (ix2 k j)
/-- The node whose row is graph g's root. -/
def rootRow (g : Fin 128) : Fin 102400 := rowOf 102400 (by decide) (rt g)
/-- The graph a node's batch word reads as a table position. -/
def graphOf (n : Fin 102400) : Fin 128 := rowOf 128 (by decide) (bt n)

/-! ## The reference's form -/

/-- Edge e's weight. -/
def edgeNorm (e : Fin 1740800) : EReal := dinv d (srcRow s e) * dinv d (dstRow d e)
/-- One layer's aggregation of the rows P: the weighted source rows added into their targets. -/
def aggRef (P : Fin 102400 → Fin 64 → EReal) (n : Fin 102400) (j : Fin 64) : EReal :=
  0 + ∑ e ∈ Finset.univ.filter (fun e => Lands (d e) n), P (srcRow s e) j * edgeNorm s d e
/-- The first layer's output. -/
def h1Ref (n : Fin 102400) (j : Fin 64) : EReal := aggRef s d (proj1 x W1) n j + b1 (ix1 j)
/-- The second layer's input before the rectifier: the first layer's row beside the node's graph's root features. -/
def catRef (n : Fin 102400) (k : Fin 832) : EReal :=
  if h : k.val < 64 then h1Ref x W1 b1 s d n ⟨k.val, h⟩
  else x (ix2 (rootRow rt (graphOf bt n)) (⟨k.val - 64, by omega⟩ : Fin 768))
/-- The second layer's projection. -/
def proj2Ref (n : Fin 102400) (j : Fin 64) : EReal :=
  ∑ k : Fin 832, max (catRef x W1 b1 s d bt rt n k) 0 * W2 (ix2 k j)
/-- The second layer's output. -/
def h2Ref (n : Fin 102400) (j : Fin 64) : EReal := aggRef s d (proj2Ref x W1 b1 W2 s d bt rt) n j + b2 (ix1 j)
/-- A node's final features: the rectified second layer beside its graph's root's first-layer row. -/
def featRef (n : Fin 102400) (c : Fin 128) : EReal :=
  if h : c.val < 64 then max (h2Ref x W1 b1 W2 b2 s d bt rt n ⟨c.val, h⟩) 0
  else h1Ref x W1 b1 s d (rootRow rt (graphOf bt n)) (⟨c.val - 64, by omega⟩ : Fin 64)
/-- Graph g's sum of its nodes' features. -/
def sumsRef (g : Fin 128) (c : Fin 128) : EReal :=
  0 + ∑ n ∈ Finset.univ.filter (fun n => Lands (bt n) g), featRef x W1 b1 W2 b2 s d bt rt n c
/-- Graph g's node count. -/
def cntRef (g : Fin 128) : EReal := 0 + ∑ n ∈ Finset.univ.filter (fun n => Lands (bt n) g), (1 : EReal)
/-- The reference's result: each graph's mean features. -/
def outRef (g : Fin 128) (c : Fin 128) : EReal :=
  Ideal.div (sumsRef x W1 b1 W2 b2 s d bt rt g c) (max (cntRef bt g) 1)

/-! ## The kernel's form -/

/-- The first projection, pre-scaled at the source. -/
def hs1K (n : Fin 102400) (j : Fin 64) : EReal := proj1 x W1 n j * dinv d n
/-- The pre-scaled rows added into their targets. -/
def aggK (P : Fin 102400 → Fin 64 → EReal) (n : Fin 102400) (j : Fin 64) : EReal :=
  0 + ∑ e ∈ Finset.univ.filter (fun e => Lands (d e) n), P (srcRow s e) j
/-- The first layer's output: the summed row scaled at the target, plus the bias. -/
def h1K (n : Fin 102400) (j : Fin 64) : EReal := aggK s d (hs1K x W1 d) n j * dinv d n + b1 (ix1 j)
/-- Graph g's root features, rectified, through the last 768 rows of W2. -/
def zK (g : Fin 128) (j : Fin 64) : EReal :=
  ∑ k : Fin 768, max (x (ix2 (rootRow rt g) k)) 0 * W2 (ix2 (⟨64 + k.val, by omega⟩ : Fin 832) j)
/-- One where node n's batch word is g, zero elsewhere. -/
def hot (n : Fin 102400) (g : Fin 128) : EReal := if bt n = BitVec.ofNat 32 g.val then 1 else 0
/-- The second projection, split and pre-scaled at the source. -/
def hs2K (n : Fin 102400) (j : Fin 64) : EReal :=
  (∑ k : Fin 64, max (h1K x W1 b1 s d n k) 0 * W2 (ix2 (⟨k.val, by omega⟩ : Fin 832) j)
    + ∑ g : Fin 128, hot bt n g * zK x W2 rt g j) * dinv d n
/-- The rectified second layer. -/
def r2K (n : Fin 102400) (j : Fin 64) : EReal :=
  max (aggK s d (hs2K x W1 b1 W2 s d bt rt) n j * dinv d n + b2 (ix1 j)) 0
/-- Row i of tile t (t is taken modulo 25 so that the definition is total). -/
def tileRow (t : Nat) (i : Fin 4096) : Fin 102400 :=
  ⟨(t % 25) * 4096 + i.val, by have := Nat.mod_lt t (show 0 < 25 by decide); omega⟩
/-- Tile t's contribution to graph g's sum. -/
def tileSum (t : Nat) (g : Fin 128) (j : Fin 64) : EReal :=
  ∑ i : Fin 4096, hot bt (tileRow t i) g * r2K x W1 b1 W2 b2 s d bt rt (tileRow t i) j
/-- Tile t's contribution to graph g's count. -/
def tileCnt (t : Nat) (g : Fin 128) : EReal := ∑ i : Fin 4096, hot bt (tileRow t i) g
/-- The sums after tiles 0 to t, accumulated in order from zero. -/
def accSum : Nat → Fin 128 → Fin 64 → EReal
  | 0 => fun g j => 0 + tileSum x W1 b1 W2 b2 s d bt rt 0 g j
  | t + 1 => fun g j => accSum t g j + tileSum x W1 b1 W2 b2 s d bt rt (t + 1) g j
/-- The counts after tiles 0 to t. -/
def accCnt : Nat → Fin 128 → EReal
  | 0 => fun g => 0 + tileCnt bt 0 g
  | t + 1 => fun g => accCnt t g + tileCnt bt (t + 1) g
/-- The kernel's result. -/
def outK (g : Fin 128) (c : Fin 128) : EReal :=
  Ideal.div
    (if h : c.val < 64 then accSum x W1 b1 W2 b2 s d bt rt 24 g ⟨c.val, h⟩
     else accCnt bt 24 g * h1K x W1 b1 s d (rootRow rt g) (⟨c.val - 64, by omega⟩ : Fin 64))
    (max (accCnt bt 24 g) 1)

end Forms

/-! ## Two small pieces the per-program readings are stated with -/

/-- One where the word w is the number g, zero otherwise. -/
def hotW (w : BitVec 32) (g : Fin 128) : EReal := if w = BitVec.ofNat 32 g.val then 1 else 0

/-- Contributions f 0, f 1, ... accumulated in order from zero: ((0 + f 0) + f 1) + ... + f t. -/
def accT (f : Nat → EReal) : Nat → EReal
  | 0 => 0 + f 0
  | t + 1 => accT f t + f (t + 1)

end Cert.Spec

end
-- ==== Proof.KernelKeep.lean ====
/- The template is three kinds of step, each an equation between one buffer's contents at two boundaries of the run: through a
   stretch of host operations none of which writes the buffer (keep_host), through a region none of whose windows is the buffer
   (WJ_of_ne), through a region that reads the buffer through an input window (WJ_arr, arrAt_in, A_eqK); the table says which
   buffer takes which step at which boundary, and the composites chain the steps. -/
/- Buffers carried unchanged between the boundaries of the run's fold of buffer contents.

   The fold W0 .. W9 gives the TensorCore's buffer contents at each boundary of @main: a stretch of host
   operations rewrites exactly the buffers its operations write, and a region rewrites exactly its windows'
   arrays (an input window's array to what it held at entry). So a buffer that no operation of a stretch writes
   holds after the stretch what it held before, a buffer that is no window of a region holds after the region what
   it held before, and so does a buffer the region only reads through an input window. Each theorem below is one
   such equation; the composites chain them across several boundaries. -/
import proofs.«405491_j5480378270219_3_alg».proof.Proof.Gen.KernelIdeal.Frame

set_option maxRecDepth 16384

namespace Cert.KernelIdeal.Keep

open Cert.KernelIdeal Cert.KernelIdeal.Gen Idealize.ShloMosaic Idealize.ShloMosaic.TcCoe

variable {F : FTy → Type} [FloatOps F]
variable (m : (ℓ : Loc nD τ sig) → Buf (Elt F) ℓ) (ρ : Dev nD → PrngReg)

/-- A buffer that no operation of a stretch of host operations writes holds after the stretch what it held
    before: each operation's written buffer is a reference other than the given one. -/
local macro "keep_host " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Through the first stretch of host operations (W1 from W0): the arguments it only reads -/

theorem keep_arg0_1_0 (c : Dev nD) :
    W1 m ρ c (Proc.devRef .tc main_arg0) = W0 m ρ c (Proc.devRef .tc main_arg0) :=
  keep_host hostOps0 main_arg0
theorem keep_arg3_1_0 (c : Dev nD) :
    W1 m ρ c (Proc.devRef .tc main_arg3) = W0 m ρ c (Proc.devRef .tc main_arg3) :=
  keep_host hostOps0 main_arg3
theorem keep_arg4_1_0 (c : Dev nD) :
    W1 m ρ c (Proc.devRef .tc main_arg4) = W0 m ρ c (Proc.devRef .tc main_arg4) :=
  keep_host hostOps0 main_arg4
theorem keep_arg5_1_0 (c : Dev nD) :
    W1 m ρ c (Proc.devRef .tc main_arg5) = W0 m ρ c (Proc.devRef .tc main_arg5) :=
  keep_host hostOps0 main_arg5
theorem keep_arg6_1_0 (c : Dev nD) :
    W1 m ρ c (Proc.devRef .tc main_arg6) = W0 m ρ c (Proc.devRef .tc main_arg6) :=
  keep_host hostOps0 main_arg6

/-! ## Through region 0 (W2 from W1): the buffers that are none of its windows, and its input windows' arrays -/

theorem keep_v5_2_1 (c : Dev nD) :
    W2 m ρ c (Proc.devRef .tc main_v5) = W1 m ρ c (Proc.devRef .tc main_v5) :=
  W2_of_ne m ρ c main_v5 (by decide)
theorem keep_v6_2_1 (c : Dev nD) :
    W2 m ρ c (Proc.devRef .tc main_v6) = W1 m ρ c (Proc.devRef .tc main_v6) :=
  W2_of_ne m ρ c main_v6 (by decide)
theorem keep_v15_2_1 (c : Dev nD) :
    W2 m ρ c (Proc.devRef .tc main_v15) = W1 m ρ c (Proc.devRef .tc main_v15) :=
  W2_of_ne m ρ c main_v15 (by decide)
theorem keep_v16_2_1 (c : Dev nD) :
    W2 m ρ c (Proc.devRef .tc main_v16) = W1 m ρ c (Proc.devRef .tc main_v16) :=
  W2_of_ne m ρ c main_v16 (by decide)
theorem keep_v17_2_1 (c : Dev nD) :
    W2 m ρ c (Proc.devRef .tc main_v17) = W1 m ρ c (Proc.devRef .tc main_v17) :=
  W2_of_ne m ρ c main_v17 (by decide)
theorem keep_arg3_2_1 (c : Dev nD) :
    W2 m ρ c (Proc.devRef .tc main_arg3) = W1 m ρ c (Proc.devRef .tc main_arg3) :=
  W2_of_ne m ρ c main_arg3 (by decide)
theorem keep_arg5_2_1 (c : Dev nD) :
    W2 m ρ c (Proc.devRef .tc main_arg5) = W1 m ρ c (Proc.devRef .tc main_arg5) :=
  W2_of_ne m ρ c main_arg5 (by decide)
theorem keep_arg6_2_1 (c : Dev nD) :
    W2 m ρ c (Proc.devRef .tc main_arg6) = W1 m ρ c (Proc.devRef .tc main_arg6) :=
  W2_of_ne m ρ c main_arg6 (by decide)
theorem keep_arg0_2_1 (c : Dev nD) :
    W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem keep_arg4_2_1 (c : Dev nD) :
    W2 m ρ c (Proc.devRef .tc main_arg4) = W1 m ρ c (Proc.devRef .tc main_arg4) :=
  (W2_arr m ρ c 1).trans (((dat0 (V1 m ρ) c).arrAt_in 1 rfl _).trans (A_eq0 (V1 m ρ) c 1))
theorem keep_v14_2_1 (c : Dev nD) :
    W2 m ρ c (Proc.devRef .tc main_v14) = W1 m ρ c (Proc.devRef .tc main_v14) :=
  (W2_arr m ρ c 2).trans (((dat0 (V1 m ρ) c).arrAt_in 2 rfl _).trans (A_eq0 (V1 m ρ) c 2))

/-! ## Through the three stretches between regions 0 and 1 (W5 from W2) -/

theorem keep_v5_5_2 (c : Dev nD) :
    W5 m ρ c (Proc.devRef .tc main_v5) = W2 m ρ c (Proc.devRef .tc main_v5) :=
  calc W5 m ρ c (Proc.devRef .tc main_v5)
    _ = W4 m ρ c (Proc.devRef .tc main_v5) := keep_host hostOps1_2 main_v5
    _ = W3 m ρ c (Proc.devRef .tc main_v5) := keep_host hostOps1_1 main_v5
    _ = W2 m ρ c (Proc.devRef .tc main_v5) := keep_host hostOps1 main_v5
theorem keep_v6_5_2 (c : Dev nD) :
    W5 m ρ c (Proc.devRef .tc main_v6) = W2 m ρ c (Proc.devRef .tc main_v6) :=
  calc W5 m ρ c (Proc.devRef .tc main_v6)
    _ = W4 m ρ c (Proc.devRef .tc main_v6) := keep_host hostOps1_2 main_v6
    _ = W3 m ρ c (Proc.devRef .tc main_v6) := keep_host hostOps1_1 main_v6
    _ = W2 m ρ c (Proc.devRef .tc main_v6) := keep_host hostOps1 main_v6
theorem keep_v14_5_2 (c : Dev nD) :
    W5 m ρ c (Proc.devRef .tc main_v14) = W2 m ρ c (Proc.devRef .tc main_v14) :=
  calc W5 m ρ c (Proc.devRef .tc main_v14)
    _ = W4 m ρ c (Proc.devRef .tc main_v14) := keep_host hostOps1_2 main_v14
    _ = W3 m ρ c (Proc.devRef .tc main_v14) := keep_host hostOps1_1 main_v14
    _ = W2 m ρ c (Proc.devRef .tc main_v14) := keep_host hostOps1 main_v14
theorem keep_v15_5_2 (c : Dev nD) :
    W5 m ρ c (Proc.devRef .tc main_v15) = W2 m ρ c (Proc.devRef .tc main_v15) :=
  calc W5 m ρ c (Proc.devRef .tc main_v15)
    _ = W4 m ρ c (Proc.devRef .tc main_v15) := keep_host hostOps1_2 main_v15
    _ = W3 m ρ c (Proc.devRef .tc main_v15) := keep_host hostOps1_1 main_v15
    _ = W2 m ρ c (Proc.devRef .tc main_v15) := keep_host hostOps1 main_v15
theorem keep_v16_5_2 (c : Dev nD) :
    W5 m ρ c (Proc.devRef .tc main_v16) = W2 m ρ c (Proc.devRef .tc main_v16) :=
  calc W5 m ρ c (Proc.devRef .tc main_v16)
    _ = W4 m ρ c (Proc.devRef .tc main_v16) := keep_host hostOps1_2 main_v16
    _ = W3 m ρ c (Proc.devRef .tc main_v16) := keep_host hostOps1_1 main_v16
    _ = W2 m ρ c (Proc.devRef .tc main_v16) := keep_host hostOps1 main_v16
theorem keep_v17_5_2 (c : Dev nD) :
    W5 m ρ c (Proc.devRef .tc main_v17) = W2 m ρ c (Proc.devRef .tc main_v17) :=
  calc W5 m ρ c (Proc.devRef .tc main_v17)
    _ = W4 m ρ c (Proc.devRef .tc main_v17) := keep_host hostOps1_2 main_v17
    _ = W3 m ρ c (Proc.devRef .tc main_v17) := keep_host hostOps1_1 main_v17
    _ = W2 m ρ c (Proc.devRef .tc main_v17) := keep_host hostOps1 main_v17

/-! ## Through region 1 (W6 from W5) -/

theorem keep_v5_6_5 (c : Dev nD) :
    W6 m ρ c (Proc.devRef .tc main_v5) = W5 m ρ c (Proc.devRef .tc main_v5) :=
  W6_of_ne m ρ c main_v5 (by decide)
theorem keep_v6_6_5 (c : Dev nD) :
    W6 m ρ c (Proc.devRef .tc main_v6) = W5 m ρ c (Proc.devRef .tc main_v6) :=
  W6_of_ne m ρ c main_v6 (by decide)
theorem keep_v16_6_5 (c : Dev nD) :
    W6 m ρ c (Proc.devRef .tc main_v16) = W5 m ρ c (Proc.devRef .tc main_v16) :=
  W6_of_ne m ρ c main_v16 (by decide)
theorem keep_v47_6_5 (c : Dev nD) :
    W6 m ρ c (Proc.devRef .tc main_v47) = W5 m ρ c (Proc.devRef .tc main_v47) :=
  W6_of_ne m ρ c main_v47 (by decide)
theorem keep_v14_6_5 (c : Dev nD) :
    W6 m ρ c (Proc.devRef .tc main_v14) = W5 m ρ c (Proc.devRef .tc main_v14) :=
  (W6_arr m ρ c 1).trans (((dat1 (V5 m ρ) c).arrAt_in 1 rfl _).trans (A_eq1 (V5 m ρ) c 1))
theorem keep_v17_6_5 (c : Dev nD) :
    W6 m ρ c (Proc.devRef .tc main_v17) = W5 m ρ c (Proc.devRef .tc main_v17) :=
  (W6_arr m ρ c 3).trans (((dat1 (V5 m ρ) c).arrAt_in 3 rfl _).trans (A_eq1 (V5 m ρ) c 3))

/-! ## Through the stretch between regions 1 and 2 (W7 from W6) -/

theorem keep_v14_7_6 (c : Dev nD) :
    W7 m ρ c (Proc.devRef .tc main_v14) = W6 m ρ c (Proc.devRef .tc main_v14) :=
  keep_host hostOps2 main_v14
theorem keep_v16_7_6 (c : Dev nD) :
    W7 m ρ c (Proc.devRef .tc main_v16) = W6 m ρ c (Proc.devRef .tc main_v16) :=
  keep_host hostOps2 main_v16
theorem keep_v17_7_6 (c : Dev nD) :
    W7 m ρ c (Proc.devRef .tc main_v17) = W6 m ρ c (Proc.devRef .tc main_v17) :=
  keep_host hostOps2 main_v17
theorem keep_v47_7_6 (c : Dev nD) :
    W7 m ρ c (Proc.devRef .tc main_v47) = W6 m ρ c (Proc.devRef .tc main_v47) :=
  keep_host hostOps2 main_v47

/-! ## Through region 2 (W8 from W7) -/

theorem keep_v47_8_7 (c : Dev nD) :
    W8 m ρ c (Proc.devRef .tc main_v47) = W7 m ρ c (Proc.devRef .tc main_v47) :=
  W8_of_ne m ρ c main_v47 (by decide)

/-! ## Composites across several boundaries -/

theorem keep_arg0_2_0 (c : Dev nD) :
    W2 m ρ c (Proc.devRef .tc main_arg0) = W0 m ρ c (Proc.devRef .tc main_arg0) :=
  (keep_arg0_2_1 m ρ c).trans (keep_arg0_1_0 m ρ c)
theorem keep_arg3_2_0 (c : Dev nD) :
    W2 m ρ c (Proc.devRef .tc main_arg3) = W0 m ρ c (Proc.devRef .tc main_arg3) :=
  (keep_arg3_2_1 m ρ c).trans (keep_arg3_1_0 m ρ c)
theorem keep_arg4_2_0 (c : Dev nD) :
    W2 m ρ c (Proc.devRef .tc main_arg4) = W0 m ρ c (Proc.devRef .tc main_arg4) :=
  (keep_arg4_2_1 m ρ c).trans (keep_arg4_1_0 m ρ c)
theorem keep_arg5_2_0 (c : Dev nD) :
    W2 m ρ c (Proc.devRef .tc main_arg5) = W0 m ρ c (Proc.devRef .tc main_arg5) :=
  (keep_arg5_2_1 m ρ c).trans (keep_arg5_1_0 m ρ c)
theorem keep_arg6_2_0 (c : Dev nD) :
    W2 m ρ c (Proc.devRef .tc main_arg6) = W0 m ρ c (Proc.devRef .tc main_arg6) :=
  (keep_arg6_2_1 m ρ c).trans (keep_arg6_1_0 m ρ c)
theorem keep_v14_5_1 (c : Dev nD) :
    W5 m ρ c (Proc.devRef .tc main_v14) = W1 m ρ c (Proc.devRef .tc main_v14) :=
  (keep_v14_5_2 m ρ c).trans (keep_v14_2_1 m ρ c)
theorem keep_v15_5_1 (c : Dev nD) :
    W5 m ρ c (Proc.devRef .tc main_v15) = W1 m ρ c (Proc.devRef .tc main_v15) :=
  (keep_v15_5_2 m ρ c).trans (keep_v15_2_1 m ρ c)
theorem keep_v17_5_1 (c : Dev nD) :
    W5 m ρ c (Proc.devRef .tc main_v17) = W1 m ρ c (Proc.devRef .tc main_v17) :=
  (keep_v17_5_2 m ρ c).trans (keep_v17_2_1 m ρ c)
theorem keep_v5_6_1 (c : Dev nD) :
    W6 m ρ c (Proc.devRef .tc main_v5) = W1 m ρ c (Proc.devRef .tc main_v5) :=
  (keep_v5_6_5 m ρ c).trans ((keep_v5_5_2 m ρ c).trans (keep_v5_2_1 m ρ c))
theorem keep_v6_6_1 (c : Dev nD) :
    W6 m ρ c (Proc.devRef .tc main_v6) = W1 m ρ c (Proc.devRef .tc main_v6) :=
  (keep_v6_6_5 m ρ c).trans ((keep_v6_5_2 m ρ c).trans (keep_v6_2_1 m ρ c))
theorem keep_v14_7_1 (c : Dev nD) :
    W7 m ρ c (Proc.devRef .tc main_v14) = W1 m ρ c (Proc.devRef .tc main_v14) :=
  (keep_v14_7_6 m ρ c).trans ((keep_v14_6_5 m ρ c).trans ((keep_v14_5_2 m ρ c).trans (keep_v14_2_1 m ρ c)))
theorem keep_v16_7_1 (c : Dev nD) :
    W7 m ρ c (Proc.devRef .tc main_v16) = W1 m ρ c (Proc.devRef .tc main_v16) :=
  (keep_v16_7_6 m ρ c).trans ((keep_v16_6_5 m ρ c).trans ((keep_v16_5_2 m ρ c).trans (keep_v16_2_1 m ρ c)))
theorem keep_v17_7_1 (c : Dev nD) :
    W7 m ρ c (Proc.devRef .tc main_v17) = W1 m ρ c (Proc.devRef .tc main_v17) :=
  (keep_v17_7_6 m ρ c).trans ((keep_v17_6_5 m ρ c).trans ((keep_v17_5_2 m ρ c).trans (keep_v17_2_1 m ρ c)))
theorem keep_v47_8_5 (c : Dev nD) :
    W8 m ρ c (Proc.devRef .tc main_v47) = W5 m ρ c (Proc.devRef .tc main_v47) :=
  (keep_v47_8_7 m ρ c).trans ((keep_v47_7_6 m ρ c).trans (keep_v47_6_5 m ρ c))

end Cert.KernelIdeal.Keep
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.Region0Value.lean ====
/-
  Region 0's result array. Tile t of the grid (2048 rows) multiplies rows [2048 t, 2048 t + 2048) of x by W1 and scales
  row p by the normalisation column's entry of that row; the 50 tiles cover the 102400 rows, so entry (n, j) of the
  array after the region is (the sum over k of x (n, k) * W1 (k, j)) * dinv column (n, 0).
-/
import proofs.«405491_j5480378270219_3_alg».proof.Proof.Gen.KernelIdeal.Frame
import proofs.«405491_j5480378270219_3_alg».proof.Proof.LibColumn
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx Idealize.ShloMosaic.TcCoe
open scoped BigOperators

variable (V : (c : Dev nD) → (b : Ref sig .tc) → Buf (Elt Ideal) ((c : Thread nD τ).loc b))

/-- Region 0's arrays as the region finds them, at their literal types. -/
abbrev r0_x (c : Dev nD) : FVec Ideal S102400x768 .f32 := V c main_arg0
abbrev r0_w1 (c : Dev nD) : FVec Ideal S768x64 .f32 := V c main_arg4
abbrev r0_dv (c : Dev nD) : FVec Ideal S102400x1 .f32 := V c main_v14
/-- Region 0's output array after the last tile's write-back. -/
abbrev r0_out (c : Dev nD) : FVec Ideal S102400x64 .f32 := (dat0 (F := Ideal) V c).arrAt 3 cfg0.N

/-! ## The tile's product at an index

  The contraction runs over x's second axis and W1's first; the four lemmas below read the two operand indices,
  axis by axis, at an output index and a contraction index. -/

theorem r0_lhs_0 (i : S2048x64.Idx) (q : dot_S2048x768_S768x64_S2048x64_1_0_0_1_n_n.contr.Idx) :
    (dot_S2048x768_S768x64_S2048x64_1_0_0_1_n_n.lhsIdx i q 0).val = (i 0).val := by
  unfold DotDims.lhsIdx
  rw [dif_neg (show ¬(0 : Fin S2048x768.rank) ∈ dot_S2048x768_S768x64_S2048x64_1_0_0_1_n_n.lhsBatch by decide), dif_pos (show (0 : Fin S2048x768.rank) ∈ dot_S2048x768_S768x64_S2048x64_1_0_0_1_n_n.lhsNonContracting by decide)]
  rfl
theorem r0_lhs_1 (i : S2048x64.Idx) (q : dot_S2048x768_S768x64_S2048x64_1_0_0_1_n_n.contr.Idx) :
    (dot_S2048x768_S768x64_S2048x64_1_0_0_1_n_n.lhsIdx i q 1).val = (q ⟨0, by decide⟩).val :=
  dot_S2048x768_S768x64_S2048x64_1_0_0_1_n_n.lhsIdx_val_of_single rfl i q
theorem r0_rhs_0 (i : S2048x64.Idx) (q : dot_S2048x768_S768x64_S2048x64_1_0_0_1_n_n.contr.Idx) :
    (dot_S2048x768_S768x64_S2048x64_1_0_0_1_n_n.rhsIdx i q 0).val = (q ⟨0, by decide⟩).val :=
  dot_S2048x768_S768x64_S2048x64_1_0_0_1_n_n.rhsIdx_val_of_single rfl i q
theorem r0_rhs_1 (i : S2048x64.Idx) (q : dot_S2048x768_S768x64_S2048x64_1_0_0_1_n_n.contr.Idx) :
    (dot_S2048x768_S768x64_S2048x64_1_0_0_1_n_n.rhsIdx i q 1).val = (i 1).val := by
  unfold DotDims.rhsIdx
  rw [dif_neg (show ¬(1 : Fin S768x64.rank) ∈ dot_S2048x768_S768x64_S2048x64_1_0_0_1_n_n.rhsBatch by decide), dif_pos (show (1 : Fin S768x64.rank) ∈ dot_S2048x768_S768x64_S2048x64_1_0_0_1_n_n.rhsNonContracting by decide)]
  rfl

/-- A tile's product into the zero accumulator, at (p, j): the sum over the 768 contracted coordinates. -/
theorem r0_matmul_apply {φ₁ φ₂ : FTy} (a : FVec Ideal S2048x768 φ₁) (b : FVec Ideal S768x64 φ₂) (p : Fin 2048) (j : Fin 64) :
    FloatOps.matmul dot_S2048x768_S768x64_S2048x64_1_0_0_1_n_n none a b (constant S2048x64 .f32 0x00000000#32) (ix2 p j)
      = ∑ k : Fin 768, a (ix2 p k) * b (ix2 k j) := by
  rw [Ideal.matmul_constant_zero_apply, ← Equiv.sum_comp (ValueIdx.contrEquiv1 dot_S2048x768_S768x64_S2048x64_1_0_0_1_n_n 768 rfl rfl).symm]
  refine Finset.sum_congr rfl fun k _ => ?_
  have hk := ValueIdx.contrEquiv1_symm_val dot_S2048x768_S768x64_S2048x64_1_0_0_1_n_n 768 rfl rfl k
  have el : dot_S2048x768_S768x64_S2048x64_1_0_0_1_n_n.lhsIdx (ix2 p j) ((ValueIdx.contrEquiv1 dot_S2048x768_S768x64_S2048x64_1_0_0_1_n_n 768 rfl rfl).symm k) = ix2 p k := funext fun ax => Fin.ext (by
    match ax with
    | ⟨0, _⟩ => exact r0_lhs_0 _ _
    | ⟨1, _⟩ => exact (r0_lhs_1 _ _).trans hk)
  have er : dot_S2048x768_S768x64_S2048x64_1_0_0_1_n_n.rhsIdx (ix2 p j) ((ValueIdx.contrEquiv1 dot_S2048x768_S768x64_S2048x64_1_0_0_1_n_n 768 rfl rfl).symm k) = ix2 k j := funext fun ax => Fin.ext (by
    match ax with
    | ⟨0, _⟩ => exact (r0_rhs_0 _ _).trans hk
    | ⟨1, _⟩ => exact r0_rhs_1 _ _)
  rw [el, er]

/-- The body's payload at (p, j): row p of the x tile times column j of W1, scaled by the column's entry of row p. -/
theorem r0_payload_apply (x0 : Vec Ideal S2048x768 .f32) (x1 : Vec Ideal S768x64 .f32) (x2 : Vec Ideal S2048x1 .f32)
    (p : Fin 2048) (j : Fin 64) :
    k0_pay1 (F := Ideal) x0 x1 x2 (ix2 p j) = (∑ k : Fin 768, x0 (ix2 p k) * x1 (ix2 k j)) * x2 (ix2 p (0 : Fin 1)) := by
  unfold k0_pay1
  refine (mulf_apply _ _ (ix2 p j)).trans ?_
  refine congrArg₂ (· * ·) ?_ ?_
  · exact r0_matmul_apply _ _ p j
  · refine (Cert.LibColumn.broadcastTo_a1_ab_apply _ _ p j).trans ?_
    rw [shapeCast_self]

/-! ## From the tiles to the array -/

theorem r0_hz : (![0, 0] : Fin 2 → Nat) = fun _ => 0 := funext fun a => by fin_cases a <;> rfl

/-- Entry (n, j) of the result: row n of x times column j of W1, scaled by the column's entry of row n. -/
def r0_entry (x : FVec Ideal S102400x768 .f32) (w : FVec Ideal S768x64 .f32) (d : FVec Ideal S102400x1 .f32)
    (n : Fin 102400) (j : Fin 64) : Ideal .f32 :=
  (∑ k : Fin 768, x (ix2 n k) * w (ix2 k j)) * d (ix2 n (0 : Fin 1))

/-- The whole result array as one function of its index. -/
abbrev r0_G (x : FVec Ideal S102400x768 .f32) (w : FVec Ideal S768x64 .f32) (d : FVec Ideal S102400x1 .f32) :
    S102400x64.Idx → Elt Ideal .f32 := fun i => r0_entry x w d (i 0) (i 1)

/-- The tiles' block indices, decided over the 50 grid points: tile t of x, of the column and of the output starts
    at row block t and column block 0; W1's one block is the whole of W1. -/
theorem r0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The blocks of tile t, at their literal types. -/
abbrev r0_xblk (c : Dev nD) (t : Fin cfg0.N) : Vec Ideal S2048x768 .f32 := iblk0 V c 0 t
abbrev r0_wblk (c : Dev nD) (t : Fin cfg0.N) : Vec Ideal S768x64 .f32 := iblk0 V c 1 t
abbrev r0_dblk (c : Dev nD) (t : Fin cfg0.N) : Vec Ideal S2048x1 .f32 := iblk0 V c 2 t

/-- Row p of tile t's x block is row 2048 t + p of x. -/
theorem r0_xblk_apply (c : Dev nD) (t : Fin cfg0.N) (p : Fin 2048) (k : Fin 768) (n : Fin 102400)
    (hn : n.val = t.val * 2048 + p.val) : r0_xblk V c t (ix2 p k) = r0_x V c (ix2 n k) := by
  show V c main_arg0 (((cfg0.win 0).blk t).view.emb (ix2 p k)) = V c main_arg0 (ix2 n k)
  refine congrArg (V c main_arg0) ?_
  obtain ⟨e0, e1, -⟩ := r0_idx_facts t
  funext a; apply Fin.ext
  match a with
  | ⟨0, _⟩ => show win0_0.index t (0 : Fin 2) * 2048 + 1 * p.val = n.val; omega
  | ⟨1, _⟩ => show win0_0.index t (1 : Fin 2) * 768 + 1 * k.val = k.val; omega

/-- W1's block at every tile is W1. -/
theorem r0_wblk_apply (c : Dev nD) (t : Fin cfg0.N) (k : Fin 768) (j : Fin 64) :
    r0_wblk V c t (ix2 k j) = r0_w1 V c (ix2 k j) := by
  show V c main_arg4 (((cfg0.win 1).blk t).view.emb (ix2 k j)) = V c main_arg4 (ix2 k j)
  refine congrArg (V c main_arg4) ?_
  obtain ⟨-, -, e2, e3, -⟩ := r0_idx_facts t
  funext a; apply Fin.ext
  match a with
  | ⟨0, _⟩ => show win0_1.index t (0 : Fin 2) * 768 + 1 * k.val = k.val; omega
  | ⟨1, _⟩ => show win0_1.index t (1 : Fin 2) * 64 + 1 * j.val = j.val; omega

/-- Row p of tile t's column block is row 2048 t + p of the column. -/
theorem r0_dblk_apply (c : Dev nD) (t : Fin cfg0.N) (p : Fin 2048) (n : Fin 102400)
    (hn : n.val = t.val * 2048 + p.val) : r0_dblk V c t (ix2 p (0 : Fin 1)) = r0_dv V c (ix2 n (0 : Fin 1)) := by
  show V c main_v14 (((cfg0.win 2).blk t).view.emb (ix2 p (0 : Fin 1))) = V c main_v14 (ix2 n (0 : Fin 1))
  refine congrArg (V c main_v14) ?_
  obtain ⟨-, -, -, -, e4, e5, -⟩ := r0_idx_facts t
  funext a; apply Fin.ext
  match a with
  | ⟨0, _⟩ => show win0_2.index t (0 : Fin 2) * 2048 + 1 * p.val = n.val; omega
  | ⟨1, _⟩ => show win0_2.index t (1 : Fin 2) * 1 + 1 * (0 : Fin 1).val = (0 : Fin 1).val; omega

/-- What tile t leaves, at (p, j), is the result's entry (2048 t + p, j). -/
theorem r0_tile_apply (c : Dev nD) (t : Fin cfg0.N) (p : Fin 2048) (j : Fin 64) (n : Fin 102400)
    (hn : n.val = t.val * 2048 + p.val) :
    k0_pay1 (F := Ideal) (r0_xblk V c t) (r0_wblk V c t) (r0_dblk V c t) (ix2 p j)
      = r0_entry (r0_x V c) (r0_w1 V c) (r0_dv V c) n j := by
  refine (r0_payload_apply (r0_xblk V c t) (r0_wblk V c t) (r0_dblk V c t) p j).trans ?_
  unfold r0_entry
  refine congrArg₂ (· * ·) (Finset.sum_congr rfl fun k _ => ?_) (r0_dblk_apply V c t p n hn)
  exact congrArg₂ (· * ·) (r0_xblk_apply V c t p k n hn) (r0_wblk_apply V c t k j)

/-- The same at an index y of the tile and an index i of the array with i = (2048 t + y 0, y 1). -/
theorem r0_tile_at (c : Dev nD) (t : Fin cfg0.N) (y : S2048x64.Idx) (i : S102400x64.Idx)
    (h0 : (i 0).val = t.val * 2048 + (y 0).val) (h1 : (i 1).val = (y 1).val) :
    k0_pay1 (F := Ideal) (r0_xblk V c t) (r0_wblk V c t) (r0_dblk V c t) y
      = r0_G (r0_x V c) (r0_w1 V c) (r0_dv V c) i := by
  obtain ⟨p, j, rfl⟩ : ∃ (p : Fin 2048) (j : Fin 64), y = ix2 p j := ⟨y 0, y 1, eq_ix2 y⟩
  refine (r0_tile_apply V c t p j ⟨(i 0).val, (i 0).isLt⟩ h0).trans ?_
  show r0_entry _ _ _ _ _ = r0_entry _ _ _ (i 0) (i 1)
  exact congrArg (r0_entry (r0_x V c) (r0_w1 V c) (r0_dv V c) ⟨(i 0).val, (i 0).isLt⟩) (Fin.ext h1.symm)

/-- WHAT TILE t WRITES BACK is block t of the result function. -/
theorem r0_flushed_eq (c : Dev nD) (t : Fin cfg0.N) :
    (dat0 (F := Ideal) V c).flushed 3 t
      = ((cfg0.win 3).blk t).view.read (Elt Ideal) (r0_G (r0_x V c) (r0_w1 V c) (r0_dv V c)) := by
  show (cfg0.win 3).cut (grid0.coords t) ((dat0 (F := Ideal) V c).after 3 t) = _
  rw [after0_3]
  unfold out0_3
  rw [View.canon_unit_zero r0_hz]
  simp only [View.ld_unit_zero (S := S2048x768) r0_hz, View.ld_unit_zero (S := S768x64) r0_hz, View.ld_unit_zero (S := S2048x1) r0_hz]
  obtain ⟨-, -, -, -, -, -, e6, e7⟩ := r0_idx_facts t
  funext y
  have q0 : ((((cfg0.win 3).blk t).view.emb y) 0).val = t.val * 2048 + (y 0).val := by
    show win0_3.index t (0 : Fin 2) * 2048 + 1 * (y 0).val = _; omega
  have q1 : ((((cfg0.win 3).blk t).view.emb y) 1).val = (y 1).val := by
    show win0_3.index t (1 : Fin 2) * 64 + 1 * (y 1).val = _; omega
  exact r0_tile_at V c t y (((cfg0.win 3).blk t).view.emb y) q0 q1

/-- An index of the array is in tile t's block iff each coordinate is in the block's range on its axis. -/
theorem r0_mem_blk (t : Fin cfg0.N) (i : S102400x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v18).slice (win0_3.rect t)).set ↔ _
  rw [View.set_slice_whole, Rect.mem_set_unit]
  exact Iff.rfl

/-- The 50 tiles cover the array: row n is in tile n / 2048. -/
theorem r0_cover (i : S102400x64.Idx) :
    ∃ t : Fin cfg0.N, (cfg0.win 3).flush t = true ∧ i ∈ ((cfg0.win 3).blk t).view.set := by
  have hi0 : (i 0).val < 102400 := (i 0).isLt
  have hi1 : (i 1).val < 64 := (i 1).isLt
  have hN : grid0.N = 50 := N_0
  have hlt : (i 0).val / 2048 < grid0.N := by rw [hN]; omega
  obtain ⟨-, -, -, -, -, -, e6, e7⟩ := r0_idx_facts ⟨(i 0).val / 2048, hlt⟩
  refine ⟨⟨(i 0).val / 2048, hlt⟩, flush0_3 _, ?_⟩
  rw [r0_mem_blk]
  intro a
  match a with
  | ⟨0, _⟩ =>
    show win0_3.index ⟨(i 0).val / 2048, hlt⟩ (0 : Fin 2) * 2048 ≤ (i 0).val ∧ (i 0).val < win0_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win0_3.index ⟨(i 0).val / 2048, hlt⟩ (1 : Fin 2) * 64 ≤ (i 1).val ∧ (i 1).val < win0_3.index ⟨(i 0).val / 2048, hlt⟩ (1 : Fin 2) * 64 + 64
    rw [e7]; omega

/-- THE ARRAY after the region: the result function. -/
theorem r0_final (c : Dev nD) : r0_out V c = r0_G (r0_x V c) (r0_w1 V c) (r0_dv V c) :=
  (dat0 (F := Ideal) V c).arrAt_eq_of_cover 3 (r0_G (r0_x V c) (r0_w1 V c) (r0_dv V c))
    (fun t _ => r0_flushed_eq V c t) (r0_cover)

/-- Entry (n, j) of region 0's output: (the sum over k of x (n, k) * W1 (k, j)) * the column's entry (n, 0). -/
theorem region0_value (c : Dev nD) (n : Fin 102400) (j : Fin 64) :
    r0_out V c (ix2 n j)
      = (∑ k : Fin 768, r0_x V c (ix2 n k) * r0_w1 V c (ix2 k j)) * r0_dv V c (ix2 n (0 : Fin 1)) :=
  congrFun (r0_final V c) (ix2 n j)

end Cert.KernelIdeal.Val

end
-- ==== Proof.Region1Value.lean ====
/-
  Region 1's result array. Tile t (2048 rows) rectifies agg (n, k) * dinv (n) + b1 (k), multiplies by the first 64 rows
  of W2, adds the one-hot row of the node's batch word times the per-graph table z, and scales the row by dinv (n).
-/
import proofs.«405491_j5480378270219_3_alg».proof.Proof.Gen.KernelIdeal.Frame
import proofs.«405491_j5480378270219_3_alg».proof.Proof.Spec
import proofs.«405491_j5480378270219_3_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx Idealize.ShloMosaic.TcCoe
open scoped BigOperators

variable (V : (c : Dev nD) → (b : Ref sig .tc) → Buf (Elt Ideal) ((c : Thread nD τ).loc b))

/-- Region 1's arrays as the region finds them, at their literal types. -/
abbrev r1_agg (c : Dev nD) : FVec Ideal S102400x64 .f32 := V c main_v28
abbrev r1_dv (c : Dev nD) : FVec Ideal S102400x1 .f32 := V c main_v14
abbrev r1_b1 (c : Dev nD) : FVec Ideal S1x64 .f32 := V c main_v15
abbrev r1_bt (c : Dev nD) : IVec S102400x1 32 := V c main_v17
abbrev r1_z (c : Dev nD) : FVec Ideal S128x64 .f32 := V c main_v58
abbrev r1_w2t (c : Dev nD) : FVec Ideal S64x64 .f32 := V c main_v55
/-- Region 1's output array after the last tile's write-back. -/
abbrev r1_out (c : Dev nD) : FVec Ideal S102400x64 .f32 := (dat1 (F := Ideal) V c).arrAt 6 cfg1.N

/-! ## The tile's arithmetic at an index -/

/-- The compare bit of a word against the number g, widened and converted: one where they agree, zero elsewhere. -/
theorem hot_of_bit (w : BitVec 32) (g : Fin 128) :
    FloatOps.sitofp (F := Ideal) .f32 ((IntOp.cmpi .eq w (BitVec.ofNat 32 g.val)).setWidth 32) = Cert.Spec.hotW w g := by
  unfold Cert.Spec.hotW
  by_cases h : w = BitVec.ofNat 32 g.val
  · rw [if_pos h]
    have e : (IntOp.cmpi .eq w (BitVec.ofNat 32 g.val)).setWidth 32 = 1#32 := by
      unfold IntOp.cmpi
      rw [show (w == BitVec.ofNat 32 g.val) = true from by rw [h]; exact beq_self_eq_true _]
      rfl
    rw [e]
    show (((1#32 : BitVec 32).toInt : ℝ) : EReal) = 1
    rw [show (1#32 : BitVec 32).toInt = 1 from by decide]
    simp
  · rw [if_neg h]
    have e : (IntOp.cmpi .eq w (BitVec.ofNat 32 g.val)).setWidth 32 = 0#32 := by
      unfold IntOp.cmpi
      rw [show (w == BitVec.ofNat 32 g.val) = false from beq_eq_false_iff_ne.mpr h]
      rfl
    rw [e]
    show (((0#32 : BitVec 32).toInt : ℝ) : EReal) = 0
    rw [show (0#32 : BitVec 32).toInt = 0 from by decide]
    simp

/-! The first product's operand indices, axis by axis. -/

theorem lhs_dotA_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_dotA_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhs_dotA_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhs_dotA_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The rectified rows times the first 64 rows of W2, into a zero accumulator, at (p, j): the sum over the 64 features. -/
theorem dotA_apply (L : FVec Ideal S2048x64 .bf16) (R : FVec Ideal S64x64 .bf16) (p : Fin 2048) (j : Fin 64) :
    FloatOps.matmul dot_S2048x64_S64x64_S2048x64_1_0_0_1_n_n none L R (constant (F := Ideal) S2048x64 .f32 0x00000000#32) (ix2 p j)
      = ∑ k : Fin 64, L (ix2 p k) * R (ix2 k j) := by
  refine (Ideal.matmul_constant_zero_apply dot_S2048x64_S64x64_S2048x64_1_0_0_1_n_n none L R (ix2 p j)).trans ?_
  rw [← Equiv.sum_comp (ValueIdx.contrEquiv1 dot_S2048x64_S64x64_S2048x64_1_0_0_1_n_n 64 rfl rfl).symm]
  refine Finset.sum_congr rfl fun k _ => ?_
  have hk := ValueIdx.contrEquiv1_symm_val dot_S2048x64_S64x64_S2048x64_1_0_0_1_n_n 64 rfl rfl k
  have el : dot_S2048x64_S64x64_S2048x64_1_0_0_1_n_n.lhsIdx (ix2 p j) ((ValueIdx.contrEquiv1 dot_S2048x64_S64x64_S2048x64_1_0_0_1_n_n 64 rfl rfl).symm k) = ix2 p k := funext fun a => Fin.ext (by
    match a with
    | ⟨0, _⟩ => exact lhs_dotA_0 _ _
    | ⟨1, _⟩ => exact (lhs_dotA_1 _ _).trans hk)
  have er : dot_S2048x64_S64x64_S2048x64_1_0_0_1_n_n.rhsIdx (ix2 p j) ((ValueIdx.contrEquiv1 dot_S2048x64_S64x64_S2048x64_1_0_0_1_n_n 64 rfl rfl).symm k) = ix2 k j := funext fun a => Fin.ext (by
    match a with
    | ⟨0, _⟩ => exact (rhs_dotA_0 _ _).trans hk
    | ⟨1, _⟩ => exact rhs_dotA_1 _ _)
  rw [el, er]

/-! The second product's operand indices, axis by axis. -/

theorem lhs_dotB_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem lhs_dotB_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
theorem rhs_dotB_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
theorem rhs_dotB_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

/-- The one-hot rows times the per-graph table, into a zero accumulator, at (p, j): the sum over the 128 graphs. -/
theorem dotB_apply (L : FVec Ideal S2048x128 .bf16) (R : FVec Ideal S128x64 .bf16) (p : Fin 2048) (j : Fin 64) :
    FloatOps.matmul dot_S2048x128_S128x64_S2048x64_1_0_0_1_n_n none L R (constant (F := Ideal) S2048x64 .f32 0x00000000#32) (ix2 p j)
      = ∑ g : Fin 128, L (ix2 p g) * R (ix2 g j) := by
  refine (Ideal.matmul_constant_zero_apply dot_S2048x128_S128x64_S2048x64_1_0_0_1_n_n none L R (ix2 p j)).trans ?_
  rw [← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 p j) ((ValueIdx.contrEquiv1 dot_S2048x128_S128x64_S2048x64_1_0_0_1_n_n 128 rfl rfl).symm k) = ix2 p k := funext fun a => Fin.ext (by
    match a with
    | ⟨0, _⟩ => exact lhs_dotB_0 _ _
    | ⟨1, _⟩ => exact (lhs_dotB_1 _ _).trans hk)
  have er : dot_S2048x128_S128x64_S2048x64_1_0_0_1_n_n.rhsIdx (ix2 p j) ((ValueIdx.contrEquiv1 dot_S2048x128_S128x64_S2048x64_1_0_0_1_n_n 128 rfl rfl).symm k) = ix2 k j := funext fun a => Fin.ext (by
    match a with
    | ⟨0, _⟩ => exact (rhs_dotB_0 _ _).trans hk
    | ⟨1, _⟩ => exact rhs_dotB_1 _ _)
  rw [el, er]

/-- One entry of the tile the body stores, from the six blocks it loads: the rectified row through W2's first 64 rows,
    plus the one-hot row through the per-graph table, scaled by the row's normalisation factor. -/
theorem pay_at (x0 : FVec Ideal S2048x64 .f32) (x1 : FVec Ideal S2048x1 .f32) (x2 : FVec Ideal S1x64 .f32)
    (x5 : FVec Ideal S64x64 .f32) (x3 : IVec S2048x1 32) (x4 : FVec Ideal S128x64 .f32) (p : Fin 2048) (j : Fin 64) :
    k1_pay1 (F := Ideal) x0 x1 x2 x5 x3 x4 x1 (ix2 p j)
      = ((∑ k : Fin 64, max (x0 (ix2 p k) * x1 (ix2 p (0 : Fin 1)) + x2 (ix2 (0 : Fin 1) k)) 0 * x5 (ix2 k j))
          + ∑ g : Fin 128, Cert.Spec.hotW (x3 (ix2 p (0 : Fin 1))) g * x4 (ix2 g j)) * x1 (ix2 p (0 : Fin 1)) := by
  unfold k1_pay1
  simp only [shapeCast_self]
  refine (mulf_apply _ _ _).trans ?_
  refine congrArg₂ (· * ·) ?_ (Cert.LibColumn.broadcastTo_a1_ab_apply x1 _ p j)
  refine (addf_apply _ _ _).trans ?_
  refine congrArg₂ (· + ·) ?_ ?_
  · refine (dotA_apply _ _ p j).trans ?_
    refine Finset.sum_congr rfl fun k _ => ?_
    refine congrArg₂ (· * ·) ?_ rfl
    show max (x0 (ix2 p k) * broadcastTo S2048x64 x1 broadcasts_S2048x1_S2048x64 (ix2 p k)
        + broadcastTo S2048x64 x2 broadcasts_S1x64_S2048x64 (ix2 p k)) (Ideal.ofBits .f32 0x00000000#32) = _
    rw [Cert.LibColumn.broadcastTo_a1_ab_apply x1 _ p k, broadcastTo_1b_ab_apply x2 _ p k, Ideal.ofBits_zero_f32]
  · refine (dotB_apply _ _ p j).trans ?_
    refine Finset.sum_congr rfl fun g _ => ?_
    refine congrArg₂ (· * ·) ?_ rfl
    show FloatOps.sitofp (F := Ideal) .f32 ((IntOp.cmpi .eq (broadcastTo S2048x128 x3 broadcasts_S2048x1_S2048x128 (ix2 p g))
        (iota .tc S2048x128 32 [1] iota_S2048x128_d1_w32 (ix2 p g))).setWidth 32) = _
    rw [Cert.LibColumn.broadcastTo_a1_ab_apply x3 _ p g, iota_single_apply]
    exact hot_of_bit _ g

/-! ## The tiles as blocks of one whole-array function -/

theorem hz1 : (![0, 0] : Fin 2 → Nat) = fun _ => 0 := funext fun a => by fin_cases a <;> rfl

/-- Row p of tile t. -/
def tileRow1 (t : Fin cfg1.N) (p : Fin 2048) : Fin 102400 :=
  ⟨t.val * 2048 + p.val, by have hN : cfg1.N = 50 := N_1; have := t.isLt; have := p.isLt; omega⟩

/-- Entry (n, j) of region 1's result, from the arrays the region reads. -/
def r1G (c : Dev nD) (n : Fin 102400) (j : Fin 64) : EReal :=
  ((∑ k : Fin 64, max (r1_agg V c (ix2 n k) * r1_dv V c (ix2 n (0 : Fin 1)) + r1_b1 V c (ix2 (0 : Fin 1) k)) 0
          * r1_w2t V c (ix2 k j))
      + ∑ g : Fin 128, Cert.Spec.hotW (r1_bt V c (ix2 n (0 : Fin 1))) g * r1_z V c (ix2 g j))
    * r1_dv V c (ix2 n (0 : Fin 1))

/-- The result as one array. -/
def r1Garr (c : Dev nD) : FVec Ideal S102400x64 .f32 := fun i => r1G V c (i 0) (i 1)

/-- The six blocks tile t reads, at their literal types. -/
abbrev b_agg (c : Dev nD) (t : Fin cfg1.N) : FVec Ideal S2048x64 .f32 := iblk1 V c 0 t
abbrev b_dv (c : Dev nD) (t : Fin cfg1.N) : FVec Ideal S2048x1 .f32 := iblk1 V c 1 t
abbrev b_b1 (c : Dev nD) (t : Fin cfg1.N) : FVec Ideal S1x64 .f32 := iblk1 V c 2 t
abbrev b_bt (c : Dev nD) (t : Fin cfg1.N) : IVec S2048x1 32 := iblk1 V c 3 t
abbrev b_z (c : Dev nD) (t : Fin cfg1.N) : FVec Ideal S128x64 .f32 := iblk1 V c 4 t
abbrev b_w2t (c : Dev nD) (t : Fin cfg1.N) : FVec Ideal S64x64 .f32 := iblk1 V c 5 t

/-- The index maps, decided over the grid: the row-tiled windows sit at block (t, 0), the untiled ones at (0, 0). -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- The aggregation's block: rows t * 2048 + p of the array. -/
theorem b_agg_apply (c : Dev nD) (t : Fin cfg1.N) (p : Fin 2048) (k : Fin 64) :
    b_agg V c t (ix2 p k) = r1_agg V c (ix2 (tileRow1 t p) k) := by
  obtain ⟨⟨e0, e1⟩, -⟩ := idx_facts1 t
  show iblk1 V c 0 t (ix2 p k) = _
  unfold iblk1
  rw [View.read_apply]
  show V c main_v28 _ = V c main_v28 _
  congr 1
  funext a
  apply Fin.ext
  match a with
  | ⟨0, _⟩ => show win1_0.index t (0 : Fin 2) * 2048 + 1 * p.val = t.val * 2048 + p.val; rw [e0]; omega
  | ⟨1, _⟩ => show win1_0.index t (1 : Fin 2) * 64 + 1 * k.val = k.val; rw [e1]; omega

/-- The normalisation column's block: rows t * 2048 + p. -/
theorem b_dv_apply (c : Dev nD) (t : Fin cfg1.N) (p : Fin 2048) :
    b_dv V c t (ix2 p (0 : Fin 1)) = r1_dv V c (ix2 (tileRow1 t p) (0 : Fin 1)) := by
  obtain ⟨-, ⟨e0, e1⟩, -⟩ := idx_facts1 t
  show iblk1 V c 1 t (ix2 p (0 : Fin 1)) = _
  unfold iblk1
  rw [View.read_apply]
  show V c main_v14 _ = V c main_v14 _
  congr 1
  funext a
  apply Fin.ext
  match a with
  | ⟨0, _⟩ => show win1_1.index t (0 : Fin 2) * 2048 + 1 * p.val = t.val * 2048 + p.val; rw [e0]; omega
  | ⟨1, _⟩ => show win1_1.index t (1 : Fin 2) * 1 + 1 * (0 : Fin 1).val = (0 : Fin 1).val; rw [e1]; omega

/-- The bias row's block is the whole row. -/
theorem b_b1_apply (c : Dev nD) (t : Fin cfg1.N) (k : Fin 64) :
    b_b1 V c t (ix2 (0 : Fin 1) k) = r1_b1 V c (ix2 (0 : Fin 1) k) := by
  obtain ⟨-, -, ⟨e0, e1⟩, -⟩ := idx_facts1 t
  show iblk1 V c 2 t (ix2 (0 : Fin 1) k) = _
  unfold iblk1
  rw [View.read_apply]
  show V c main_v15 _ = V c main_v15 _
  congr 1
  funext a
  apply Fin.ext
  match a with
  | ⟨0, _⟩ => show win1_2.index t (0 : Fin 2) * 1 + 1 * (0 : Fin 1).val = (0 : Fin 1).val; rw [e0]; omega
  | ⟨1, _⟩ => show win1_2.index t (1 : Fin 2) * 64 + 1 * k.val = k.val; rw [e1]; omega

/-- The batch column's block: rows t * 2048 + p. -/
theorem b_bt_apply (c : Dev nD) (t : Fin cfg1.N) (p : Fin 2048) :
    b_bt V c t (ix2 p (0 : Fin 1)) = r1_bt V c (ix2 (tileRow1 t p) (0 : Fin 1)) := by
  obtain ⟨-, -, -, ⟨e0, e1⟩, -⟩ := idx_facts1 t
  show iblk1 V c 3 t (ix2 p (0 : Fin 1)) = _
  unfold iblk1
  rw [View.read_apply]
  show V c main_v17 _ = V c main_v17 _
  congr 1
  funext a
  apply Fin.ext
  match a with
  | ⟨0, _⟩ => show win1_3.index t (0 : Fin 2) * 2048 + 1 * p.val = t.val * 2048 + p.val; rw [e0]; omega
  | ⟨1, _⟩ => show win1_3.index t (1 : Fin 2) * 1 + 1 * (0 : Fin 1).val = (0 : Fin 1).val; rw [e1]; omega

/-- The per-graph table's block is the whole table. -/
theorem b_z_apply (c : Dev nD) (t : Fin cfg1.N) (g : Fin 128) (j : Fin 64) :
    b_z V c t (ix2 g j) = r1_z V c (ix2 g j) := by
  obtain ⟨-, -, -, -, ⟨e0, e1⟩, -⟩ := idx_facts1 t
  show iblk1 V c 4 t (ix2 g j) = _
  unfold iblk1
  rw [View.read_apply]
  show V c main_v58 _ = V c main_v58 _
  congr 1
  funext a
  apply Fin.ext
  match a with
  | ⟨0, _⟩ => show win1_4.index t (0 : Fin 2) * 128 + 1 * g.val = g.val; rw [e0]; omega
  | ⟨1, _⟩ => show win1_4.index t (1 : Fin 2) * 64 + 1 * j.val = j.val; rw [e1]; omega

/-- The block of W2's first 64 rows is all of them. -/
theorem b_w2t_apply (c : Dev nD) (t : Fin cfg1.N) (k : Fin 64) (j : Fin 64) :
    b_w2t V c t (ix2 k j) = r1_w2t V c (ix2 k j) := by
  obtain ⟨-, -, -, -, -, ⟨e0, e1⟩, -⟩ := idx_facts1 t
  show iblk1 V c 5 t (ix2 k j) = _
  unfold iblk1
  rw [View.read_apply]
  show V c main_v55 _ = V c main_v55 _
  congr 1
  funext a
  apply Fin.ext
  match a with
  | ⟨0, _⟩ => show win1_5.index t (0 : Fin 2) * 64 + 1 * k.val = k.val; rw [e0]; omega
  | ⟨1, _⟩ => show win1_5.index t (1 : Fin 2) * 64 + 1 * j.val = j.val; rw [e1]; omega

/-- What the body leaves in the output's buffer, at an index, from any six blocks. -/
theorem out1_6_at (x0 : FVec Ideal S2048x64 .f32) (x1 : FVec Ideal S2048x1 .f32) (x2 : FVec Ideal S1x64 .f32)
    (x3 : IVec S2048x1 32) (x4 : FVec Ideal S128x64 .f32) (x5 : FVec Ideal S64x64 .f32) (p : Fin 2048) (j : Fin 64) :
    out1_6 (F := Ideal) x0 x1 x2 x3 x4 x5 (ix2 p j)
      = ((∑ k : Fin 64, max (x0 (ix2 p k) * x1 (ix2 p (0 : Fin 1)) + x2 (ix2 (0 : Fin 1) k)) 0 * x5 (ix2 k j))
          + ∑ g : Fin 128, Cert.Spec.hotW (x3 (ix2 p (0 : Fin 1))) g * x4 (ix2 g j)) * x1 (ix2 p (0 : Fin 1)) := by
  unfold out1_6
  rw [View.canon_unit_zero hz1]
  simp only [View.ld_unit_zero (S := S2048x64) hz1, View.ld_unit_zero (S := S2048x1) hz1, View.ld_unit_zero (S := S1x64) hz1,
    View.ld_unit_zero (S := S64x64) hz1, View.ld_unit_zero (S := S128x64) hz1]
  exact pay_at x0 x1 x2 x5 x3 x4 p j

/-- Tile t's stored block, at (p, q), is the result at row t * 2048 + p. -/
theorem tile_at (c : Dev nD) (t : Fin cfg1.N) (p : Fin 2048) (q : Fin 64) :
    out1_6 (F := Ideal) (b_agg V c t) (b_dv V c t) (b_b1 V c t) (b_bt V c t) (b_z V c t) (b_w2t V c t) (ix2 p q)
      = r1G V c (tileRow1 t p) q := by
  refine (out1_6_at (b_agg V c t) (b_dv V c t) (b_b1 V c t) (b_bt V c t) (b_z V c t) (b_w2t V c t) p q).trans ?_
  unfold r1G
  rw [b_dv_apply V c t p, b_bt_apply V c t p]
  refine congrArg₂ (· * ·) (congrArg₂ (· + ·) ?_ ?_) rfl
  · refine Finset.sum_congr rfl fun k _ => ?_
    rw [b_agg_apply V c t p k, b_b1_apply V c t k, b_w2t_apply V c t k q]
  · refine Finset.sum_congr rfl fun g _ => ?_
    rw [b_z_apply V c t g q]

theorem read_G_at (c : Dev nD) (t : Fin cfg1.N) (p : Fin 2048) (q : Fin 64) :
    ((cfg1.win 6).blk t).view.read (Elt Ideal) (r1Garr V c) (ix2 p q) = r1G V c (tileRow1 t p) q := by
  obtain ⟨-, -, -, -, -, -, ⟨e0, e1⟩⟩ := idx_facts1 t
  rw [View.read_apply]
  refine Eq.trans (b := r1Garr V c (ix2 (tileRow1 t p) q)) (congrArg (r1Garr V c) ?_) rfl
  funext a
  apply Fin.ext
  match a with
  | ⟨0, _⟩ => show win1_6.index t (0 : Fin 2) * 2048 + 1 * p.val = t.val * 2048 + p.val; rw [e0]; omega
  | ⟨1, _⟩ => show win1_6.index t (1 : Fin 2) * 64 + 1 * q.val = q.val; rw [e1]; omega
/-- WHAT TILE t WRITES BACK is block t of the result array. -/
theorem flushed1_eq (c : Dev nD) (t : Fin cfg1.N) :
    (dat1 (F := Ideal) V c).flushed 6 t = ((cfg1.win 6).blk t).view.read (Elt Ideal) (r1Garr V c) := by
  show (cfg1.win 6).cut (grid1.coords t) ((dat1 (F := Ideal) V c).after 6 t) = _
  rw [after1_6]
  funext y
  obtain ⟨p, q, rfl⟩ : ∃ (p : Fin 2048) (q : Fin 64), y = ix2 p q := ⟨y 0, y 1, eq_ix2 y⟩
  exact (tile_at V c t p q).trans (read_G_at V c t p q).symm

/-- An index of the array is in tile t's block iff each coordinate is in the block's range on its axis. -/
theorem mem_blk1 (t : Fin cfg1.N) (i : S102400x64.Idx) :
    i ∈ ((cfg1.win 6).blk t).view.set ↔ ∀ a : Fin 2, win1_6.index t a * S2048x64.size a ≤ (i a).val ∧ (i a).val < win1_6.index t a * S2048x64.size a + S2048x64.size a := by
  show i ∈ ((View.whole main_v59).slice (win1_6.rect t)).set ↔ _
  rw [View.set_slice_whole, Rect.mem_set_unit]
  exact Iff.rfl

/-- Row n is in tile n / 2048: the tiles cover the array. -/
theorem cover1 (i : S102400x64.Idx) :
    ∃ t : Fin cfg1.N, (cfg1.win 6).flush t = true ∧ i ∈ ((cfg1.win 6).blk t).view.set := by
  have hN : cfg1.N = 50 := N_1
  have hi0 : (i 0).val < 102400 := (i 0).isLt
  have hi1 : (i 1).val < 64 := (i 1).isLt
  obtain ⟨t, ht⟩ : ∃ t : Fin cfg1.N, t.val = (i 0).val / 2048 := ⟨⟨(i 0).val / 2048, by rw [hN]; omega⟩, rfl⟩
  obtain ⟨-, -, -, -, -, -, ⟨e0, e1⟩⟩ := idx_facts1 t
  refine ⟨t, flush1_6 t, ?_⟩
  rw [mem_blk1]
  intro a
  match a with
  | ⟨0, _⟩ =>
    show win1_6.index t (0 : Fin 2) * 2048 ≤ (i 0).val ∧ (i 0).val < win1_6.index t (0 : Fin 2) * 2048 + 2048
    rw [e0, ht]; omega
  | ⟨1, _⟩ =>
    show win1_6.index t (1 : Fin 2) * 64 ≤ (i 1).val ∧ (i 1).val < win1_6.index t (1 : Fin 2) * 64 + 64
    rw [e1]; omega

/-- THE ARRAY after region 1: the result array. -/
theorem r1_out_eq (c : Dev nD) : r1_out V c = r1Garr V c :=
  (dat1 (F := Ideal) V c).arrAt_eq_of_cover 6 (r1Garr V c) (fun t _ => flushed1_eq V c t) cover1

theorem region1_value (c : Dev nD) (n : Fin 102400) (j : Fin 64) :
    r1_out V c (ix2 n j)
      = ((∑ k : Fin 64, max (r1_agg V c (ix2 n k) * r1_dv V c (ix2 n (0 : Fin 1)) + r1_b1 V c (ix2 (0 : Fin 1) k)) 0
              * r1_w2t V c (ix2 k j))
          + ∑ g : Fin 128, Cert.Spec.hotW (r1_bt V c (ix2 n (0 : Fin 1))) g * r1_z V c (ix2 g j))
        * r1_dv V c (ix2 n (0 : Fin 1)) := by
  show (dat1 (F := Ideal) V c).arrAt 6 cfg1.N (ix2 n j) = _
  rw [show (dat1 (F := Ideal) V c).arrAt 6 cfg1.N = r1Garr V c from r1_out_eq V c]
  rfl

end Cert.KernelIdeal.Val

end
-- ==== Proof.Region2Value.lean ====
/-
  Region 2's two result arrays. Both output blocks are revisited at every one of the 25 tiles (4096 rows each): tile 0
  stores zeros and then adds its contribution, every later tile adds its contribution to what the tile before left. A
  tile's contribution to the sums at (g, j) is the sum over its rows of (one where the row's batch word is g) times the
  rectified agg (n, j) * dinv (n) + b2 (j); its contribution to the counts at g is the sum of those ones.
-/
import proofs.«405491_j5480378270219_3_alg».proof.Proof.Gen.KernelIdeal.Frame
import proofs.«405491_j5480378270219_3_alg».proof.Proof.Spec
import proofs.«405491_j5480378270219_3_alg».proof.Proof.LibColumn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx Idealize.ShloMosaic.TcCoe
open Idealize.ShloMosaic.Tactic
open scoped BigOperators

/-- The zero offsets of every load and store of the body. -/
theorem r2_hz : (![0, 0] : Fin 2 → Nat) = fun _ => 0 := funext fun a => by fin_cases a <;> rfl

section Pieces
variable {F : FTy → Type} [FloatOps F]

/-- Tile 0, the sums: the zero block is stored, read back, and the update of it is stored over it. -/
theorem r2_out_A_4 (c : Dev nD) (i : grid2.Coords) (a1 : Memref sig .tc .vmem S4096x64 .f32) (h1 : a1.IsWhole)
    (a2 : Memref sig .tc .vmem S4096x1 .f32) (h2 : a2.IsWhole) (a3 : Memref sig .tc .vmem S1x64 .f32) (h3 : a3.IsWhole)
    (a4 : Memref sig .tc .vmem S4096x1 .i32) (h4 : a4.IsWhole) (a5 : Memref sig .tc .vmem S128x64 .f32) (h5 : a5.IsWhole)
    (a6 : Memref sig .tc .vmem S1x128 .f32) (h6 : a6.IsWhole) (hc : cond2_0 i)
    (x0 : Vec F S4096x64 .f32) (x1 : Vec F S4096x1 .f32) (x2 : Vec F S1x64 .f32) (x3 : Vec F S4096x1 .i32) :
    out2_A_4 c i a1 h1 a2 h2 a3 h3 a4 h4 a5 h5 a6 h6 hc x0 x1 x2 x3 = k2_pay4 x0 x1 x2 x3 (k2_pay1 (F := F)) := by
  unfold out2_A_4
  rw [View.read_writes_eq_canon _ _ _ (cover2_A_4 c i a1 h1 a2 h2 a3 h3 a4 h4 a5 h5 a6 h6 hc x0 x1 x2 x3)]
  unfold kernelRun2_A
  dsimp only
  sl_unfold_words
  rw [View.canon_cons_unit_zero (S := S128x64) r2_hz, View.readCov_unit_zero (S := S128x64) _ r2_hz]
  simp only [View.readAt_eq_ld, h1.read_unread, h2.read_unread, h3.read_unread, h4.read_unread, h5.read_unread, h6.read_unread,
    View.ld_unit_zero (S := S4096x64) r2_hz, View.ld_unit_zero (S := S4096x1) r2_hz, View.ld_unit_zero (S := S1x64) r2_hz,
    View.ld_unit_zero (S := S128x64) r2_hz, View.ld_unit_zero (S := S1x128) r2_hz]

/-- Tile 0, the counts: the zero row is stored, read back, and the update of it is stored over it. -/
theorem r2_out_A_5 (c : Dev nD) (i : grid2.Coords) (a1 : Memref sig .tc .vmem S4096x64 .f32) (h1 : a1.IsWhole)
    (a2 : Memref sig .tc .vmem S4096x1 .f32) (h2 : a2.IsWhole) (a3 : Memref sig .tc .vmem S1x64 .f32) (h3 : a3.IsWhole)
    (a4 : Memref sig .tc .vmem S4096x1 .i32) (h4 : a4.IsWhole) (a5 : Memref sig .tc .vmem S128x64 .f32) (h5 : a5.IsWhole)
    (a6 : Memref sig .tc .vmem S1x128 .f32) (h6 : a6.IsWhole) (hc : cond2_0 i)
    (x0 : Vec F S4096x64 .f32) (x1 : Vec F S4096x1 .f32) (x2 : Vec F S1x64 .f32) (x3 : Vec F S4096x1 .i32) :
    out2_A_5 c i a1 h1 a2 h2 a3 h3 a4 h4 a5 h5 a6 h6 hc x0 x1 x2 x3 = k2_pay5 x3 (k2_pay2 (F := F)) := by
  unfold out2_A_5
  rw [View.read_writes_eq_canon _ _ _ (cover2_A_5 c i a1 h1 a2 h2 a3 h3 a4 h4 a5 h5 a6 h6 hc x0 x1 x2 x3)]
  unfold kernelRun2_A
  dsimp only
  sl_unfold_words
  rw [View.canon_cons_unit_zero (S := S1x128) r2_hz, View.readCov_unit_zero (S := S1x128) _ r2_hz]
  simp only [View.readAt_eq_ld, h1.read_unread, h2.read_unread, h3.read_unread, h4.read_unread, h5.read_unread, h6.read_unread,
    View.ld_unit_zero (S := S4096x64) r2_hz, View.ld_unit_zero (S := S4096x1) r2_hz, View.ld_unit_zero (S := S1x64) r2_hz,
    View.ld_unit_zero (S := S128x64) r2_hz, View.ld_unit_zero (S := S1x128) r2_hz]

/-- A later tile, the sums: the update of what the tile before left. -/
theorem r2_out_B_4 (c : Dev nD) (i : grid2.Coords) (a1 : Memref sig .tc .vmem S4096x64 .f32) (h1 : a1.IsWhole)
    (a2 : Memref sig .tc .vmem S4096x1 .f32) (h2 : a2.IsWhole) (a3 : Memref sig .tc .vmem S1x64 .f32) (h3 : a3.IsWhole)
    (a4 : Memref sig .tc .vmem S4096x1 .i32) (h4 : a4.IsWhole) (a5 : Memref sig .tc .vmem S128x64 .f32) (h5 : a5.IsWhole)
    (a6 : Memref sig .tc .vmem S1x128 .f32) (h6 : a6.IsWhole) (hc : ¬cond2_0 i)
    (x0 : Vec F S4096x64 .f32) (x1 : Vec F S4096x1 .f32) (x2 : Vec F S1x64 .f32) (x3 : Vec F S4096x1 .i32) (xo4 : Vec F S128x64 .f32) (xo5 : Vec F S1x128 .f32) :
    out2_B_4 c i a1 h1 a2 h2 a3 h3 a4 h4 a5 h5 a6 h6 hc x0 x1 x2 x3 xo4 xo5 = k2_pay4 x0 x1 x2 x3 xo4 := by
  unfold out2_B_4
  rw [View.read_writes_eq_canon _ _ _ (cover2_B_4 c i a1 h1 a2 h2 a3 h3 a4 h4 a5 h5 a6 h6 hc x0 x1 x2 x3 xo4 xo5)]
  unfold kernelRun2_B
  dsimp only
  sl_unfold_words
  rw [View.canon_unit_zero r2_hz]
  simp only [View.readAt_eq_ld, h1.read_unread, h2.read_unread, h3.read_unread, h4.read_unread, h5.read_unread, h6.read_unread,
    View.ld_unit_zero (S := S4096x64) r2_hz, View.ld_unit_zero (S := S4096x1) r2_hz, View.ld_unit_zero (S := S1x64) r2_hz,
    View.ld_unit_zero (S := S128x64) r2_hz, View.ld_unit_zero (S := S1x128) r2_hz]

/-- A later tile, the counts: the update of what the tile before left. -/
theorem r2_out_B_5 (c : Dev nD) (i : grid2.Coords) (a1 : Memref sig .tc .vmem S4096x64 .f32) (h1 : a1.IsWhole)
    (a2 : Memref sig .tc .vmem S4096x1 .f32) (h2 : a2.IsWhole) (a3 : Memref sig .tc .vmem S1x64 .f32) (h3 : a3.IsWhole)
    (a4 : Memref sig .tc .vmem S4096x1 .i32) (h4 : a4.IsWhole) (a5 : Memref sig .tc .vmem S128x64 .f32) (h5 : a5.IsWhole)
    (a6 : Memref sig .tc .vmem S1x128 .f32) (h6 : a6.IsWhole) (hc : ¬cond2_0 i)
    (x0 : Vec F S4096x64 .f32) (x1 : Vec F S4096x1 .f32) (x2 : Vec F S1x64 .f32) (x3 : Vec F S4096x1 .i32) (xo4 : Vec F S128x64 .f32) (xo5 : Vec F S1x128 .f32) :
    out2_B_5 c i a1 h1 a2 h2 a3 h3 a4 h4 a5 h5 a6 h6 hc x0 x1 x2 x3 xo4 xo5 = k2_pay5 x3 xo5 := by
  unfold out2_B_5
  rw [View.read_writes_eq_canon _ _ _ (cover2_B_5 c i a1 h1 a2 h2 a3 h3 a4 h4 a5 h5 a6 h6 hc x0 x1 x2 x3 xo4 xo5)]
  unfold kernelRun2_B
  dsimp only
  sl_unfold_words
  rw [View.canon_unit_zero r2_hz]
  simp only [View.readAt_eq_ld, h1.read_unread, h2.read_unread, h3.read_unread, h4.read_unread, h5.read_unread, h6.read_unread,
    View.ld_unit_zero (S := S4096x64) r2_hz, View.ld_unit_zero (S := S4096x1) r2_hz, View.ld_unit_zero (S := S1x64) r2_hz,
    View.ld_unit_zero (S := S128x64) r2_hz, View.ld_unit_zero (S := S1x128) r2_hz]

end Pieces

/-! ## The payloads at an index, at the exact instance -/

/-- A 32-bit comparison's bit, widened and converted: one where the words agree, zero elsewhere. -/
theorem r2_bit_val (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · rw [if_pos h, show IntOp.cmpi .eq a b = 1#1 from by simp [IntOp.cmpi, h],
      show ((1#1 : BitVec 1).setWidth 32).toInt = 1 from by decide]
    simp
  · rw [if_neg h, show IntOp.cmpi .eq a b = 0#1 from by
        show BitVec.ofBool (a == b) = 0#1
        rw [beq_eq_false_iff_ne.mpr h]; rfl,
      show ((0#1 : BitVec 1).setWidth 32).toInt = 0 from by decide]
    simp

/-- The one-hot block: row i, column g is one exactly where row i's batch word is g. -/
theorem r2_pay3_apply (v16 : IVec S4096x1 32) (i : Fin 4096) (g : Fin 128) :
    k2_pay3 (F := Ideal) v16 (ix2 i g) = Cert.Spec.hotW (v16 (ix2 i (0 : Fin 1))) g := by
  unfold k2_pay3
  show FloatOps.sitofp (F := Ideal) .f32 ((IntOp.cmpi .eq
      (broadcastTo S4096x128 (shapeCast S4096x1 v16 shapeCasts_S4096x1_S4096x1) broadcasts_S4096x1_S4096x128 (ix2 i g))
      (iota .tc S4096x128 32 [1] iota_S4096x128_d1_w32 (ix2 i g))).setWidth 32) = _
  refine (congrArg (fun w => FloatOps.sitofp (F := Ideal) .f32 ((IntOp.cmpi .eq w
      (iota .tc S4096x128 32 [1] iota_S4096x128_d1_w32 (ix2 i g))).setWidth 32))
    ((Cert.LibColumn.broadcastTo_a1_ab_apply _ broadcasts_S4096x1_S4096x128 i g).trans
      (congrFun (shapeCast_self v16 shapeCasts_S4096x1_S4096x1) (ix2 i (0 : Fin 1))))).trans ?_
  refine (congrArg (fun w => FloatOps.sitofp (F := Ideal) .f32 ((IntOp.cmpi .eq (v16 (ix2 i (0 : Fin 1))) w).setWidth 32))
    (iota_single_apply .tc S4096x128 32 1 iota_S4096x128_d1_w32 (ix2 i g))).trans ?_
  exact r2_bit_val _ _

/-- The rectified block agg * dinv + b2, floored at zero, row by row. -/
def r2_relu (v3 : FVec Ideal S4096x64 .f32) (v5 : FVec Ideal S4096x1 .f32) (v9 : FVec Ideal S1x64 .f32) : FVec Ideal S4096x64 .f32 :=
  maximumf (addf (mulf (shapeCast S4096x64 v3 shapeCasts_S4096x64_S4096x64)
      (broadcastTo S4096x64 (shapeCast S4096x1 v5 shapeCasts_S4096x1_S4096x1) broadcasts_S4096x1_S4096x64))
      (broadcastTo S4096x64 (shapeCast S1x64 v9 shapeCasts_S1x64_S1x64) broadcasts_S1x64_S4096x64))
    (broadcast S4096x64 (Scalar.ofBits (F := Ideal) .f32 0x00000000#32))

theorem r2_relu_apply (v3 : FVec Ideal S4096x64 .f32) (v5 : FVec Ideal S4096x1 .f32) (v9 : FVec Ideal S1x64 .f32)
    (i : Fin 4096) (j : Fin 64) :
    r2_relu v3 v5 v9 (ix2 i j) = max (v3 (ix2 i j) * v5 (ix2 i (0 : Fin 1)) + v9 (ix2 (0 : Fin 1) j)) 0 := by
  unfold r2_relu
  rw [maximumf_apply, addf_apply, mulf_apply, broadcast_apply, shapeCast_self, shapeCast_self, shapeCast_self,
    Cert.LibColumn.broadcastTo_a1_ab_apply, broadcastTo_1b_ab_apply]
  show max _ (Ideal.ofBits .f32 0x00000000#32) = _
  rw [Ideal.ofBits_zero_f32]

/-! The product contracts the ROW axis of both operands: the left operand's column is the result's row, the right
    operand's column the result's column. -/
theorem r2_lhs_0 (j : S128x64.Idx) (q : dot_S4096x128_S4096x64_S128x64_0_0_1_1_n_n.contr.Idx) :
    (dot_S4096x128_S4096x64_S128x64_0_0_1_1_n_n.lhsIdx j q 0).val = (q ⟨0, by decide⟩).val :=
  dot_S4096x128_S4096x64_S128x64_0_0_1_1_n_n.lhsIdx_val_of_single rfl j q
theorem r2_lhs_1 (j : S128x64.Idx) (q : dot_S4096x128_S4096x64_S128x64_0_0_1_1_n_n.contr.Idx) :
    (dot_S4096x128_S4096x64_S128x64_0_0_1_1_n_n.lhsIdx j q 1).val = (j 0).val := by
  unfold DotDims.lhsIdx
  rw [dif_neg (show ¬(1 : Fin S4096x128.rank) ∈ dot_S4096x128_S4096x64_S128x64_0_0_1_1_n_n.lhsBatch by decide), dif_pos (show (1 : Fin S4096x128.rank) ∈ dot_S4096x128_S4096x64_S128x64_0_0_1_1_n_n.lhsNonContracting by decide)]
  rfl
theorem r2_rhs_0 (j : S128x64.Idx) (q : dot_S4096x128_S4096x64_S128x64_0_0_1_1_n_n.contr.Idx) :
    (dot_S4096x128_S4096x64_S128x64_0_0_1_1_n_n.rhsIdx j q 0).val = (q ⟨0, by decide⟩).val :=
  dot_S4096x128_S4096x64_S128x64_0_0_1_1_n_n.rhsIdx_val_of_single rfl j q
theorem r2_rhs_1 (j : S128x64.Idx) (q : dot_S4096x128_S4096x64_S128x64_0_0_1_1_n_n.contr.Idx) :
    (dot_S4096x128_S4096x64_S128x64_0_0_1_1_n_n.rhsIdx j q 1).val = (j 1).val := by
  unfold DotDims.rhsIdx
  rw [dif_neg (show ¬(1 : Fin S4096x64.rank) ∈ dot_S4096x128_S4096x64_S128x64_0_0_1_1_n_n.rhsBatch by decide), dif_pos (show (1 : Fin S4096x64.rank) ∈ dot_S4096x128_S4096x64_S128x64_0_0_1_1_n_n.rhsNonContracting by decide)]
  rfl

/-- Into a zero accumulator the product at (g, j) is the sum over the 4096 rows of left (i, g) * right (i, j). -/
theorem r2_matmul_apply (A : FVec Ideal S4096x128 .f32) (B : FVec Ideal S4096x64 .f32) (g : Fin 128) (j : Fin 64) :
    matmul dot_S4096x128_S4096x64_S128x64_0_0_1_1_n_n (some .fp32) A B (constant (F := Ideal) S128x64 .f32 0x00000000#32) (ix2 g j)
      = ∑ i : Fin 4096, A (ix2 i g) * B (ix2 i j) := by
  show FloatOps.matmul dot_S4096x128_S4096x64_S128x64_0_0_1_1_n_n (some .fp32) A B (constant (F := Ideal) S128x64 .f32 0x00000000#32) (ix2 g j) = _
  rw [Ideal.matmul_constant_zero_apply, ← Equiv.sum_comp (contrEquiv1 dot_S4096x128_S4096x64_S128x64_0_0_1_1_n_n 4096 rfl rfl).symm]
  refine Finset.sum_congr rfl fun k _ => ?_
  have hk := contrEquiv1_symm_val dot_S4096x128_S4096x64_S128x64_0_0_1_1_n_n 4096 rfl rfl k
  have el : dot_S4096x128_S4096x64_S128x64_0_0_1_1_n_n.lhsIdx (ix2 g j) ((contrEquiv1 dot_S4096x128_S4096x64_S128x64_0_0_1_1_n_n 4096 rfl rfl).symm k) = ix2 k g := funext fun a => Fin.ext (by
    match a with
    | ⟨0, _⟩ => exact (r2_lhs_0 _ _).trans hk
    | ⟨1, _⟩ => exact r2_lhs_1 _ _)
  have er : dot_S4096x128_S4096x64_S128x64_0_0_1_1_n_n.rhsIdx (ix2 g j) ((contrEquiv1 dot_S4096x128_S4096x64_S128x64_0_0_1_1_n_n 4096 rfl rfl).symm k) = ix2 k j := funext fun a => Fin.ext (by
    match a with
    | ⟨0, _⟩ => exact (r2_rhs_0 _ _).trans hk
    | ⟨1, _⟩ => exact r2_rhs_1 _ _)
  rw [el, er]

/-- The sums' update at (g, j): what was there plus the tile's rows of graph g, rectified, summed. -/
theorem r2_pay4_apply (v3 : FVec Ideal S4096x64 .f32) (v5 : FVec Ideal S4096x1 .f32) (v9 : FVec Ideal S1x64 .f32)
    (v16 : IVec S4096x1 32) (v23 : FVec Ideal S128x64 .f32) (g : Fin 128) (j : Fin 64) :
    k2_pay4 (F := Ideal) v3 v5 v9 v16 v23 (ix2 g j)
      = v23 (ix2 g j) + ∑ i : Fin 4096, Cert.Spec.hotW (v16 (ix2 i (0 : Fin 1))) g
          * max (v3 (ix2 i j) * v5 (ix2 i (0 : Fin 1)) + v9 (ix2 (0 : Fin 1) j)) 0 := by
  unfold k2_pay4
  show shapeCast S128x64 v23 shapeCasts_S128x64_S128x64 (ix2 g j)
      + matmul dot_S4096x128_S4096x64_S128x64_0_0_1_1_n_n (some .fp32) (k2_pay3 (F := Ideal) v16) (r2_relu v3 v5 v9)
          (constant (F := Ideal) S128x64 .f32 0x00000000#32) (ix2 g j) = _
  rw [shapeCast_self, r2_matmul_apply]
  refine congrArg (v23 (ix2 g j) + ·) (Finset.sum_congr rfl fun i _ => ?_)
  rw [r2_pay3_apply, r2_relu_apply]

/-- Summing the one-hot block down its rows: the inserted row coordinate beside the column. -/
theorem r2_lift (g : Fin 128) (i : Fin 4096) : reduces_S4096x128_S128.lift (ix1 g) i = ix2 i g :=
  funext fun a => Fin.ext (by
    match a with
    | ⟨0, _⟩ => rfl
    | ⟨1, _⟩ => rfl)

/-- The counts' update at g: what was there plus the number of the tile's rows of graph g. -/
theorem r2_pay5_apply (v16 : IVec S4096x1 32) (v27 : FVec Ideal S1x128 .f32) (g : Fin 128) :
    k2_pay5 (F := Ideal) v16 v27 (ix2 (0 : Fin 1) g)
      = v27 (ix2 (0 : Fin 1) g) + ∑ i : Fin 4096, Cert.Spec.hotW (v16 (ix2 i (0 : Fin 1))) g := by
  unfold k2_pay5
  show shapeCast S1x128 v27 shapeCasts_S1x128_S1x128 (ix2 (0 : Fin 1) g)
      + shapeCast S1x128 (multiReduction (F := Ideal) .add [0] S128 (k2_pay3 (F := Ideal) v16) 0x00000000#32
          reduces_S4096x128_S128 (.inl rfl) rfl) shapeCasts_S128_S1x128 (ix2 (0 : Fin 1) g) = _
  rw [shapeCast_self]
  refine congrArg (v27 (ix2 (0 : Fin 1) g) + ·) ?_
  refine (shapeCast_a_1a_apply _ shapeCasts_S128_S1x128 (0 : Fin 1) g).trans ?_
  refine (Ideal.multiReduction_add_single (k2_pay3 (F := Ideal) v16) 0x00000000#32 reduces_S4096x128_S128 (.inl rfl) rfl (ix1 g)).trans ?_
  refine Finset.sum_congr rfl fun i _ => ?_
  exact (congrArg (k2_pay3 (F := Ideal) v16) (r2_lift g i)).trans (r2_pay3_apply v16 i g)

variable (V : (c : Dev nD) → (b : Ref sig .tc) → Buf (Elt Ideal) ((c : Thread nD τ).loc b))

/-- Region 2's arrays as the region finds them, at their literal types. -/
abbrev r2_agg (c : Dev nD) : FVec Ideal S102400x64 .f32 := V c main_v69
abbrev r2_dv (c : Dev nD) : FVec Ideal S102400x1 .f32 := V c main_v14
abbrev r2_b2 (c : Dev nD) : FVec Ideal S1x64 .f32 := V c main_v16
abbrev r2_bt (c : Dev nD) : IVec S102400x1 32 := V c main_v17
/-- Region 2's output arrays after the last tile's write-back. -/
abbrev r2_sums (c : Dev nD) : FVec Ideal S128x64 .f32 := (dat2 (F := Ideal) V c).arrAt 4 cfg2.N
abbrev r2_cnt (c : Dev nD) : FVec Ideal S1x128 .f32 := (dat2 (F := Ideal) V c).arrAt 5 cfg2.N

/-! ## A tile's input blocks, read at a row -/

/-- Tile t's blocks of the four inputs, at their literal types. -/
abbrev r2_aggB (c : Dev nD) (t : Fin cfg2.N) : FVec Ideal S4096x64 .f32 := iblk2 V c 0 t
abbrev r2_dvB (c : Dev nD) (t : Fin cfg2.N) : FVec Ideal S4096x1 .f32 := iblk2 V c 1 t
abbrev r2_b2B (c : Dev nD) (t : Fin cfg2.N) : FVec Ideal S1x64 .f32 := iblk2 V c 2 t
abbrev r2_btB (c : Dev nD) (t : Fin cfg2.N) : IVec S4096x1 32 := iblk2 V c 3 t

/-- The index maps over the grid: the three row-tiled inputs are at block (t, 0), the bias and both outputs at (0, 0). -/
theorem r2_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem r2_tileRow_val (t : Fin cfg2.N) (i : Fin 4096) : (Cert.Spec.tileRow t.val i).val = t.val * 4096 + i.val := by
  have hN : t.val < 25 := lt_of_lt_of_eq t.isLt N_2
  show (t.val % 25) * 4096 + i.val = _
  rw [Nat.mod_eq_of_lt hN]

/-- Row i of tile t's block of agg is row t * 4096 + i of the array. -/
theorem r2_aggB_apply (c : Dev nD) (t : Fin cfg2.N) (i : Fin 4096) (j : Fin 64) :
    r2_aggB V c t (ix2 i j) = r2_agg V c (ix2 (Cert.Spec.tileRow t.val i) j) := by
  obtain ⟨e0, e1, -⟩ := r2_idx t
  show V c main_v69 (((cfg2.win 0).blk t).view.emb (ix2 i j)) = V c main_v69 _
  refine congrArg (V c main_v69) (funext fun a => Fin.ext ?_)
  match a with
  | ⟨0, _⟩ => show win2_0.index t (0 : Fin 2) * 4096 + 1 * i.val = (Cert.Spec.tileRow t.val i).val; rw [r2_tileRow_val, e0]; omega
  | ⟨1, _⟩ => show win2_0.index t (1 : Fin 2) * 64 + 1 * j.val = j.val; rw [e1]; omega

/-- Row i of tile t's block of the normalisation column. -/
theorem r2_dvB_apply (c : Dev nD) (t : Fin cfg2.N) (i : Fin 4096) :
    r2_dvB V c t (ix2 i (0 : Fin 1)) = r2_dv V c (ix2 (Cert.Spec.tileRow t.val i) (0 : Fin 1)) := by
  obtain ⟨-, -, e0, e1, -⟩ := r2_idx t
  show V c main_v14 (((cfg2.win 1).blk t).view.emb (ix2 i (0 : Fin 1))) = V c main_v14 _
  refine congrArg (V c main_v14) (funext fun a => Fin.ext ?_)
  match a with
  | ⟨0, _⟩ => show win2_1.index t (0 : Fin 2) * 4096 + 1 * i.val = (Cert.Spec.tileRow t.val i).val; rw [r2_tileRow_val, e0]; omega
  | ⟨1, _⟩ => show win2_1.index t (1 : Fin 2) * 1 + 1 * 0 = 0; rw [e1]

/-- The bias row is the same block at every tile. -/
theorem r2_b2B_apply (c : Dev nD) (t : Fin cfg2.N) (j : Fin 64) :
    r2_b2B V c t (ix2 (0 : Fin 1) j) = r2_b2 V c (ix2 (0 : Fin 1) j) := by
  obtain ⟨-, -, -, -, e0, e1, -⟩ := r2_idx t
  show V c main_v16 (((cfg2.win 2).blk t).view.emb (ix2 (0 : Fin 1) j)) = V c main_v16 _
  refine congrArg (V c main_v16) (funext fun a => Fin.ext ?_)
  match a with
  | ⟨0, _⟩ => show win2_2.index t (0 : Fin 2) * 1 + 1 * 0 = 0; rw [e0]
  | ⟨1, _⟩ => show win2_2.index t (1 : Fin 2) * 64 + 1 * j.val = j.val; rw [e1]; omega

/-- Row i of tile t's block of the batch column. -/
theorem r2_btB_apply (c : Dev nD) (t : Fin cfg2.N) (i : Fin 4096) :
    r2_btB V c t (ix2 i (0 : Fin 1)) = r2_bt V c (ix2 (Cert.Spec.tileRow t.val i) (0 : Fin 1)) := by
  obtain ⟨-, -, -, -, -, -, e0, e1⟩ := r2_idx t
  show V c main_v17 (((cfg2.win 3).blk t).view.emb (ix2 i (0 : Fin 1))) = V c main_v17 _
  refine congrArg (V c main_v17) (funext fun a => Fin.ext ?_)
  match a with
  | ⟨0, _⟩ => show win2_3.index t (0 : Fin 2) * 4096 + 1 * i.val = (Cert.Spec.tileRow t.val i).val; rw [r2_tileRow_val, e0]; omega
  | ⟨1, _⟩ => show win2_3.index t (1 : Fin 2) * 1 + 1 * 0 = 0; rw [e1]

/-! ## What a tile adds, and the running totals -/

/-- Tile t's contribution to the sums at (g, j). -/
def r2_fS (c : Dev nD) (g : Fin 128) (j : Fin 64) (t : Nat) : EReal :=
  ∑ i : Fin 4096, Cert.Spec.hotW (r2_bt V c (ix2 (Cert.Spec.tileRow t i) (0 : Fin 1))) g
    * max (r2_agg V c (ix2 (Cert.Spec.tileRow t i) j) * r2_dv V c (ix2 (Cert.Spec.tileRow t i) (0 : Fin 1))
            + r2_b2 V c (ix2 (0 : Fin 1) j)) 0
/-- Tile t's contribution to the counts at g. -/
def r2_fC (c : Dev nD) (g : Fin 128) (t : Nat) : EReal :=
  ∑ i : Fin 4096, Cert.Spec.hotW (r2_bt V c (ix2 (Cert.Spec.tileRow t i) (0 : Fin 1))) g

/-- The update's sum over tile t's rows is the tile's contribution to the sums. -/
theorem r2_sumS (c : Dev nD) (t : Fin cfg2.N) (g : Fin 128) (j : Fin 64) :
    (∑ i : Fin 4096, Cert.Spec.hotW (r2_btB V c t (ix2 i (0 : Fin 1))) g
        * max (r2_aggB V c t (ix2 i j) * r2_dvB V c t (ix2 i (0 : Fin 1)) + r2_b2B V c t (ix2 (0 : Fin 1) j)) 0)
      = r2_fS V c g j t.val :=
  Finset.sum_congr rfl fun i _ => by rw [r2_btB_apply, r2_aggB_apply, r2_dvB_apply, r2_b2B_apply]
/-- The update's count over tile t's rows is the tile's contribution to the counts. -/
theorem r2_sumC (c : Dev nD) (t : Fin cfg2.N) (g : Fin 128) :
    (∑ i : Fin 4096, Cert.Spec.hotW (r2_btB V c t (ix2 i (0 : Fin 1))) g) = r2_fC V c g t.val :=
  Finset.sum_congr rfl fun i _ => by rw [r2_btB_apply]

/-- Tile 0 leaves zero plus its contribution in the sums' block. -/
theorem r2_step_A_4 (c : Dev nD) (t : Fin cfg2.N) (h0 : t.val % 25 = 0) (g : Fin 128) (j : Fin 64) :
    (outsAt2 V c t.val t.isLt).1 (ix2 g j) = 0 + r2_fS V c g j t.val := by
  rw [outsAt2_A V c t h0]; dsimp only
  refine (congrFun (r2_out_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)) (ix2 g j)).trans ?_
  refine (r2_pay4_apply (r2_aggB V c t) (r2_dvB V c t) (r2_b2B V c t) (r2_btB V c t) (k2_pay1 (F := Ideal)) g j).trans ?_
  rw [r2_sumS]
  exact congrArg (· + r2_fS V c g j t.val) Ideal.ofBits_zero_f32

/-- Tile 0 leaves zero plus its contribution in the counts' block. -/
theorem r2_step_A_5 (c : Dev nD) (t : Fin cfg2.N) (h0 : t.val % 25 = 0) (g : Fin 128) :
    (outsAt2 V c t.val t.isLt).2 (ix2 (0 : Fin 1) g) = 0 + r2_fC V c g t.val := by
  rw [outsAt2_A V c t h0]; dsimp only
  refine (congrFun (r2_out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)) (ix2 (0 : Fin 1) g)).trans ?_
  refine (r2_pay5_apply (r2_btB V c t) (k2_pay2 (F := Ideal)) g).trans ?_
  rw [r2_sumC]
  exact congrArg (· + r2_fC V c g t.val) Ideal.ofBits_zero_f32

/-- A later tile adds its contribution to what the tile before left in the sums' block. -/
theorem r2_step_B_4 (c : Dev nD) (t : Fin cfg2.N) (h0 : ¬t.val % 25 = 0) (g : Fin 128) (j : Fin 64) :
    (outsAt2 V c t.val t.isLt).1 (ix2 g j) = (outsAt2 V c (t.val - 1) (Nat.lt_of_le_of_lt (Nat.sub_le _ _) t.isLt)).1 (ix2 g j) + r2_fS V c g j t.val := by
  rw [outsAt2_B V c t h0]; dsimp only
  refine (congrFun (r2_out_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t)
    (outsAt2 V c (t.val - 1) (Nat.lt_of_le_of_lt (Nat.sub_le _ _) t.isLt)).1 (outsAt2 V c (t.val - 1) (Nat.lt_of_le_of_lt (Nat.sub_le _ _) t.isLt)).2) (ix2 g j)).trans ?_
  refine (r2_pay4_apply (r2_aggB V c t) (r2_dvB V c t) (r2_b2B V c t) (r2_btB V c t) (outsAt2 V c (t.val - 1) (Nat.lt_of_le_of_lt (Nat.sub_le _ _) t.isLt)).1 g j).trans ?_
  rw [r2_sumS]

/-- A later tile adds its contribution to what the tile before left in the counts' block. -/
theorem r2_step_B_5 (c : Dev nD) (t : Fin cfg2.N) (h0 : ¬t.val % 25 = 0) (g : Fin 128) :
    (outsAt2 V c t.val t.isLt).2 (ix2 (0 : Fin 1) g) = (outsAt2 V c (t.val - 1) (Nat.lt_of_le_of_lt (Nat.sub_le _ _) t.isLt)).2 (ix2 (0 : Fin 1) g) + r2_fC V c g t.val := by
  rw [outsAt2_B V c t h0]; dsimp only
  refine (congrFun (r2_out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t)
    (outsAt2 V c (t.val - 1) (Nat.lt_of_le_of_lt (Nat.sub_le _ _) t.isLt)).1 (outsAt2 V c (t.val - 1) (Nat.lt_of_le_of_lt (Nat.sub_le _ _) t.isLt)).2) (ix2 (0 : Fin 1) g)).trans ?_
  refine (r2_pay5_apply (r2_btB V c t) (outsAt2 V c (t.val - 1) (Nat.lt_of_le_of_lt (Nat.sub_le _ _) t.isLt)).2 g).trans ?_
  rw [r2_sumC]

/-- After tile n both blocks hold the contributions of tiles 0 to n, accumulated in order from zero. -/
theorem r2_outs_eq (c : Dev nD) : ∀ (n : ℕ) (h : n < cfg2.N),
    (∀ (g : Fin 128) (j : Fin 64), (outsAt2 V c n h).1 (ix2 g j) = Cert.Spec.accT (r2_fS V c g j) n)
    ∧ (∀ g : Fin 128, (outsAt2 V c n h).2 (ix2 (0 : Fin 1) g) = Cert.Spec.accT (r2_fC V c g) n)
  | 0, h => ⟨fun g j => r2_step_A_4 V c ⟨0, h⟩ (Nat.zero_mod _) g j, fun g => r2_step_A_5 V c ⟨0, h⟩ (Nat.zero_mod _) g⟩
  | n + 1, h => by
    have hN : n + 1 < 25 := lt_of_lt_of_eq h N_2
    have hB : ¬(⟨n + 1, h⟩ : Fin cfg2.N).val % 25 = 0 := by dsimp only; omega
    obtain ⟨ih4, ih5⟩ := r2_outs_eq c n (Nat.lt_of_succ_lt h)
    refine ⟨fun g j => (r2_step_B_4 V c ⟨n + 1, h⟩ hB g j).trans ?_, fun g => (r2_step_B_5 V c ⟨n + 1, h⟩ hB g).trans ?_⟩
    · show (outsAt2 V c n _).1 (ix2 g j) + r2_fS V c g j (n + 1) = Cert.Spec.accT (r2_fS V c g j) n + r2_fS V c g j (n + 1)
      rw [ih4 g j]
    · show (outsAt2 V c n _).2 (ix2 (0 : Fin 1) g) + r2_fC V c g (n + 1) = Cert.Spec.accT (r2_fC V c g) n + r2_fC V c g (n + 1)
      rw [ih5 g]

/-! ## The arrays after the region: what the last tile's write-back leaves -/

/-- The last tile, the only one whose blocks are written back. -/
abbrev r2_last : Fin cfg2.N := ⟨24, by rw [show cfg2.N = 25 from N_2]; decide⟩

/-- The one write-back of the sums' block writes what tile 24 left: block (0, 0) of the 128 x 64 array is the array. -/
theorem r2_flushed_4 (c : Dev nD) (t : Fin cfg2.N) (hf : (cfg2.win 4).flush t = true) :
    (dat2 (F := Ideal) V c).flushed 4 t
      = ((cfg2.win 4).blk t).view.read (Elt Ideal) (outsAt2 V c 24 r2_last.isLt).1 := by
  have hN : t.val < 25 := lt_of_lt_of_eq t.isLt N_2
  have h24 : t.val = 24 := by have := (flush2_4 t).mp hf; omega
  obtain rfl : t = r2_last := Fin.ext h24
  show (cfg2.win 4).cut (grid2.coords r2_last) ((dat2 (F := Ideal) V c).after 4 r2_last) = _
  rw [after2_4]
  have hz' : (fun a => win2_4.index r2_last a * main_v70_0.ty.shape.size a) = fun _ => 0 :=
    funext fun a => by fin_cases a <;> decide +kernel
  exact (Memref.read_access_unit_zero (Elt Ideal) main_v70_0 hz' (fun a => by rw [congrFun hz' a]; simp)
    (outsAt2 V c 24 r2_last.isLt).1).symm

/-- The one write-back of the counts' block writes what tile 24 left. -/
theorem r2_flushed_5 (c : Dev nD) (t : Fin cfg2.N) (hf : (cfg2.win 5).flush t = true) :
    (dat2 (F := Ideal) V c).flushed 5 t
      = ((cfg2.win 5).blk t).view.read (Elt Ideal) (outsAt2 V c 24 r2_last.isLt).2 := by
  have hN : t.val < 25 := lt_of_lt_of_eq t.isLt N_2
  have h24 : t.val = 24 := by have := (flush2_5 t).mp hf; omega
  obtain rfl : t = r2_last := Fin.ext h24
  show (cfg2.win 5).cut (grid2.coords r2_last) ((dat2 (F := Ideal) V c).after 5 r2_last) = _
  rw [after2_5]
  have hz' : (fun a => win2_5.index r2_last a * main_v70_1.ty.shape.size a) = fun _ => 0 :=
    funext fun a => by fin_cases a <;> decide +kernel
  exact (Memref.read_access_unit_zero (Elt Ideal) main_v70_1 hz' (fun a => by rw [congrFun hz' a]; simp)
    (outsAt2 V c 24 r2_last.isLt).2).symm

/-- The sums' array ends holding what tile 24 left in its block: that block covers the array. -/
theorem r2_sums_eq (c : Dev nD) : r2_sums V c = (outsAt2 V c 24 r2_last.isLt).1 :=
  (dat2 (F := Ideal) V c).arrAt_eq_of_cover 4 (outsAt2 V c 24 r2_last.isLt).1 (r2_flushed_4 V c) fun i =>
    ⟨r2_last, (flush2_4 r2_last).mpr rfl, by
      show i ∈ ((View.whole main_v70_0).slice (win2_4.rect r2_last)).set
      rw [View.set_slice_whole, Rect.mem_set_unit]
      intro a
      have h0 : (i 0 : Nat) < 128 := (i 0).isLt
      have h1 : (i 1 : Nat) < 64 := (i 1).isLt
      match a with
      | ⟨0, _⟩ =>
        show win2_4.index r2_last 0 * win2_4.size 0 ≤ (i 0 : Nat) ∧ (i 0 : Nat) < win2_4.index r2_last 0 * win2_4.size 0 + win2_4.xsize (grid2.coords r2_last) 0
        rw [show win2_4.index r2_last 0 * win2_4.size 0 = 0 from by decide +kernel, show win2_4.xsize (grid2.coords r2_last) 0 = 128 from by decide +kernel]; omega
      | ⟨1, _⟩ =>
        show win2_4.index r2_last 1 * win2_4.size 1 ≤ (i 1 : Nat) ∧ (i 1 : Nat) < win2_4.index r2_last 1 * win2_4.size 1 + win2_4.xsize (grid2.coords r2_last) 1
        rw [show win2_4.index r2_last 1 * win2_4.size 1 = 0 from by decide +kernel, show win2_4.xsize (grid2.coords r2_last) 1 = 64 from by decide +kernel]; omega⟩

/-- The counts' array ends holding what tile 24 left in its block. -/
theorem r2_cnt_eq (c : Dev nD) : r2_cnt V c = (outsAt2 V c 24 r2_last.isLt).2 :=
  (dat2 (F := Ideal) V c).arrAt_eq_of_cover 5 (outsAt2 V c 24 r2_last.isLt).2 (r2_flushed_5 V c) fun i =>
    ⟨r2_last, (flush2_5 r2_last).mpr rfl, by
      show i ∈ ((View.whole main_v70_1).slice (win2_5.rect r2_last)).set
      rw [View.set_slice_whole, Rect.mem_set_unit]
      intro a
      have h0 : (i 0 : Nat) < 1 := (i 0).isLt
      have h1 : (i 1 : Nat) < 128 := (i 1).isLt
      match a with
      | ⟨0, _⟩ =>
        show win2_5.index r2_last 0 * win2_5.size 0 ≤ (i 0 : Nat) ∧ (i 0 : Nat) < win2_5.index r2_last 0 * win2_5.size 0 + win2_5.xsize (grid2.coords r2_last) 0
        rw [show win2_5.index r2_last 0 * win2_5.size 0 = 0 from by decide +kernel, show win2_5.xsize (grid2.coords r2_last) 0 = 1 from by decide +kernel]; omega
      | ⟨1, _⟩ =>
        show win2_5.index r2_last 1 * win2_5.size 1 ≤ (i 1 : Nat) ∧ (i 1 : Nat) < win2_5.index r2_last 1 * win2_5.size 1 + win2_5.xsize (grid2.coords r2_last) 1
        rw [show win2_5.index r2_last 1 * win2_5.size 1 = 0 from by decide +kernel, show win2_5.xsize (grid2.coords r2_last) 1 = 128 from by decide +kernel]; omega⟩

theorem region2_sums (c : Dev nD) (g : Fin 128) (j : Fin 64) :
    r2_sums V c (ix2 g j)
      = Cert.Spec.accT (fun t => ∑ i : Fin 4096,
          Cert.Spec.hotW (r2_bt V c (ix2 (Cert.Spec.tileRow t i) (0 : Fin 1))) g
            * max (r2_agg V c (ix2 (Cert.Spec.tileRow t i) j) * r2_dv V c (ix2 (Cert.Spec.tileRow t i) (0 : Fin 1))
                    + r2_b2 V c (ix2 (0 : Fin 1) j)) 0) 24 :=
  (congrFun (r2_sums_eq V c) (ix2 g j)).trans ((r2_outs_eq V c 24 r2_last.isLt).1 g j)

theorem region2_cnt (c : Dev nD) (g : Fin 128) :
    r2_cnt V c (ix2 (0 : Fin 1) g)
      = Cert.Spec.accT (fun t => ∑ i : Fin 4096,
          Cert.Spec.hotW (r2_bt V c (ix2 (Cert.Spec.tileRow t i) (0 : Fin 1))) g) 24 :=
  (congrFun (r2_cnt_eq V c) (ix2 (0 : Fin 1) g)).trans ((r2_outs_eq V c 24 r2_last.isLt).2 g)

end Cert.KernelIdeal.Val

end
-- ==== Proof.LibRows.lean ====
/-
  Row gathers and row scatter-adds read at an index.

  table[idx] over the rows of a rank-2 table, with the positions given as an M x 1 column: result row e is the table's
  row at position e's word, read signed and clamped into the table. The accumulating scatter of an M x C array of
  updates into the rows of an N x C array, at the exact instance: entry (n, j) is the operand's entry plus the sum of
  the updates' entries (e, j) over the rows e whose position, read signed and NOT clamped, is n; a position outside the
  array contributes nothing. The same for a rank-1 table with an M x 1 column of positions.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate

noncomputable section

namespace Cert.LibRows

open Idealize.ShloMosaic Idealize.ShloMosaic.ValueIdx
open scoped BigOperators

/-- A row gather of an N x C table at an M x 1 column of positions reads, at (e, j), the table at row
    (position e, signed, clamped into [0, N-1]) and column j. -/
theorem gather_rows_apply {α : Type} {N C M w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hsl : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsim hivd hsl
  subst hoff hcoll hob hsim hivd hsl
  unfold Host.gather
  congr 1
  funext a
  apply Fin.ext
  match a with
  | ⟨0, _⟩ =>
    show GatherDims.start _ (ix2 e j) idx 0 + GatherDims.batchCoord _ (ix2 e j) 0 + GatherDims.offCoord _ (ix2 e j) 0
      = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = _
    congr 3
    congr 1
    funext b
    match b with
    | ⟨0, _⟩ => rfl
    | ⟨1, _⟩ => rfl
  | ⟨1, _⟩ =>
    show GatherDims.start _ (ix2 e j) idx 1 + GatherDims.batchCoord _ (ix2 e j) 1 + GatherDims.offCoord _ (ix2 e j) 1
      = j.val
    rw [GatherDims.batchCoord_eq_zero _ _ _ List.not_mem_nil]
    unfold GatherDims.start
    rw [dif_neg (show (1 : Fin 2) ∉ ([0] : List (Fin 2)) by decide)]
    unfold GatherDims.offCoord
    rw [Nat.add_zero, Nat.zero_add]
    split
    · rfl
    · next ha => exact absurd (show (1 : Fin 2) ∈ (List.finRange 2).filter (· ∉ (([0] : List (Fin 2)) ++ [])) by decide) ha

/-- A gather of a length-N table at an M x 1 column of positions reads, at e, the table at position e's word, signed
    and clamped into [0, N-1]. -/
theorem gather_take_apply {α : Type} {N M w : Nat} (d : GatherDims ⟨1, ![N]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e)
      = x (ix1 (⟨min (idx (ix2 e (0 : Fin 1))).toInt.toNat (N - 1), by omega⟩ : Fin N)) := by
  -- the rank-1 index at a coordinate, in either spelling, is the same function of the axis
  have h1 : ∀ {n : Nat} (a : Fin n), (Shape.Idx.ofFin a : (⟨1, ![n]⟩ : Shape).Idx) = ix1 a := by
    intro n a
    funext b
    match b with
    | ⟨0, _⟩ => rfl
  have h2 : Idealize.ShloMosaic.StableHlo.Predicate.ixP e = ix2 e (0 : Fin 1) := by
    funext b
    match b with
    | ⟨0, _⟩ => rfl
    | ⟨1, _⟩ => rfl
  have h := Idealize.ShloMosaic.StableHlo.Predicate.gather_take d hcoll hob hsim hivd x idx e hN
  rw [h1, h1] at h
  simp only [h2] at h
  exact h

/-- The accumulating row scatter at the exact instance, read at (n, j). -/
theorem scatterAdd_rows_apply {φ : FTy} {N C M w : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (n : Fin N) (j : Fin C) :
    Host.scatterAdd (F := Ideal) d x idx upd (ix2 n j)
      = x (ix2 n j) + ∑ e ∈ Finset.univ.filter (fun e : Fin M => (idx (ix2 e (0 : Fin 1))).toInt = (n.val : Int)),
          upd (ix2 e j) := by
  classical
  obtain ⟨uw, iw, sd, ivd, wf⟩ := d
  simp only at huw hiw hsd hivd
  subst huw hiw hsd hivd
  generalize hD : (ScatterDims.mk [1] [0] [0] 1 wf : ScatterDims ⟨2, ![N, C]⟩ ⟨2, ![M, 1]⟩ ⟨2, ![M, C]⟩) = D
  have hstart0 : ∀ (i : (⟨2, ![M, C]⟩ : Shape).Idx), D.start i idx 0 = (idx (ix2 (i 0) (0 : Fin 1))).toInt := by
    intro i
    subst hD
    unfold ScatterDims.start
    rw [dif_pos (List.mem_singleton.mpr rfl)]
    congr 2
    funext b
    match b with
    | ⟨0, _⟩ => rfl
    | ⟨1, _⟩ => rfl
  have hstart1 : ∀ (i : (⟨2, ![M, C]⟩ : Shape).Idx), D.start i idx 1 = 0 := by
    intro i
    subst hD
    unfold ScatterDims.start
    rw [dif_neg (show (1 : Fin 2) ∉ ([0] : List (Fin 2)) by decide)]
  have hwin0 : ∀ (i : (⟨2, ![M, C]⟩ : Shape).Idx), D.window i 0 = 0 := by
    intro i
    subst hD
    unfold ScatterDims.window
    split
    · next ha => exact absurd ha (show (0 : Fin 2) ∉ (List.finRange 2).filter (· ∉ ([0] : List (Fin 2))) by decide)
    · rfl
  have hwin1 : ∀ (i : (⟨2, ![M, C]⟩ : Shape).Idx), D.window i 1 = (i 1).val := by
    intro i
    subst hD
    unfold ScatterDims.window
    split
    · rfl
    · next ha => exact absurd (show (1 : Fin 2) ∈ (List.finRange 2).filter (· ∉ ([0] : List (Fin 2))) by decide) ha
  -- an update index lands at (n, j) exactly when its row's position is n and its column is j
  have key : ∀ (i : (⟨2, ![M, C]⟩ : Shape).Idx),
      D.resultIdx? i idx = some (ix2 n j) ↔ (idx (ix2 (i 0) (0 : Fin 1))).toInt = (n.val : Int) ∧ i 1 = j := by
    intro i
    unfold ScatterDims.resultIdx?
    split
    · next h =>
      rw [Option.some.injEq]
      constructor
      · intro hEq
        have h0 := congrArg (fun f => (f 0).val) hEq
        have h1 := congrArg (fun f => (f 1).val) hEq
        simp only [hstart0, hwin0, hstart1, hwin1] at h0 h1
        have hh := (h 0).1
        rw [hstart0, hwin0] at hh
        refine ⟨?_, Fin.ext ?_⟩
        · have : (ix2 n j 0).val = n.val := rfl
          omega
        · have : (ix2 n j 1).val = j.val := rfl
          omega
      · rintro ⟨h0, h1⟩
        funext a
        match a with
        | ⟨0, _⟩ =>
          apply Fin.ext
          show (D.start i idx 0 + (D.window i 0 : Int)).toNat = n.val
          rw [hstart0, hwin0, h0]; simp
        | ⟨1, _⟩ =>
          apply Fin.ext
          show (D.start i idx 1 + (D.window i 1 : Int)).toNat = j.val
          rw [hstart1, hwin1, h1]; simp
    · next h =>
      constructor
      · intro hEq; exact absurd hEq (by simp)
      · rintro ⟨h0, h1⟩
        exfalso
        apply h
        intro a
        match a with
        | ⟨0, _⟩ =>
          show 0 ≤ D.start i idx 0 + (D.window i 0 : Int) ∧ D.start i idx 0 + (D.window i 0 : Int) < (N : Int)
          rw [hstart0, hwin0, h0]
          have := n.isLt
          omega
        | ⟨1, _⟩ =>
          show 0 ≤ D.start i idx 1 + (D.window i 1 : Int) ∧ D.start i idx 1 + (D.window i 1 : Int) < (C : Int)
          rw [hstart1, hwin1, h1]
          have := j.isLt
          omega
  show Ideal.hostScatterAdd D x idx upd (ix2 n j) = _
  unfold Ideal.hostScatterAdd
  congr 1
  refine Finset.sum_bij' (fun i _ => i 0) (fun e _ => ix2 e j) ?_ ?_ ?_ ?_ ?_
  · intro i hi
    exact Finset.mem_filter.2 ⟨Finset.mem_univ _, ((key i).1 (Finset.mem_filter.1 hi).2).1⟩
  · intro e he
    exact Finset.mem_filter.2 ⟨Finset.mem_univ _, (key _).2 ⟨(Finset.mem_filter.1 he).2, rfl⟩⟩
  · intro i hi
    have h1 := ((key i).1 (Finset.mem_filter.1 hi).2).2
    rw [← h1]
    exact (eq_ix2 i).symm
  · intro e _
    rfl
  · intro i hi
    have h1 := ((key i).1 (Finset.mem_filter.1 hi).2).2
    rw [← h1]
    exact congrArg upd (eq_ix2 i)

/-- The accumulating scatter into a length-N array, read at n. -/
theorem scatterAdd_take_apply {φ : FTy} {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (n : Fin N) :
    Host.scatterAdd (F := Ideal) d x idx upd (ix1 n)
      = x (ix1 n) + ∑ e ∈ Finset.univ.filter (fun e : Fin M => (idx (ix2 e (0 : Fin 1))).toInt = (n.val : Int)),
          upd (ix1 e) := by
  classical
  obtain ⟨uw, iw, sd, ivd, wf⟩ := d
  simp only at huw hiw hsd hivd
  subst huw hiw hsd hivd
  generalize hD : (ScatterDims.mk [] [0] [0] 1 wf : ScatterDims ⟨1, ![N]⟩ ⟨2, ![M, 1]⟩ ⟨1, ![M]⟩) = D
  have hstart0 : ∀ (i : (⟨1, ![M]⟩ : Shape).Idx), D.start i idx 0 = (idx (ix2 (i 0) (0 : Fin 1))).toInt := by
    intro i
    subst hD
    unfold ScatterDims.start
    rw [dif_pos (List.mem_singleton.mpr rfl)]
    congr 2
    funext b
    match b with
    | ⟨0, _⟩ => rfl
    | ⟨1, _⟩ => rfl
  have hwin0 : ∀ (i : (⟨1, ![M]⟩ : Shape).Idx), D.window i 0 = 0 := by
    intro i
    subst hD
    unfold ScatterDims.window
    split
    · next ha => exact absurd ha (show (0 : Fin 1) ∉ (List.finRange 1).filter (· ∉ ([0] : List (Fin 1))) by decide)
    · rfl
  -- an update index lands at n exactly when its position is n
  have key : ∀ (i : (⟨1, ![M]⟩ : Shape).Idx),
      D.resultIdx? i idx = some (ix1 n) ↔ (idx (ix2 (i 0) (0 : Fin 1))).toInt = (n.val : Int) := by
    intro i
    unfold ScatterDims.resultIdx?
    split
    · next h =>
      rw [Option.some.injEq]
      constructor
      · intro hEq
        have h0 := congrArg (fun f => (f 0).val) hEq
        simp only [hstart0, hwin0] at h0
        have hh := (h 0).1
        rw [hstart0, hwin0] at hh
        have : (ix1 n 0).val = n.val := rfl
        omega
      · intro h0
        funext a
        match a with
        | ⟨0, _⟩ =>
          apply Fin.ext
          show (D.start i idx 0 + (D.window i 0 : Int)).toNat = n.val
          rw [hstart0, hwin0, h0]; simp
    · next h =>
      constructor
      · intro hEq; exact absurd hEq (by simp)
      · intro h0
        exfalso
        apply h
        intro a
        match a with
        | ⟨0, _⟩ =>
          show 0 ≤ D.start i idx 0 + (D.window i 0 : Int) ∧ D.start i idx 0 + (D.window i 0 : Int) < (N : Int)
          rw [hstart0, hwin0, h0]
          have := n.isLt
          omega
  show Ideal.hostScatterAdd D x idx upd (ix1 n) = _
  unfold Ideal.hostScatterAdd
  congr 1
  refine Finset.sum_bij' (fun i _ => i 0) (fun e _ => ix1 e) ?_ ?_ ?_ ?_ ?_
  · intro i hi
    exact Finset.mem_filter.2 ⟨Finset.mem_univ _, (key i).1 (Finset.mem_filter.1 hi).2⟩
  · intro e he
    exact Finset.mem_filter.2 ⟨Finset.mem_univ _, (key _).2 (Finset.mem_filter.1 he).2⟩
  · intro i _
    exact (eq_ix1 i).symm
  · intro e _
    rfl
  · intro i _
    exact congrArg upd (eq_ix1 i)

/-- The f32 word 0x3F800000 is the real number one. -/
theorem ofBits_one_f32 : Ideal.ofBits .f32 0x3F800000#32 = (1 : EReal) :=
  Idealize.ShloMosaic.Ideal.ofBits_one_f32

end Cert.LibRows

end
-- ==== Proof.KernelHost0.lean ====
/-
  The host operations of the kernel program, read entry by entry.

  Before the first region: the edge list's source and target words (the given ones, then every node's own number
  for its self-loop), the normalisation column (the inverse square root of the larger of a node's in-degree and
  one), and the biases and the batch words viewed as a row and a column. Between the second and the third region:
  the pre-scaled rows gathered at the edges' sources and added into the edges' targets. After the last region:
  the per-graph sums beside the count times the root rows, divided by the larger of the count and one.

  Every statement is about an arbitrary valuation of the buffers at the start of its stretch.
-/
import proofs.«405491_j5480378270219_3_alg».proof.Proof.Gen.KernelIdeal.Frame
import proofs.«405491_j5480378270219_3_alg».proof.Proof.Spec
import proofs.«405491_j5480378270219_3_alg».proof.Proof.LibColumn
import proofs.«405491_j5480378270219_3_alg».proof.Proof.LibRows
import Idealize.ShloMosaic.Lib.Pipeline.Value
import Idealize.ShloMosaic.Lib.ValueIdx
import Idealize.ShloMosaic.Lib.IdealHost
import Idealize.ShloMosaic.PureOps.Ideal.Laws
import Idealize.ShloMosaic.Lib.StableHlo.Run

set_option maxRecDepth 16384

noncomputable section

namespace Cert.KernelIdeal.Val

open Cert.KernelIdeal Cert.KernelIdeal.Gen Idealize.ShloMosaic Idealize.ShloMosaic.ValueIdx Idealize.ShloMosaic.TcCoe
open scoped BigOperators

/-! ## The host operations before the first region

  The edge list's two rows, each followed by the nodes' own numbers; the in-degree by adding a one into each
  edge's target; the normalisation column; the biases as rows and the batch words as a column. -/

section Host0

/-- Row 0 of the edge list as a vector. -/
theorem h0_row0_apply (ei : IVec S2x1638400 32) (k : Fin 1638400) :
    shapeCast S1638400 (extractStridedSlice S1x1638400 ![0, 0] ei slices_S2x1638400_S1x1638400_0_0)
      shapeCasts_S1x1638400_S1638400 (ix1 k) = ei (ix2 (0 : Fin 2) k) := by
  refine (shapeCast_apply _ shapeCasts_S1x1638400_S1638400 (ix1 k) (ix2 (0 : Fin 1) k) ?_).trans ?_
  · rw [Shape.rowMajor_val_two, Shape.rowMajor_val_one]
    show 0 * 1638400 + k.val = k.val
    omega
  · refine extractStridedSlice_apply ![0, 0] ei slices_S2x1638400_S1x1638400_0_0 (ix2 (0 : Fin 1) k)
      (ix2 (0 : Fin 2) k) (fun a => ?_)
    match a with
    | ⟨0, _⟩ => rfl
    | ⟨1, _⟩ =>
      show k.val = 0 + k.val
      omega

/-- Row 1 of the edge list as a vector. -/
theorem h0_row1_apply (ei : IVec S2x1638400 32) (k : Fin 1638400) :
    shapeCast S1638400 (extractStridedSlice S1x1638400 ![1, 0] ei slices_S2x1638400_S1x1638400_1_0)
      shapeCasts_S1x1638400_S1638400 (ix1 k) = ei (ix2 (1 : Fin 2) k) := by
  refine (shapeCast_apply _ shapeCasts_S1x1638400_S1638400 (ix1 k) (ix2 (0 : Fin 1) k) ?_).trans ?_
  · rw [Shape.rowMajor_val_two, Shape.rowMajor_val_one]
    show 0 * 1638400 + k.val = k.val
    omega
  · refine extractStridedSlice_apply ![1, 0] ei slices_S2x1638400_S1x1638400_1_0 (ix2 (0 : Fin 1) k)
      (ix2 (1 : Fin 2) k) (fun a => ?_)
    match a with
    | ⟨0, _⟩ => rfl
    | ⟨1, _⟩ =>
      show k.val = 0 + k.val
      omega

/-- A vector of the given edges followed by the nodes' numbers: the given word, or the node's number. -/
theorem h0_cat_apply (v : IVec S1638400 32) (e : Fin 1740800) :
    concatenate S1740800 0 [⟨S1638400, v⟩, ⟨S102400, iotaInDim S102400 32 0⟩]
        concatenates_S1638400_S102400_S1740800_d0 (ix1 e)
      = if h : e.val < 1638400 then v (ix1 (⟨e.val, h⟩ : Fin 1638400)) else BitVec.ofNat 32 (e.val - 1638400) := by
  by_cases h : e.val < 1638400
  · rw [dif_pos h]
    refine concatenate_pair_apply_left (0 : Fin 1) v (iotaInDim S102400 32 0)
      concatenates_S1638400_S102400_S1740800_d0 (ix1 e) rfl (ix1 (⟨e.val, h⟩ : Fin 1638400)) (fun b => ?_)
    match b with
    | ⟨0, _⟩ => rfl
  · rw [dif_neg h]
    refine (concatenate_pair_apply_right (0 : Fin 1) v (iotaInDim S102400 32 0)
      concatenates_S1638400_S102400_S1740800_d0 (ix1 e) rfl rfl
      (ix1 (⟨e.val - 1638400, by omega⟩ : Fin 102400)) (fun b hb => ?_) ?_).trans ?_
    · match b with
      | ⟨0, _⟩ => exact absurd rfl hb
    · show e.val - 1638400 + 1638400 = e.val
      omega
    · rfl

/-- The source words, as the host operations build them. -/
def h0_catS (ei : IVec S2x1638400 32) : IVec S1740800 32 :=
  concatenate S1740800 0
    [⟨S1638400, shapeCast S1638400 (extractStridedSlice S1x1638400 ![0, 0] ei slices_S2x1638400_S1x1638400_0_0)
        shapeCasts_S1x1638400_S1638400⟩,
      ⟨S102400, iotaInDim S102400 32 0⟩]
    concatenates_S1638400_S102400_S1740800_d0

/-- The target words, as the host operations build them. -/
def h0_catD (ei : IVec S2x1638400 32) : IVec S1740800 32 :=
  concatenate S1740800 0
    [⟨S1638400, shapeCast S1638400 (extractStridedSlice S1x1638400 ![1, 0] ei slices_S2x1638400_S1x1638400_1_0)
        shapeCasts_S1x1638400_S1638400⟩,
      ⟨S102400, iotaInDim S102400 32 0⟩]
    concatenates_S1638400_S102400_S1740800_d0

theorem h0_catS_apply (ei : IVec S2x1638400 32) (e : Fin 1740800) : h0_catS ei (ix1 e) = Cert.Spec.srcOf ei e := by
  unfold h0_catS Cert.Spec.srcOf
  rw [h0_cat_apply]
  by_cases h : e.val < 1638400
  · rw [dif_pos h, dif_pos h, h0_row0_apply]
  · rw [dif_neg h, dif_neg h]

theorem h0_catD_apply (ei : IVec S2x1638400 32) (e : Fin 1740800) : h0_catD ei (ix1 e) = Cert.Spec.dstOf ei e := by
  unfold h0_catD Cert.Spec.dstOf
  rw [h0_cat_apply]
  by_cases h : e.val < 1638400
  · rw [dif_pos h, dif_pos h, h0_row1_apply]
  · rw [dif_neg h, dif_neg h]

/-- A scalar constant repeated over a shape reads the constant's value everywhere. -/
theorem h0_splat_apply {T : Shape} (dims : Fin S_.rank → Fin T.rank) (h : S_.BroadcastsInDim T dims) (b : BitVec 32)
    (i : T.Idx) : broadcastInDim T dims h (constant (F := Ideal) S_ .f32 b) i = Ideal.ofBits .f32 b :=
  broadcastInDim_apply dims h (constant (F := Ideal) S_ .f32 b) i ix0 (fun a => a.elim0)

/-- The edge words as a column. -/
theorem h0_col_apply (d : IVec S1740800 32) (e : Fin 1740800) (u : Fin 1) :
    broadcastInDim S1740800x1 ![0] bcast_S1740800_S1740800x1_0 d (ix2 e u) = d (ix1 e) := by
  refine broadcastInDim_apply _ bcast_S1740800_S1740800x1_0 d (ix2 e u) (ix1 e) (fun a => ?_)
  match a with
  | ⟨0, _⟩ =>
    show e.val = if (1740800 : ℕ) = 1 then 0 else e.val
    rw [if_neg (by decide)]

/-- The normalisation column, as the host operations build it from the target words. -/
def h0_dinvCol (d : IVec S1740800 32) : FVec Ideal S102400x1 .f32 :=
  shapeCast S102400x1
    (Host.rsqrt (F := Ideal)
      (maximumf
        (Host.scatterAdd (F := Ideal) scatter_S102400_S1740800x1_S1740800_n_0_0_1
          (broadcastInDim S102400 ![] bcast_S_S102400 (constant (F := Ideal) S_ .f32 0x00000000#32))
          (broadcastInDim S1740800x1 ![0] bcast_S1740800_S1740800x1_0 d)
          (broadcastInDim S1740800 ![] bcast_S_S1740800 (constant (F := Ideal) S_ .f32 0x3F800000#32)))
        (broadcastInDim S102400 ![] bcast_S_S102400 (constant (F := Ideal) S_ .f32 0x3F800000#32))))
    shapeCasts_S102400_S102400x1

/-- The in-degree: a one added at every edge whose target word lands on the node. -/
theorem h0_deg_apply (d : IVec S1740800 32) (n : Fin 102400) :
    Host.scatterAdd (F := Ideal) scatter_S102400_S1740800x1_S1740800_n_0_0_1
        (broadcastInDim S102400 ![] bcast_S_S102400 (constant (F := Ideal) S_ .f32 0x00000000#32))
        (broadcastInDim S1740800x1 ![0] bcast_S1740800_S1740800x1_0 d)
        (broadcastInDim S1740800 ![] bcast_S_S1740800 (constant (F := Ideal) S_ .f32 0x3F800000#32)) (ix1 n)
      = Cert.Spec.deg (fun e => d (ix1 e)) n := by
  rw [Cert.LibRows.scatterAdd_take_apply scatter_S102400_S1740800x1_S1740800_n_0_0_1 rfl rfl rfl rfl]
  unfold Cert.Spec.deg
  rw [h0_splat_apply, Ideal.ofBits_zero_f32]
  refine congrArg (fun t => (0 : EReal) + t) ?_
  refine Finset.sum_congr (Finset.filter_congr (fun e _ => ?_)) (fun e _ => ?_)
  · rw [h0_col_apply]
    rfl
  · rw [h0_splat_apply]
    exact Ideal.ofBits_one_f32

/-- The inverse square root of a vector at an entry. -/
theorem h0_rsqrt_apply (a : FVec Ideal S102400 .f32) (i : S102400.Idx) :
    Host.rsqrt (F := Ideal) a i = Ideal.rsqrt (a i) := rfl

theorem h0_dinvCol_apply (d : IVec S1740800 32) (n : Fin 102400) :
    h0_dinvCol d (ix2 n (0 : Fin 1)) = Cert.Spec.dinv (fun e => d (ix1 e)) n := by
  unfold h0_dinvCol
  rw [Cert.LibColumn.shapeCast_a_a1_apply, h0_rsqrt_apply, maximumf_apply, h0_deg_apply, h0_splat_apply,
    Ideal.ofBits_one_f32]
  rfl

variable (W : Valuation τ sig (Elt Ideal))

/-- The edge list. -/
abbrev h0_ei : IVec S2x1638400 32 := W (Proc.devRef .tc main_arg1)
/-- The batch words. -/
abbrev h0_arg2 : IVec S102400 32 := W (Proc.devRef .tc main_arg2)
/-- The first bias. -/
abbrev h0_arg5 : FVec Ideal S64 .f32 := W (Proc.devRef .tc main_arg5)
/-- The second bias. -/
abbrev h0_arg7 : FVec Ideal S64 .f32 := W (Proc.devRef .tc main_arg7)
/-- The source words after the stretch. -/
abbrev h0_s : IVec S1740800 32 := StableHlo.after hostOps0 W (Proc.devRef .tc main_v5)
/-- The target words after the stretch. -/
abbrev h0_d : IVec S1740800 32 := StableHlo.after hostOps0 W (Proc.devRef .tc main_v6)
/-- The normalisation column after the stretch. -/
abbrev h0_dv : FVec Ideal S102400x1 .f32 := StableHlo.after hostOps0 W (Proc.devRef .tc main_v14)
/-- The first bias as a row. -/
abbrev h0_b1 : FVec Ideal S1x64 .f32 := StableHlo.after hostOps0 W (Proc.devRef .tc main_v15)
/-- The second bias as a row. -/
abbrev h0_b2 : FVec Ideal S1x64 .f32 := StableHlo.after hostOps0 W (Proc.devRef .tc main_v16)
/-- The batch words as a column. -/
abbrev h0_bt : IVec S102400x1 32 := StableHlo.after hostOps0 W (Proc.devRef .tc main_v17)

theorem h0_s_eq : h0_s W = h0_catS (h0_ei W) := by
  show StableHlo.after hostOps0 W (Proc.devRef .tc main_v5) = _
  simp only [hostOps0]
  after_results
  rfl

theorem h0_d_eq : h0_d W = h0_catD (h0_ei W) := by
  show StableHlo.after hostOps0 W (Proc.devRef .tc main_v6) = _
  simp only [hostOps0]
  after_results
  rfl

theorem h0_dv_eq : h0_dv W = h0_dinvCol (h0_catD (h0_ei W)) := by
  show StableHlo.after hostOps0 W (Proc.devRef .tc main_v14) = _
  simp only [hostOps0]
  after_results
  rfl

/-- The source word of edge e. -/
theorem host0_src (e : Fin 1740800) : h0_s W (ix1 e) = Cert.Spec.srcOf (h0_ei W) e := by
  rw [h0_s_eq, h0_catS_apply]

/-- The target word of edge e. -/
theorem host0_dst (e : Fin 1740800) : h0_d W (ix1 e) = Cert.Spec.dstOf (h0_ei W) e := by
  rw [h0_d_eq, h0_catD_apply]

/-- The normalisation column at node n. -/
theorem host0_dinv (n : Fin 102400) :
    h0_dv W (ix2 n (0 : Fin 1)) = Cert.Spec.dinv (Cert.Spec.dstOf (h0_ei W)) n := by
  rw [h0_dv_eq, h0_dinvCol_apply]
  refine congrArg (fun d => Cert.Spec.dinv d n) ?_
  funext e
  exact h0_catD_apply (h0_ei W) e

end Host0

section Host0Views

/-- A length-64 vector viewed as a 1 x 64 row reads, at (u, j), the vector at j. -/
theorem h0_rowvec_apply (x : FVec Ideal S64 .f32) (u : Fin 1) (j : Fin 64) :
    shapeCast S1x64 x shapeCasts_S64_S1x64 (ix2 u j) = x (ix1 j) := by
  refine shapeCast_apply x shapeCasts_S64_S1x64 (ix2 u j) (ix1 j) ?_
  rw [Shape.rowMajor_val_two, Shape.rowMajor_val_one]
  have hu : u.val = 0 := by omega
  show j.val = u.val * 64 + j.val
  omega

variable (W : Valuation τ sig (Elt Ideal))

theorem h0_b1_eq : h0_b1 W = shapeCast S1x64 (h0_arg5 W) shapeCasts_S64_S1x64 := by
  show StableHlo.after hostOps0 W (Proc.devRef .tc main_v15) = _
  simp only [hostOps0]
  after_results
  rfl

theorem h0_b2_eq : h0_b2 W = shapeCast S1x64 (h0_arg7 W) shapeCasts_S64_S1x64 := by
  show StableHlo.after hostOps0 W (Proc.devRef .tc main_v16) = _
  simp only [hostOps0]
  after_results
  rfl

theorem h0_bt_eq : h0_bt W = shapeCast S102400x1 (h0_arg2 W) shapeCasts_S102400_S102400x1 := by
  show StableHlo.after hostOps0 W (Proc.devRef .tc main_v17) = _
  simp only [hostOps0]
  after_results
  rfl

/-- The first bias as a row. -/
theorem host0_b1 (j : Fin 64) : h0_b1 W (ix2 (0 : Fin 1) j) = h0_arg5 W (ix1 j) := by
  rw [h0_b1_eq, h0_rowvec_apply]

/-- The second bias as a row. -/
theorem host0_b2 (j : Fin 64) : h0_b2 W (ix2 (0 : Fin 1) j) = h0_arg7 W (ix1 j) := by
  rw [h0_b2_eq, h0_rowvec_apply]

/-- The batch words as a column. -/
theorem host0_bt (n : Fin 102400) : h0_bt W (ix2 n (0 : Fin 1)) = h0_arg2 W (ix1 n) := by
  rw [h0_bt_eq, Cert.LibColumn.shapeCast_a_a1_apply]

end Host0Views

/-! ## The host operations between the second and the third region: the second aggregation

  Each edge reads the row of the pre-scaled table at its source position (a negative position counts from
  the end, and the position is clamped into the table) and adds it into the row its target word lands on. -/

section Host2

/-- The compare-add-select on a position word is numpy's negative indexing. -/
theorem h2_wrap_select (len v : BitVec 32) :
    Scalar.select (IntOp.cmpi .slt v 0#32) (IntOp.addi v len) v = Cert.Spec.wrapPos len v := by
  unfold Scalar.select IntOp.cmpi IntOp.addi Cert.Spec.wrapPos
  cases hb : v.slt 0#32 <;> simp [hb]

/-- An integer constant repeated over the edges reads the constant everywhere. -/
theorem h2_splatI_apply (b : BitVec 32) (i : S1740800.Idx) :
    broadcastInDim S1740800 ![] bcast_S_S1740800 (constantI S_ 32 b) i = b :=
  broadcastInDim_apply _ bcast_S_S1740800 (constantI S_ 32 b) i ix0 (fun a => a.elim0)

theorem h2_cmpi_apply (a b : IVec S1740800 32) (i : S1740800.Idx) :
    cmpi .slt a b i = IntOp.cmpi .slt (a i) (b i) := rfl

theorem h2_addi_apply (a b : IVec S1740800 32) (i : S1740800.Idx) : addi a b i = IntOp.addi (a i) (b i) := rfl

/-- The source positions, wrapped, as a column. -/
def h2_pos (s : IVec S1740800 32) : IVec S1740800x1 32 :=
  broadcastInDim S1740800x1 ![0] bcast_S1740800_S1740800x1_0
    (select (cmpi .slt s (broadcastInDim S1740800 ![] bcast_S_S1740800 (constantI S_ 32 0#32)))
      (addi s (broadcastInDim S1740800 ![] bcast_S_S1740800 (constantI S_ 32 102400#32))) s)

theorem h2_pos_apply (s : IVec S1740800 32) (e : Fin 1740800) (u : Fin 1) :
    h2_pos s (ix2 e u) = Cert.Spec.wrapPos (BitVec.ofNat 32 102400) (s (ix1 e)) := by
  unfold h2_pos
  rw [h0_col_apply, select_apply, h2_cmpi_apply, h2_addi_apply, h2_splatI_apply, h2_splatI_apply, h2_wrap_select]

/-- The aggregation, as the host operations build it from the table and the edge words. -/
def h2_aggv (hs : FVec Ideal S102400x64 .f32) (s d : IVec S1740800 32) : FVec Ideal S102400x64 .f32 :=
  Host.scatterAdd (F := Ideal) scatter_S102400x64_S1740800x1_S1740800x64_1_0_0_1
    (broadcastInDim S102400x64 ![] bcast_S_S102400x64 (constant (F := Ideal) S_ .f32 0x00000000#32))
    (broadcastInDim S1740800x1 ![0] bcast_S1740800_S1740800x1_0 d)
    (Host.gather gather_S102400x64_S1740800x1_S1740800x64_1_0_n_n_0_1_164 hs (h2_pos s))

theorem h2_aggv_apply (hs : FVec Ideal S102400x64 .f32) (s d : IVec S1740800 32) (n : Fin 102400) (j : Fin 64) :
    h2_aggv hs s d (ix2 n j)
      = 0 + ∑ e ∈ Finset.univ.filter (fun e : Fin 1740800 => Cert.Spec.Lands (d (ix1 e)) n),
          hs (ix2 (Cert.Spec.rowOf 102400 (by decide) (s (ix1 e))) j) := by
  unfold h2_aggv
  rw [Cert.LibRows.scatterAdd_rows_apply scatter_S102400x64_S1740800x1_S1740800x64_1_0_0_1 rfl rfl rfl rfl,
    h0_splat_apply, Ideal.ofBits_zero_f32]
  refine congrArg (fun t => (0 : EReal) + t) ?_
  refine Finset.sum_congr (Finset.filter_congr (fun e _ => ?_)) (fun e _ => ?_)
  · rw [h0_col_apply]
    rfl
  · rw [Cert.LibRows.gather_rows_apply gather_S102400x64_S1740800x1_S1740800x64_1_0_n_n_0_1_164 rfl rfl rfl rfl rfl rfl
      hs (h2_pos s) e j (by decide)]
    refine congrArg (fun r => hs (ix2 r j)) (Fin.ext ?_)
    show min (h2_pos s (ix2 e (0 : Fin 1))).toInt.toNat (102400 - 1) = _
    rw [h2_pos_apply]
    rfl

variable (W : Valuation τ sig (Elt Ideal))

/-- The pre-scaled table the second region leaves. -/
abbrev h2_hs : FVec Ideal S102400x64 .f32 := W (Proc.devRef .tc main_v59)
/-- The source words. -/
abbrev h2_s : IVec S1740800 32 := W (Proc.devRef .tc main_v5)
/-- The target words. -/
abbrev h2_d : IVec S1740800 32 := W (Proc.devRef .tc main_v6)
/-- The second aggregation after the stretch. -/
abbrev h2_agg : FVec Ideal S102400x64 .f32 := StableHlo.after hostOps2 W (Proc.devRef .tc main_v69)

theorem h2_agg_eq : h2_agg W = h2_aggv (h2_hs W) (h2_s W) (h2_d W) := by
  show StableHlo.after hostOps2 W (Proc.devRef .tc main_v69) = _
  simp only [hostOps2]
  after_results_simp
  rfl

/-- The second aggregation at (n, j): the rows read at the sources of the edges that land on n, summed from zero. -/
theorem host2_agg (n : Fin 102400) (j : Fin 64) :
    h2_agg W (ix2 n j)
      = 0 + ∑ e ∈ Finset.univ.filter (fun e : Fin 1740800 => Cert.Spec.Lands (h2_d W (ix1 e)) n),
          h2_hs W (ix2 (Cert.Spec.rowOf 102400 (by decide) (h2_s W (ix1 e))) j) := by
  rw [h2_agg_eq, h2_aggv_apply]

end Host2

/-! ## The host operations after the last region: the means

  The result is the quotient, entry by entry, of the 128 x 128 table whose first 64 columns are the
  per-graph sums and whose last 64 columns are the count (transposed to a column and repeated) times
  the root rows, by the larger of the count and one. -/

section Host3

/-- A 1 x 128 row transposed to a 128 x 1 column reads, at (g, u), the row at (0, g). -/
theorem h3_transpose_apply (C : FVec Ideal S1x128 .f32) (g : Fin 128) (u : Fin 1) :
    transpose S128x1 [1, 0] C transposes_S1x128_S128x1_1_0 (ix2 g u) = C (ix2 (0 : Fin 1) g) := by
  refine transpose_apply [1, 0] C transposes_S1x128_S128x1_1_0 (ix2 g u) (ix2 (0 : Fin 1) g) (fun b => ?_)
  match b with
  | ⟨0, _⟩ => rfl
  | ⟨1, _⟩ =>
    show (0 : ℕ) = u.val
    omega

/-- A 128 x 1 column repeated across 64 columns reads, at (g, j), the column at (g, 0). -/
theorem h3_bcast64_apply (T : FVec Ideal S128x1 .f32) (g : Fin 128) (j : Fin 64) :
    broadcastInDim S128x64 ![0, 1] bcast_S128x1_S128x64_0_1 T (ix2 g j) = T (ix2 g (0 : Fin 1)) := by
  refine broadcastInDim_apply _ bcast_S128x1_S128x64_0_1 T (ix2 g j) (ix2 g (0 : Fin 1)) (fun a => ?_)
  match a with
  | ⟨0, _⟩ =>
    show g.val = if (128 : ℕ) = 1 then 0 else g.val
    rw [if_neg (by decide)]
  | ⟨1, _⟩ =>
    show (0 : ℕ) = if (1 : ℕ) = 1 then 0 else j.val
    rw [if_pos rfl]

/-- A 128 x 1 column repeated across 128 columns reads, at (g, c), the column at (g, 0). -/
theorem h3_bcast128_apply (T : FVec Ideal S128x1 .f32) (g c : Fin 128) :
    broadcastInDim S128x128 ![0, 1] bcast_S128x1_S128x128_0_1 T (ix2 g c) = T (ix2 g (0 : Fin 1)) := by
  refine broadcastInDim_apply _ bcast_S128x1_S128x128_0_1 T (ix2 g c) (ix2 g (0 : Fin 1)) (fun a => ?_)
  match a with
  | ⟨0, _⟩ =>
    show g.val = if (128 : ℕ) = 1 then 0 else g.val
    rw [if_neg (by decide)]
  | ⟨1, _⟩ =>
    show (0 : ℕ) = if (1 : ℕ) = 1 then 0 else c.val
    rw [if_pos rfl]

/-- The column of ones. -/
theorem h3_ones_apply (i : S128x1.Idx) :
    broadcastInDim S128x1 ![] bcast_S_S128x1 (constant (F := Ideal) S_ .f32 0x3F800000#32) i = (1 : EReal) := by
  refine (broadcastInDim_apply _ bcast_S_S128x1 (constant (F := Ideal) S_ .f32 0x3F800000#32) i ix0 (fun a => a.elim0)).trans ?_
  rw [constant_apply]
  exact Ideal.ofBits_one_f32

/-- Two 128 x 64 tables side by side: the first 64 columns are the left table's. -/
theorem h3_cat_left (A B : FVec Ideal S128x64 .f32) (g c : Fin 128) (h : c.val < 64) :
    concatenate S128x128 1 [⟨S128x64, A⟩, ⟨S128x64, B⟩] concatenates_S128x64_S128x64_S128x128_d1 (ix2 g c)
      = A (ix2 g (⟨c.val, h⟩ : Fin 64)) := by
  refine concatenate_pair_apply_left (1 : Fin 2) A B concatenates_S128x64_S128x64_S128x128_d1 (ix2 g c) rfl
    (ix2 g (⟨c.val, h⟩ : Fin 64)) (fun b => ?_)
  match b with
  | ⟨0, _⟩ => rfl
  | ⟨1, _⟩ => rfl

/-- Two 128 x 64 tables side by side: the last 64 columns are the right table's. -/
theorem h3_cat_right (A B : FVec Ideal S128x64 .f32) (g c : Fin 128) (h : ¬ c.val < 64) (hc : c.val - 64 < 64) :
    concatenate S128x128 1 [⟨S128x64, A⟩, ⟨S128x64, B⟩] concatenates_S128x64_S128x64_S128x128_d1 (ix2 g c)
      = B (ix2 g (⟨c.val - 64, hc⟩ : Fin 64)) := by
  refine concatenate_pair_apply_right (1 : Fin 2) A B concatenates_S128x64_S128x64_S128x128_d1 (ix2 g c) rfl rfl
    (ix2 g (⟨c.val - 64, hc⟩ : Fin 64)) (fun b hb => ?_) ?_
  · match b with
    | ⟨0, _⟩ => rfl
    | ⟨1, _⟩ => exact absurd rfl hb
  · show c.val - 64 + 64 = c.val
    omega

/-- A quotient of two tables at an entry is the quotient of the entries. -/
theorem h3_divf_apply (A B : FVec Ideal S128x128 .f32) (i : S128x128.Idx) :
    Host.divf (F := Ideal) A B i = Ideal.div (A i) (B i) := rfl

variable (W : Valuation τ sig (Elt Ideal))

/-- The per-graph sums the last region leaves. -/
abbrev h3_S : FVec Ideal S128x64 .f32 := W (Proc.devRef .tc main_v70_0)
/-- The per-graph counts the last region leaves, a row. -/
abbrev h3_C : FVec Ideal S1x128 .f32 := W (Proc.devRef .tc main_v70_1)
/-- The root rows. -/
abbrev h3_R : FVec Ideal S128x64 .f32 := W (Proc.devRef .tc main_v47)
/-- The result. -/
abbrev h3_out : FVec Ideal S128x128 .f32 := StableHlo.after hostOps3 W (Proc.devRef .tc main_v78)

/-- The result at (g, c): the sum (first 64 columns) or the count times the root row (last 64), over the
    larger of the count and one. -/
theorem host3_out (g c : Fin 128) :
    h3_out W (ix2 g c)
      = Ideal.div
          (if h : c.val < 64 then h3_S W (ix2 g (⟨c.val, h⟩ : Fin 64))
           else h3_C W (ix2 (0 : Fin 1) g) * h3_R W (ix2 g (⟨c.val - 64, by omega⟩ : Fin 64)))
          (max (h3_C W (ix2 (0 : Fin 1) g)) 1) := by
  show StableHlo.after hostOps3 W (Proc.devRef .tc main_v78) (ix2 g c) = _
  simp only [hostOps3]
  after_results
  refine (h3_divf_apply _ _ _).trans ?_
  refine congrArg₂ Ideal.div ?_ ?_
  · by_cases h : c.val < 64
    · rw [dif_pos h]
      exact h3_cat_left _ _ g c h
    · rw [dif_neg h]
      refine (h3_cat_right _ _ g c h (by omega)).trans ?_
      rw [mulf_apply, h3_bcast64_apply, h3_transpose_apply]
  · rw [h3_bcast128_apply, maximumf_apply, h3_transpose_apply, h3_ones_apply]

end Host3

end Cert.KernelIdeal.Val

end
-- ==== Proof.KernelHost1.lean ====
/-
  The host operations between the first and the second kernel, read at an index.

  After the first kernel has left its rows hs, three stretches of host operations run: they gather hs at the edges'
  source positions and add the gathered rows into the edges' target rows (the first aggregation); they read that
  aggregation, the normalisation column and the node features at each graph's root position; they cut the second layer's
  weights into its first 64 and last 768 rows, rectify the root features and multiply them through the last 768 rows
  (the per-graph table). A position used to READ a table is a 32-bit word taken the numpy way (a negative one counts
  from the end) and clamped into the table; a position used to ADD INTO a table lands on row r exactly when it is r as a
  signed integer. Every statement is generic in the buffer contents the stretches start from.
-/
import proofs.«405491_j5480378270219_3_alg».proof.Proof.Gen.KernelIdeal.Frame
import proofs.«405491_j5480378270219_3_alg».proof.Proof.Spec
import proofs.«405491_j5480378270219_3_alg».proof.Proof.LibRows
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.Val

open Cert.KernelIdeal Cert.KernelIdeal.Gen Idealize.ShloMosaic Idealize.ShloMosaic.ValueIdx Idealize.ShloMosaic.TcCoe
open scoped BigOperators

/-! ## Words: numpy's negative position, a column of positions -/

/-- Choosing v + len where v is negative and v elsewhere is the wrapped position. -/
theorem h1_select_wrap (len v : BitVec 32) :
    Scalar.select (IntOp.cmpi .slt v 0#32) (IntOp.addi v len) v = Cert.Spec.wrapPos len v := by
  unfold Scalar.select IntOp.cmpi IntOp.addi Cert.Spec.wrapPos
  cases h : v.slt 0#32 <;> simp [h]

/-- The array form of the same choice, read at an index. -/
theorem h1_wrap_apply {S : Shape} (v : IVec S 32) (len : BitVec 32) (h0 h1 : S_.BroadcastsInDim S ![]) (i : S.Idx) :
    select (cmpi .slt v (broadcastInDim S ![] h0 (constantI S_ 32 0#32)))
      (addi v (broadcastInDim S ![] h1 (constantI S_ 32 len))) v i
      = Cert.Spec.wrapPos len (v i) := by
  have e0 : broadcastInDim S ![] h0 (constantI S_ 32 0#32) i = 0#32 :=
    broadcastInDim_apply _ h0 _ i (fun a => a.elim0) (fun a => a.elim0)
  have e1 : broadcastInDim S ![] h1 (constantI S_ 32 len) i = len :=
    broadcastInDim_apply _ h1 _ i (fun a => a.elim0) (fun a => a.elim0)
  show Scalar.select (IntOp.cmpi .slt (v i) (broadcastInDim S ![] h0 (constantI S_ 32 0#32) i))
      (IntOp.addi (v i) (broadcastInDim S ![] h1 (constantI S_ 32 len) i)) (v i) = _
  rw [e0, e1]
  exact h1_select_wrap _ _

/-- A length-n array laid out as an n x 1 column reads, at (e, 0), the array at e. -/
theorem h1_col_apply {α : Type} {n : Nat} (hn : n ≠ 1)
    (h : (⟨1, ![n]⟩ : Shape).BroadcastsInDim ⟨2, ![n, 1]⟩ ![0]) (y : (⟨1, ![n]⟩ : Shape).Idx → α) (e : Fin n) :
    broadcastInDim ⟨2, ![n, 1]⟩ ![0] h y (ix2 e (0 : Fin 1)) = y (ix1 e) :=
  broadcastInDim_apply _ h y _ (ix1 e) (fun a => match a with
    | ⟨0, _⟩ => by show e.val = if n = 1 then 0 else e.val; rw [if_neg hn])

/-! ## A table read at wrapped positions; updates added into rows -/

/-- table[v] over the rows of a 102400 x C table, printed as a gather at the column of wrapped positions: result row e
    is the table's row (v e wrapped, then clamped). -/
theorem h1_gather_wrap_apply {α : Type} {C M : Nat} (d : GatherDims ⟨2, ![102400, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hsl : d.sliceSizes = ![1, C]) (hM : M ≠ 1)
    (x : (⟨2, ![102400, C]⟩ : Shape).Idx → α) (v : IVec ⟨1, ![M]⟩ 32)
    (h0 h1 : S_.BroadcastsInDim ⟨1, ![M]⟩ ![]) (hc : (⟨1, ![M]⟩ : Shape).BroadcastsInDim ⟨2, ![M, 1]⟩ ![0])
    (e : Fin M) (j : Fin C) :
    Host.gather d x (broadcastInDim ⟨2, ![M, 1]⟩ ![0] hc
        (select (cmpi .slt v (broadcastInDim ⟨1, ![M]⟩ ![] h0 (constantI S_ 32 0#32)))
          (addi v (broadcastInDim ⟨1, ![M]⟩ ![] h1 (constantI S_ 32 102400#32))) v)) (ix2 e j)
      = x (ix2 (Cert.Spec.rowOf 102400 (by decide) (v (ix1 e))) j) := by
  refine (Cert.LibRows.gather_rows_apply d hoff hcoll hob hsim hivd hsl x _ e j (by decide)).trans ?_
  refine congrArg x (congrArg (fun r => ix2 r j) (Fin.ext ?_))
  show min (broadcastInDim ⟨2, ![M, 1]⟩ ![0] hc
        (select (cmpi .slt v (broadcastInDim ⟨1, ![M]⟩ ![] h0 (constantI S_ 32 0#32)))
          (addi v (broadcastInDim ⟨1, ![M]⟩ ![] h1 (constantI S_ 32 102400#32))) v) (ix2 e (0 : Fin 1))).toInt.toNat (102400 - 1)
      = min (Cert.Spec.wrapPos (BitVec.ofNat 32 102400) (v (ix1 e))).toInt.toNat (102400 - 1)
  rw [h1_col_apply hM, h1_wrap_apply]

/-- Updates added into the rows of a zero N x C array at a column of positions: entry (n, j) is zero plus the updates'
    entries (e, j) over the rows e whose position lands on n. -/
theorem h1_scatter_apply {N C M : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1) (hM : M ≠ 1)
    (hz : S_.BroadcastsInDim ⟨2, ![N, C]⟩ ![]) (hc : (⟨1, ![M]⟩ : Shape).BroadcastsInDim ⟨2, ![M, 1]⟩ ![0])
    (dw : IVec ⟨1, ![M]⟩ 32) (upd : FVec Ideal ⟨2, ![M, C]⟩ .f32) (n : Fin N) (j : Fin C) :
    Host.scatterAdd (F := Ideal) d (broadcastInDim ⟨2, ![N, C]⟩ ![] hz (constant (F := Ideal) S_ .f32 0x00000000#32))
        (broadcastInDim ⟨2, ![M, 1]⟩ ![0] hc dw) upd (ix2 n j)
      = 0 + ∑ e ∈ Finset.univ.filter (fun e : Fin M => Cert.Spec.Lands (dw (ix1 e)) n), upd (ix2 e j) := by
  refine (Cert.LibRows.scatterAdd_rows_apply d huw hiw hsd hivd _ _ upd n j).trans ?_
  have ez : broadcastInDim ⟨2, ![N, C]⟩ ![] hz (constant (F := Ideal) S_ .f32 0x00000000#32) (ix2 n j) = (0 : EReal) :=
    (broadcastInDim_apply _ hz _ (ix2 n j) (fun a => a.elim0) (fun a => a.elim0)).trans Ideal.ofBits_zero_f32
  rw [ez]
  congr 1
  refine Finset.sum_congr (Finset.filter_congr fun e _ => ?_) (fun _ _ => rfl)
  rw [h1_col_apply hM]
  rfl

/-! ## The root rows, the per-graph table, the weights' first rows: the printed terms read at an index -/

/-- The root rows: the aggregation's row at each graph's root, scaled by the root's normalisation factor, plus the bias. -/
theorem h1_root_apply (A : FVec Ideal S102400x64 .f32) (dv : FVec Ideal S102400x1 .f32) (rt : IVec S128 32)
    (b1 : FVec Ideal S64 .f32) (g : Fin 128) (k : Fin 64) :
    (addf (mulf (Host.gather gather_S102400x64_S128x1_S128x64_1_0_n_n_0_1_164 A (broadcastInDim S128x1 ![0] bcast_S128_S128x1_0 (select (cmpi .slt rt (broadcastInDim S128 ![] bcast_S_S128 (constantI S_ 32 0#32))) (addi rt (broadcastInDim S128 ![] bcast_S_S128 (constantI S_ 32 102400#32))) rt)))
        (broadcastInDim S128x64 ![0, 1] bcast_S128x1_S128x64_0_1 (Host.gather gather_S102400x1_S128x1_S128x1_1_0_n_n_0_1_11 dv (broadcastInDim S128x1 ![0] bcast_S128_S128x1_0 (select (cmpi .slt rt (broadcastInDim S128 ![] bcast_S_S128 (constantI S_ 32 0#32))) (addi rt (broadcastInDim S128 ![] bcast_S_S128 (constantI S_ 32 102400#32))) rt)))))
      (broadcastInDim S128x64 ![0, 1] bcast_S1x64_S128x64_0_1 (broadcastInDim S1x64 ![1] bcast_S64_S1x64_1 b1))) (ix2 g k)
      = A (ix2 (Cert.Spec.rowOf 102400 (by decide) (rt (ix1 g))) k) * dv (ix2 (Cert.Spec.rowOf 102400 (by decide) (rt (ix1 g))) (0 : Fin 1)) + b1 (ix1 k) := by
  have e1 := h1_gather_wrap_apply gather_S102400x64_S128x1_S128x64_1_0_n_n_0_1_164 rfl rfl rfl rfl rfl rfl (by decide) A rt bcast_S_S128 bcast_S_S128 bcast_S128_S128x1_0 g k
  have e2 := h1_gather_wrap_apply gather_S102400x1_S128x1_S128x1_1_0_n_n_0_1_11 rfl rfl rfl rfl rfl rfl (by decide) dv rt bcast_S_S128 bcast_S_S128 bcast_S128_S128x1_0 g (0 : Fin 1)
  have e3 : ∀ Y : FVec Ideal S128x1 .f32, broadcastInDim S128x64 ![0, 1] bcast_S128x1_S128x64_0_1 Y (ix2 g k) = Y (ix2 g (0 : Fin 1)) := fun Y =>
    broadcastInDim_apply _ bcast_S128x1_S128x64_0_1 Y _ (ix2 g (0 : Fin 1)) (fun a => match a with
      | ⟨0, _⟩ => by show g.val = if (128 : Nat) = 1 then 0 else g.val; rw [if_neg (by decide)]
      | ⟨1, _⟩ => by show 0 = if (1 : Nat) = 1 then 0 else k.val; rw [if_pos rfl])
  have e4 : broadcastInDim S128x64 ![0, 1] bcast_S1x64_S128x64_0_1 (broadcastInDim S1x64 ![1] bcast_S64_S1x64_1 b1) (ix2 g k) = b1 (ix1 k) :=
    (broadcastInDim_apply _ bcast_S1x64_S128x64_0_1 _ _ (ix2 (0 : Fin 1) k) (fun a => match a with
      | ⟨0, _⟩ => by show 0 = if (1 : Nat) = 1 then 0 else g.val; rw [if_pos rfl]
      | ⟨1, _⟩ => by show k.val = if (64 : Nat) = 1 then 0 else k.val; rw [if_neg (by decide)])).trans
    (broadcastInDim_apply _ bcast_S64_S1x64_1 b1 _ (ix1 k) (fun a => match a with
      | ⟨0, _⟩ => by show k.val = if (64 : Nat) = 1 then 0 else k.val; rw [if_neg (by decide)]))
  exact congrArg₂ (· + ·) (congrArg₂ (· * ·) e1 ((e3 _).trans e2)) e4

theorem h1_dot_lhs_0 (i : S128x64.Idx) (q : dot_S128x768_S768x64_S128x64_1_0_0_1_n_n.contr.Idx) : (dot_S128x768_S768x64_S128x64_1_0_0_1_n_n.lhsIdx i q 0).val = (i 0).val := by
  unfold DotDims.lhsIdx
  rw [dif_neg (show ¬(0 : Fin S128x768.rank) ∈ dot_S128x768_S768x64_S128x64_1_0_0_1_n_n.lhsBatch by decide), dif_pos (show (0 : Fin S128x768.rank) ∈ dot_S128x768_S768x64_S128x64_1_0_0_1_n_n.lhsNonContracting by decide)]
  rfl
theorem h1_dot_lhs_1 (i : S128x64.Idx) (q : dot_S128x768_S768x64_S128x64_1_0_0_1_n_n.contr.Idx) : (dot_S128x768_S768x64_S128x64_1_0_0_1_n_n.lhsIdx i q 1).val = (q ⟨0, by decide⟩).val :=
  dot_S128x768_S768x64_S128x64_1_0_0_1_n_n.lhsIdx_val_of_single rfl i q
theorem h1_dot_rhs_0 (i : S128x64.Idx) (q : dot_S128x768_S768x64_S128x64_1_0_0_1_n_n.contr.Idx) : (dot_S128x768_S768x64_S128x64_1_0_0_1_n_n.rhsIdx i q 0).val = (q ⟨0, by decide⟩).val :=
  dot_S128x768_S768x64_S128x64_1_0_0_1_n_n.rhsIdx_val_of_single rfl i q
theorem h1_dot_rhs_1 (i : S128x64.Idx) (q : dot_S128x768_S768x64_S128x64_1_0_0_1_n_n.contr.Idx) : (dot_S128x768_S768x64_S128x64_1_0_0_1_n_n.rhsIdx i q 1).val = (i 1).val := by
  unfold DotDims.rhsIdx
  rw [dif_neg (show ¬(1 : Fin S768x64.rank) ∈ dot_S128x768_S768x64_S128x64_1_0_0_1_n_n.rhsBatch by decide), dif_pos (show (1 : Fin S768x64.rank) ∈ dot_S128x768_S768x64_S128x64_1_0_0_1_n_n.rhsNonContracting by decide)]
  rfl

/-- The per-graph table: each graph's root features, rectified, through the last 768 rows of the second weights. -/
theorem h1_z_apply (x : FVec Ideal S102400x768 .f32) (rt : IVec S128 32) (w2 : FVec Ideal S832x64 .f32) (g : Fin 128) (j : Fin 64) :
    (Host.dotGeneral (F := Ideal) dot_S128x768_S768x64_S128x64_1_0_0_1_n_n none
      (maximumf (Host.gather gather_S102400x768_S128x1_S128x768_1_0_n_n_0_1_1768 x (broadcastInDim S128x1 ![0] bcast_S128_S128x1_0 (select (cmpi .slt rt (broadcastInDim S128 ![] bcast_S_S128 (constantI S_ 32 0#32))) (addi rt (broadcastInDim S128 ![] bcast_S_S128 (constantI S_ 32 102400#32))) rt)))
        (broadcastInDim S128x768 ![] bcast_S_S128x768 (constant (F := Ideal) S_ .f32 0x00000000#32)))
      (extractStridedSlice S768x64 ![64, 0] w2 slices_S832x64_S768x64_64_0)) (ix2 g j)
      = ∑ k : Fin 768, max (x (ix2 (Cert.Spec.rowOf 102400 (by decide) (rt (ix1 g))) k)) 0 * w2 (ix2 (⟨64 + k.val, by omega⟩ : Fin 832) j) := by
  simp only [Host.dotGeneral]
  rw [Ideal.dotGeneral_apply, ← Equiv.sum_comp (ValueIdx.contrEquiv1 dot_S128x768_S768x64_S128x64_1_0_0_1_n_n 768 rfl rfl).symm]
  refine Finset.sum_congr rfl fun k _ => ?_
  have hk := ValueIdx.contrEquiv1_symm_val dot_S128x768_S768x64_S128x64_1_0_0_1_n_n 768 rfl rfl k
  have el : dot_S128x768_S768x64_S128x64_1_0_0_1_n_n.lhsIdx (ix2 g j) ((ValueIdx.contrEquiv1 dot_S128x768_S768x64_S128x64_1_0_0_1_n_n 768 rfl rfl).symm k) = ix2 g k := funext fun a => Fin.ext (by
    match a with
    | ⟨0, _⟩ => exact h1_dot_lhs_0 _ _
    | ⟨1, _⟩ => exact (h1_dot_lhs_1 _ _).trans hk)
  have er : dot_S128x768_S768x64_S128x64_1_0_0_1_n_n.rhsIdx (ix2 g j) ((ValueIdx.contrEquiv1 dot_S128x768_S768x64_S128x64_1_0_0_1_n_n 768 rfl rfl).symm k) = ix2 k j := funext fun a => Fin.ext (by
    match a with
    | ⟨0, _⟩ => exact (h1_dot_rhs_0 _ _).trans hk
    | ⟨1, _⟩ => exact h1_dot_rhs_1 _ _)
  rw [el, er]
  have e1 := h1_gather_wrap_apply gather_S102400x768_S128x1_S128x768_1_0_n_n_0_1_1768 rfl rfl rfl rfl rfl rfl (by decide) x rt bcast_S_S128 bcast_S_S128 bcast_S128_S128x1_0 g k
  have ez : broadcastInDim S128x768 ![] bcast_S_S128x768 (constant (F := Ideal) S_ .f32 0x00000000#32) (ix2 g k) = (0 : EReal) :=
    (broadcastInDim_apply _ bcast_S_S128x768 _ (ix2 g k) (fun a => a.elim0) (fun a => a.elim0)).trans Ideal.ofBits_zero_f32
  have es : extractStridedSlice S768x64 ![64, 0] w2 slices_S832x64_S768x64_64_0 (ix2 k j) = w2 (ix2 (⟨64 + k.val, by omega⟩ : Fin 832) j) :=
    extractStridedSlice_apply ![64, 0] w2 slices_S832x64_S768x64_64_0 (ix2 k j) _ (fun a => match a with
      | ⟨0, _⟩ => by show 64 + k.val = 64 + k.val; rfl
      | ⟨1, _⟩ => by show j.val = 0 + j.val; omega)
  exact congrArg₂ (· * ·) (congrArg₂ max e1 ez) es

/-- The weights' first 64 rows. -/
theorem h1_w2t_apply (w2 : FVec Ideal S832x64 .f32) (k : Fin 64) (j : Fin 64) :
    extractStridedSlice S64x64 ![0, 0] w2 slices_S832x64_S64x64_0_0 (ix2 k j) = w2 (ix2 (⟨k.val, by omega⟩ : Fin 832) j) :=
  extractStridedSlice_apply ![0, 0] w2 slices_S832x64_S64x64_0_0 (ix2 k j) _ (fun a => match a with
    | ⟨0, _⟩ => by show k.val = 0 + k.val; omega
    | ⟨1, _⟩ => by show j.val = 0 + j.val; omega)

/-! ## The buffers between the first and the second kernel -/

section Stretch
variable (W : Valuation τ sig (Elt Ideal))

/-- The first kernel's rows, as the stretch finds them. -/
abbrev h1_hs : FVec Ideal S102400x64 .f32 := W (Proc.devRef .tc main_v18)
/-- The edges' source words. -/
abbrev h1_s : IVec S1740800 32 := W (Proc.devRef .tc main_v5)
/-- The edges' target words. -/
abbrev h1_d : IVec S1740800 32 := W (Proc.devRef .tc main_v6)
/-- The normalisation column. -/
abbrev h1_dv : FVec Ideal S102400x1 .f32 := W (Proc.devRef .tc main_v14)
/-- The graphs' root words. -/
abbrev h1_rt : IVec S128 32 := W (Proc.devRef .tc main_arg3)
/-- The node features. -/
abbrev h1_x : FVec Ideal S102400x768 .f32 := W (Proc.devRef .tc main_arg0)
/-- The first layer's bias. -/
abbrev h1_b1 : FVec Ideal S64 .f32 := W (Proc.devRef .tc main_arg5)
/-- The second layer's weights. -/
abbrev h1_w2 : FVec Ideal S832x64 .f32 := W (Proc.devRef .tc main_arg6)

/-- The buffers after the three stretches. -/
abbrev h1_after : Valuation τ sig (Elt Ideal) :=
  StableHlo.after hostOps1_2 (StableHlo.after hostOps1_1 (StableHlo.after hostOps1 W))

/-- The first aggregation. -/
abbrev h1_agg : FVec Ideal S102400x64 .f32 := h1_after W (Proc.devRef .tc main_v28)
/-- The root rows. -/
abbrev h1_root : FVec Ideal S128x64 .f32 := h1_after W (Proc.devRef .tc main_v47)
/-- The per-graph table. -/
abbrev h1_z : FVec Ideal S128x64 .f32 := h1_after W (Proc.devRef .tc main_v58)
/-- The second layer's weights' first 64 rows. -/
abbrev h1_w2t : FVec Ideal S64x64 .f32 := h1_after W (Proc.devRef .tc main_v55)

theorem h1_agg_eq : h1_agg W
    = Host.scatterAdd (F := Ideal) scatter_S102400x64_S1740800x1_S1740800x64_1_0_0_1
        (broadcastInDim S102400x64 ![] bcast_S_S102400x64 (constant (F := Ideal) S_ .f32 0x00000000#32))
        (broadcastInDim S1740800x1 ![0] bcast_S1740800_S1740800x1_0 (h1_d W))
        (Host.gather gather_S102400x64_S1740800x1_S1740800x64_1_0_n_n_0_1_164 (h1_hs W)
          (broadcastInDim S1740800x1 ![0] bcast_S1740800_S1740800x1_0
            (select (cmpi .slt (h1_s W) (broadcastInDim S1740800 ![] bcast_S_S1740800 (constantI S_ 32 0#32)))
              (addi (h1_s W) (broadcastInDim S1740800 ![] bcast_S_S1740800 (constantI S_ 32 102400#32))) (h1_s W)))) := by
  show StableHlo.after hostOps1_2 (StableHlo.after hostOps1_1 (StableHlo.after hostOps1 W)) (Proc.devRef .tc main_v28) = _
  after_results_simp

theorem h1_root_eq : h1_root W = addf (mulf (Host.gather gather_S102400x64_S128x1_S128x64_1_0_n_n_0_1_164 (h1_agg W) (broadcastInDim S128x1 ![0] bcast_S128_S128x1_0 (select (cmpi .slt (h1_rt W) (broadcastInDim S128 ![] bcast_S_S128 (constantI S_ 32 0#32))) (addi (h1_rt W) (broadcastInDim S128 ![] bcast_S_S128 (constantI S_ 32 102400#32))) (h1_rt W))))
        (broadcastInDim S128x64 ![0, 1] bcast_S128x1_S128x64_0_1 (Host.gather gather_S102400x1_S128x1_S128x1_1_0_n_n_0_1_11 (h1_dv W) (broadcastInDim S128x1 ![0] bcast_S128_S128x1_0 (select (cmpi .slt (h1_rt W) (broadcastInDim S128 ![] bcast_S_S128 (constantI S_ 32 0#32))) (addi (h1_rt W) (broadcastInDim S128 ![] bcast_S_S128 (constantI S_ 32 102400#32))) (h1_rt W))))))
      (broadcastInDim S128x64 ![0, 1] bcast_S1x64_S128x64_0_1 (broadcastInDim S1x64 ![1] bcast_S64_S1x64_1 (h1_b1 W))) := by
  show StableHlo.after hostOps1_2 (StableHlo.after hostOps1_1 (StableHlo.after hostOps1 W)) (Proc.devRef .tc main_v47) = _
  after_results_simp
  rw [h1_agg_eq W]

theorem h1_z_eq : h1_z W = Host.dotGeneral (F := Ideal) dot_S128x768_S768x64_S128x64_1_0_0_1_n_n none
      (maximumf (Host.gather gather_S102400x768_S128x1_S128x768_1_0_n_n_0_1_1768 (h1_x W) (broadcastInDim S128x1 ![0] bcast_S128_S128x1_0 (select (cmpi .slt (h1_rt W) (broadcastInDim S128 ![] bcast_S_S128 (constantI S_ 32 0#32))) (addi (h1_rt W) (broadcastInDim S128 ![] bcast_S_S128 (constantI S_ 32 102400#32))) (h1_rt W))))
        (broadcastInDim S128x768 ![] bcast_S_S128x768 (constant (F := Ideal) S_ .f32 0x00000000#32)))
      (extractStridedSlice S768x64 ![64, 0] (h1_w2 W) slices_S832x64_S768x64_64_0) := by
  show StableHlo.after hostOps1_2 (StableHlo.after hostOps1_1 (StableHlo.after hostOps1 W)) (Proc.devRef .tc main_v58) = _
  after_results_simp
  simp only [StableHlo.TRef.ofBuf, StableHlo.TRef.toBuf, cast_eq]

theorem h1_w2t_eq : h1_w2t W = extractStridedSlice S64x64 ![0, 0] (h1_w2 W) slices_S832x64_S64x64_0_0 := by
  show StableHlo.after hostOps1_2 (StableHlo.after hostOps1_1 (StableHlo.after hostOps1 W)) (Proc.devRef .tc main_v55) = _
  after_results_simp

/-- The first aggregation: entry (n, j) is zero plus the first kernel's rows at the edges' sources, over the edges whose
    target lands on n. -/
theorem host1_agg (n : Fin 102400) (j : Fin 64) :
    h1_agg W (ix2 n j) = 0 + ∑ e ∈ Finset.univ.filter (fun e : Fin 1740800 => Cert.Spec.Lands (h1_d W (ix1 e)) n),
      h1_hs W (ix2 (Cert.Spec.rowOf 102400 (by decide) (h1_s W (ix1 e))) j) := by
  refine (congrFun (h1_agg_eq W) (ix2 n j)).trans ?_
  refine (h1_scatter_apply scatter_S102400x64_S1740800x1_S1740800x64_1_0_0_1 rfl rfl rfl rfl (by decide)
    bcast_S_S102400x64 bcast_S1740800_S1740800x1_0 (h1_d W) _ n j).trans ?_
  refine congrArg (fun t => (0 : EReal) + t) (Finset.sum_congr rfl fun e _ => ?_)
  exact h1_gather_wrap_apply gather_S102400x64_S1740800x1_S1740800x64_1_0_n_n_0_1_164 rfl rfl rfl rfl rfl rfl (by decide)
    (h1_hs W) (h1_s W) bcast_S_S1740800 bcast_S_S1740800 bcast_S1740800_S1740800x1_0 e j

/-- The root rows. -/
theorem host1_root (g : Fin 128) (k : Fin 64) :
    h1_root W (ix2 g k) = h1_agg W (ix2 (Cert.Spec.rowOf 102400 (by decide) (h1_rt W (ix1 g))) k) * h1_dv W (ix2 (Cert.Spec.rowOf 102400 (by decide) (h1_rt W (ix1 g))) (0 : Fin 1))
      + h1_b1 W (ix1 k) :=
  (congrFun (h1_root_eq W) (ix2 g k)).trans (h1_root_apply (h1_agg W) (h1_dv W) (h1_rt W) (h1_b1 W) g k)

/-- The per-graph table. -/
theorem host1_z (g : Fin 128) (j : Fin 64) :
    h1_z W (ix2 g j) = ∑ k : Fin 768, max (h1_x W (ix2 (Cert.Spec.rowOf 102400 (by decide) (h1_rt W (ix1 g))) k)) 0
      * h1_w2 W (ix2 (⟨64 + k.val, by omega⟩ : Fin 832) j) :=
  (congrFun (h1_z_eq W) (ix2 g j)).trans (h1_z_apply (h1_x W) (h1_rt W) (h1_w2 W) g j)

/-- The weights' first 64 rows. -/
theorem host1_w2top (k : Fin 64) (j : Fin 64) :
    h1_w2t W (ix2 k j) = h1_w2 W (ix2 (⟨k.val, by omega⟩ : Fin 832) j) :=
  (congrFun (h1_w2t_eq W) (ix2 k j)).trans (h1_w2t_apply (h1_w2 W) k j)

end Stretch

end Cert.KernelIdeal.Val

end
-- ==== Proof.KernelValue.lean ====
/-
  The kernel program's result, entry by entry, in the kernel's form of the launch arrays.

  The run's buffer contents at the boundaries of @main are followed from the launch to the return. Before region 0
  the host operations build the edge words, the normalisation column and the reshaped biases and batch words; region 0
  leaves the projection scaled by the column; the host operations before region 1 gather those rows at the edges'
  sources and add them into the edges' targets, read the root rows, the per-graph table and the first 64 rows of
  the second weight; region 1 leaves the second projection, split and scaled; the host operations before region 2
  aggregate it the same way; region 2 accumulates the per-graph sums and counts over its 25 tiles; the last host
  operations divide. Each boundary buffer is read in the form the specification names (hs1K, aggK, h1K, zK, hs2K,
  accSum, accCnt), a buffer carried unchanged across boundaries by the carried-buffer equations, and the result is
  outK.
-/
import proofs.«405491_j5480378270219_3_alg».proof.Proof.Gen.KernelIdeal.Frame
import proofs.«405491_j5480378270219_3_alg».proof.Proof.Spec
import proofs.«405491_j5480378270219_3_alg».proof.Proof.KernelKeep
import proofs.«405491_j5480378270219_3_alg».proof.Proof.Region0Value
import proofs.«405491_j5480378270219_3_alg».proof.Proof.Region1Value
import proofs.«405491_j5480378270219_3_alg».proof.Proof.Region2Value
import proofs.«405491_j5480378270219_3_alg».proof.Proof.KernelHost0
import proofs.«405491_j5480378270219_3_alg».proof.Proof.KernelHost1
import Idealize.ShloMosaic.PureOps.Ideal
import Idealize.ShloMosaic.Lib.ValueIdx

set_option maxRecDepth 16384

noncomputable section

namespace Cert.KernelIdeal.Val

open Cert.KernelIdeal Cert.KernelIdeal.Gen Cert.KernelIdeal.Keep Idealize.ShloMosaic Idealize.ShloMosaic.ValueIdx
  Idealize.ShloMosaic.TcCoe
open scoped BigOperators

/-! ## The accumulations in the two spellings -/

/-- The sums over tiles 0 to t, accumulated in order from zero, are the in-order accumulation of the tiles' sums. -/
theorem kv_accSum_eq_accT (x : FVec Ideal S102400x768 .f32) (w1 : FVec Ideal S768x64 .f32) (b1 : FVec Ideal S64 .f32)
    (w2 : FVec Ideal S832x64 .f32) (b2 : FVec Ideal S64 .f32) (s d : Fin 1740800 → BitVec 32)
    (bt : Fin 102400 → BitVec 32) (rt : Fin 128 → BitVec 32) (g : Fin 128) (j : Fin 64) (t : ℕ) :
    Cert.Spec.accSum x w1 b1 w2 b2 s d bt rt t g j
      = Cert.Spec.accT (fun t => Cert.Spec.tileSum x w1 b1 w2 b2 s d bt rt t g j) t := by
  induction t with
  | zero => rfl
  | succ t ih =>
    show Cert.Spec.accSum x w1 b1 w2 b2 s d bt rt t g j + Cert.Spec.tileSum x w1 b1 w2 b2 s d bt rt (t + 1) g j
      = Cert.Spec.accT (fun t => Cert.Spec.tileSum x w1 b1 w2 b2 s d bt rt t g j) t
        + Cert.Spec.tileSum x w1 b1 w2 b2 s d bt rt (t + 1) g j
    rw [ih]

/-- The same for the counts. -/
theorem kv_accCnt_eq_accT (bt : Fin 102400 → BitVec 32) (g : Fin 128) (t : ℕ) :
    Cert.Spec.accCnt bt t g = Cert.Spec.accT (fun t => Cert.Spec.tileCnt bt t g) t := by
  induction t with
  | zero => rfl
  | succ t ih =>
    show Cert.Spec.accCnt bt t g + Cert.Spec.tileCnt bt (t + 1) g
      = Cert.Spec.accT (fun t => Cert.Spec.tileCnt bt t g) t + Cert.Spec.tileCnt bt (t + 1) g
    rw [ih]

/-! ## Each stage's array from the stage's own equation and the forms of the arrays it reads

Every lemma here is about arbitrary arrays: o is the array a stage produces, ho the stage's equation for it over the
arrays the stage reads, and the remaining hypotheses say what those arrays hold in the kernel's form. -/

section Stages

variable (x : FVec Ideal S102400x768 .f32) (w1 : FVec Ideal S768x64 .f32) (b1 : FVec Ideal S64 .f32)
  (w2 : FVec Ideal S832x64 .f32) (b2 : FVec Ideal S64 .f32)
  (s d : Fin 1740800 → BitVec 32) (bt : Fin 102400 → BitVec 32) (rt : Fin 128 → BitVec 32)

/-- Region 0: the projection scaled by the normalisation column. -/
theorem kv_hs1_of (xv : FVec Ideal S102400x768 .f32) (wv : FVec Ideal S768x64 .f32) (dvv : FVec Ideal S102400x1 .f32)
    (o : FVec Ideal S102400x64 .f32)
    (ho : ∀ n j, o (ix2 n j) = (∑ k : Fin 768, xv (ix2 n k) * wv (ix2 k j)) * dvv (ix2 n (0 : Fin 1)))
    (hx : xv = x) (hw : wv = w1) (hdv : ∀ n, dvv (ix2 n (0 : Fin 1)) = Cert.Spec.dinv d n)
    (n : Fin 102400) (j : Fin 64) : o (ix2 n j) = Cert.Spec.hs1K x w1 d n j := by
  subst hx hw
  rw [ho, hdv]
  rfl

/-- A gather of rows by the source words added into the rows the target words land on. -/
theorem kv_agg_of (sv dv : IVec S1740800 32) (P o : FVec Ideal S102400x64 .f32) (Pf : Fin 102400 → Fin 64 → EReal)
    (ho : ∀ n j, o (ix2 n j)
      = 0 + ∑ e ∈ Finset.univ.filter (fun e : Fin 1740800 => Cert.Spec.Lands (dv (ix1 e)) n),
          P (ix2 (Cert.Spec.rowOf 102400 (by decide) (sv (ix1 e))) j))
    (hs : ∀ e, sv (ix1 e) = s e) (hd : ∀ e, dv (ix1 e) = d e) (hP : ∀ n j, P (ix2 n j) = Pf n j)
    (n : Fin 102400) (j : Fin 64) : o (ix2 n j) = Cert.Spec.aggK s d Pf n j := by
  rw [ho]
  unfold Cert.Spec.aggK Cert.Spec.srcRow
  refine congrArg (fun t : EReal => 0 + t) ?_
  refine Finset.sum_congr (Finset.filter_congr fun e _ => by rw [hd e]) fun e _ => ?_
  rw [hs e, hP]

/-- The root rows: the first layer's output at each graph's root. -/
theorem kv_root_of (agg : FVec Ideal S102400x64 .f32) (dvv : FVec Ideal S102400x1 .f32) (b1v : FVec Ideal S64 .f32)
    (rtv : IVec S128 32) (o : FVec Ideal S128x64 .f32)
    (ho : ∀ g k, o (ix2 g k)
      = agg (ix2 (Cert.Spec.rowOf 102400 (by decide) (rtv (ix1 g))) k)
          * dvv (ix2 (Cert.Spec.rowOf 102400 (by decide) (rtv (ix1 g))) (0 : Fin 1))
        + b1v (ix1 k))
    (hagg : ∀ n j, agg (ix2 n j) = Cert.Spec.aggK s d (Cert.Spec.hs1K x w1 d) n j)
    (hdv : ∀ n, dvv (ix2 n (0 : Fin 1)) = Cert.Spec.dinv d n) (hb : b1v = b1) (hrt : ∀ g, rtv (ix1 g) = rt g)
    (g : Fin 128) (k : Fin 64) : o (ix2 g k) = Cert.Spec.h1K x w1 b1 s d (Cert.Spec.rootRow rt g) k := by
  subst hb
  rw [ho, hagg, hdv, hrt]
  rfl

/-- The per-graph table: the rectified root features through the last 768 rows of the second weight. -/
theorem kv_z_of (xv : FVec Ideal S102400x768 .f32) (w2v : FVec Ideal S832x64 .f32) (rtv : IVec S128 32)
    (o : FVec Ideal S128x64 .f32)
    (ho : ∀ g j, o (ix2 g j)
      = ∑ k : Fin 768, max (xv (ix2 (Cert.Spec.rowOf 102400 (by decide) (rtv (ix1 g))) k)) 0
          * w2v (ix2 (⟨64 + k.val, by omega⟩ : Fin 832) j))
    (hx : xv = x) (hw : w2v = w2) (hrt : ∀ g, rtv (ix1 g) = rt g)
    (g : Fin 128) (j : Fin 64) : o (ix2 g j) = Cert.Spec.zK x w2 rt g j := by
  subst hx hw
  rw [ho, hrt]
  rfl

/-- Region 1: the second projection, split and scaled. -/
theorem kv_hs2_of (agg : FVec Ideal S102400x64 .f32) (dvv : FVec Ideal S102400x1 .f32) (b1r : FVec Ideal S1x64 .f32)
    (btc : IVec S102400x1 32) (zv : FVec Ideal S128x64 .f32) (w2t : FVec Ideal S64x64 .f32)
    (o : FVec Ideal S102400x64 .f32)
    (ho : ∀ n j, o (ix2 n j)
      = ((∑ k : Fin 64, max (agg (ix2 n k) * dvv (ix2 n (0 : Fin 1)) + b1r (ix2 (0 : Fin 1) k)) 0 * w2t (ix2 k j))
          + ∑ g : Fin 128, Cert.Spec.hotW (btc (ix2 n (0 : Fin 1))) g * zv (ix2 g j))
        * dvv (ix2 n (0 : Fin 1)))
    (hagg : ∀ n j, agg (ix2 n j) = Cert.Spec.aggK s d (Cert.Spec.hs1K x w1 d) n j)
    (hdv : ∀ n, dvv (ix2 n (0 : Fin 1)) = Cert.Spec.dinv d n)
    (hb1 : ∀ k, b1r (ix2 (0 : Fin 1) k) = b1 (ix1 k)) (hbt : ∀ n, btc (ix2 n (0 : Fin 1)) = bt n)
    (hz : ∀ g j, zv (ix2 g j) = Cert.Spec.zK x w2 rt g j)
    (hw : ∀ k j : Fin 64, w2t (ix2 k j) = w2 (ix2 (⟨k.val, by omega⟩ : Fin 832) j))
    (n : Fin 102400) (j : Fin 64) : o (ix2 n j) = Cert.Spec.hs2K x w1 b1 w2 s d bt rt n j := by
  rw [ho]
  simp only [hagg, hdv, hb1, hbt, hz, hw]
  rfl

/-- Region 2's sums: the tiles' contributions accumulated in order. -/
theorem kv_sums_of (agg : FVec Ideal S102400x64 .f32) (dvv : FVec Ideal S102400x1 .f32) (b2r : FVec Ideal S1x64 .f32)
    (btc : IVec S102400x1 32) (o : FVec Ideal S128x64 .f32)
    (ho : ∀ g j, o (ix2 g j)
      = Cert.Spec.accT (fun t => ∑ i : Fin 4096,
          Cert.Spec.hotW (btc (ix2 (Cert.Spec.tileRow t i) (0 : Fin 1))) g
            * max (agg (ix2 (Cert.Spec.tileRow t i) j) * dvv (ix2 (Cert.Spec.tileRow t i) (0 : Fin 1))
                    + b2r (ix2 (0 : Fin 1) j)) 0) 24)
    (hagg : ∀ n j, agg (ix2 n j) = Cert.Spec.aggK s d (Cert.Spec.hs2K x w1 b1 w2 s d bt rt) n j)
    (hdv : ∀ n, dvv (ix2 n (0 : Fin 1)) = Cert.Spec.dinv d n)
    (hb2 : ∀ j, b2r (ix2 (0 : Fin 1) j) = b2 (ix1 j)) (hbt : ∀ n, btc (ix2 n (0 : Fin 1)) = bt n)
    (g : Fin 128) (j : Fin 64) : o (ix2 g j) = Cert.Spec.accSum x w1 b1 w2 b2 s d bt rt 24 g j := by
  rw [ho, kv_accSum_eq_accT]
  simp only [hagg, hdv, hb2, hbt]
  rfl

/-- Region 2's counts. -/
theorem kv_cnt_of (btc : IVec S102400x1 32) (o : FVec Ideal S1x128 .f32)
    (ho : ∀ g, o (ix2 (0 : Fin 1) g)
      = Cert.Spec.accT (fun t => ∑ i : Fin 4096,
          Cert.Spec.hotW (btc (ix2 (Cert.Spec.tileRow t i) (0 : Fin 1))) g) 24)
    (hbt : ∀ n, btc (ix2 n (0 : Fin 1)) = bt n)
    (g : Fin 128) : o (ix2 (0 : Fin 1) g) = Cert.Spec.accCnt bt 24 g := by
  rw [ho, kv_accCnt_eq_accT]
  simp only [hbt]
  rfl

/-- The result: the sums beside the count times the root row, divided by the clamped count. -/
theorem kv_out_of (sums root : FVec Ideal S128x64 .f32) (cnt : FVec Ideal S1x128 .f32) (o : FVec Ideal S128x128 .f32)
    (ho : ∀ g col : Fin 128, o (ix2 g col)
      = Ideal.div
          (if h : col.val < 64 then sums (ix2 g ⟨col.val, h⟩)
           else cnt (ix2 (0 : Fin 1) g) * root (ix2 g (⟨col.val - 64, by omega⟩ : Fin 64)))
          (max (cnt (ix2 (0 : Fin 1) g)) 1))
    (hsums : ∀ g j, sums (ix2 g j) = Cert.Spec.accSum x w1 b1 w2 b2 s d bt rt 24 g j)
    (hcnt : ∀ g, cnt (ix2 (0 : Fin 1) g) = Cert.Spec.accCnt bt 24 g)
    (hroot : ∀ g k, root (ix2 g k) = Cert.Spec.h1K x w1 b1 s d (Cert.Spec.rootRow rt g) k)
    (g col : Fin 128) : o (ix2 g col) = Cert.Spec.outK x w1 b1 w2 b2 s d bt rt g col := by
  rw [ho]
  unfold Cert.Spec.outK
  simp only [hsums, hcnt, hroot]

end Stages

/-! ## The launch arrays, the result, and a boundary's buffers at their literal types -/

section Run

variable (m : (ℓ : Loc nD τ sig) → Buf (Elt Ideal) ℓ) (ρ : Dev nD → PrngReg) (c : Dev nD)

/-- The result array after the run. -/
abbrev kv_out : FVec Ideal S128x128 .f32 := W9 m ρ c (Proc.devRef .tc main_v78)
/-- The eight argument arrays at launch. -/
abbrev kv_x : FVec Ideal S102400x768 .f32 := m ((c : Thread nD τ).loc main_arg0)
abbrev kv_ei : IVec S2x1638400 32 := m ((c : Thread nD τ).loc main_arg1)
abbrev kv_bt : IVec S102400 32 := m ((c : Thread nD τ).loc main_arg2)
abbrev kv_rt : IVec S128 32 := m ((c : Thread nD τ).loc main_arg3)
abbrev kv_w1 : FVec Ideal S768x64 .f32 := m ((c : Thread nD τ).loc main_arg4)
abbrev kv_b1 : FVec Ideal S64 .f32 := m ((c : Thread nD τ).loc main_arg5)
abbrev kv_w2 : FVec Ideal S832x64 .f32 := m ((c : Thread nD τ).loc main_arg6)
abbrev kv_b2 : FVec Ideal S64 .f32 := m ((c : Thread nD τ).loc main_arg7)

section Views

variable (W : Valuation τ sig (Elt Ideal))

/-- The buffers of given contents W that the composition reads, each at its literal type. -/
abbrev kvb_arg0 : FVec Ideal S102400x768 .f32 := W (Proc.devRef .tc main_arg0)
abbrev kvb_arg3 : IVec S128 32 := W (Proc.devRef .tc main_arg3)
abbrev kvb_arg4 : FVec Ideal S768x64 .f32 := W (Proc.devRef .tc main_arg4)
abbrev kvb_arg5 : FVec Ideal S64 .f32 := W (Proc.devRef .tc main_arg5)
abbrev kvb_arg6 : FVec Ideal S832x64 .f32 := W (Proc.devRef .tc main_arg6)
abbrev kvb_v5 : IVec S1740800 32 := W (Proc.devRef .tc main_v5)
abbrev kvb_v6 : IVec S1740800 32 := W (Proc.devRef .tc main_v6)
abbrev kvb_v14 : FVec Ideal S102400x1 .f32 := W (Proc.devRef .tc main_v14)
abbrev kvb_v15 : FVec Ideal S1x64 .f32 := W (Proc.devRef .tc main_v15)
abbrev kvb_v16 : FVec Ideal S1x64 .f32 := W (Proc.devRef .tc main_v16)
abbrev kvb_v17 : IVec S102400x1 32 := W (Proc.devRef .tc main_v17)
abbrev kvb_v18 : FVec Ideal S102400x64 .f32 := W (Proc.devRef .tc main_v18)
abbrev kvb_v28 : FVec Ideal S102400x64 .f32 := W (Proc.devRef .tc main_v28)
abbrev kvb_v47 : FVec Ideal S128x64 .f32 := W (Proc.devRef .tc main_v47)
abbrev kvb_v55 : FVec Ideal S64x64 .f32 := W (Proc.devRef .tc main_v55)
abbrev kvb_v58 : FVec Ideal S128x64 .f32 := W (Proc.devRef .tc main_v58)
abbrev kvb_v59 : FVec Ideal S102400x64 .f32 := W (Proc.devRef .tc main_v59)
abbrev kvb_v69 : FVec Ideal S102400x64 .f32 := W (Proc.devRef .tc main_v69)
abbrev kvb_v70_0 : FVec Ideal S128x64 .f32 := W (Proc.devRef .tc main_v70_0)
abbrev kvb_v70_1 : FVec Ideal S1x128 .f32 := W (Proc.devRef .tc main_v70_1)

end Views

local notation "xK" => kv_x m c
local notation "w1K" => kv_w1 m c
local notation "b1K" => kv_b1 m c
local notation "w2K" => kv_w2 m c
local notation "b2K" => kv_b2 m c
local notation "sK" => Cert.Spec.srcOf (kv_ei m c)
local notation "dK" => Cert.Spec.dstOf (kv_ei m c)
local notation "btK" => (fun n : Fin 102400 => kv_bt m c (ix1 n))
local notation "rtK" => (fun g : Fin 128 => kv_rt m c (ix1 g))

/-! ## Region 0's entry: the edge words, the normalisation column and the reshaped arguments -/

theorem kv1_src (e : Fin 1740800) : kvb_v5 (W1 m ρ c) (ix1 e) = sK e := host0_src (W0 m ρ c) e
theorem kv1_dst (e : Fin 1740800) : kvb_v6 (W1 m ρ c) (ix1 e) = dK e := host0_dst (W0 m ρ c) e
theorem kv1_dinv (n : Fin 102400) : kvb_v14 (W1 m ρ c) (ix2 n (0 : Fin 1)) = Cert.Spec.dinv dK n :=
  host0_dinv (W0 m ρ c) n
theorem kv1_b1 (j : Fin 64) : kvb_v15 (W1 m ρ c) (ix2 (0 : Fin 1) j) = b1K (ix1 j) := host0_b1 (W0 m ρ c) j
theorem kv1_b2 (j : Fin 64) : kvb_v16 (W1 m ρ c) (ix2 (0 : Fin 1) j) = b2K (ix1 j) := host0_b2 (W0 m ρ c) j
theorem kv1_bt (n : Fin 102400) : kvb_v17 (W1 m ρ c) (ix2 n (0 : Fin 1)) = kv_bt m c (ix1 n) := host0_bt (W0 m ρ c) n
theorem kv1_x : kvb_arg0 (W1 m ρ c) = xK := keep_arg0_1_0 m ρ c
theorem kv1_w1 : kvb_arg4 (W1 m ρ c) = w1K := keep_arg4_1_0 m ρ c

/-! ## Region 0's exit -/

theorem kv2_hs1 (n : Fin 102400) (j : Fin 64) : kvb_v18 (W2 m ρ c) (ix2 n j) = Cert.Spec.hs1K xK w1K dK n j :=
  kv_hs1_of xK w1K dK (kvb_arg0 (W1 m ρ c)) (kvb_arg4 (W1 m ρ c)) (kvb_v14 (W1 m ρ c)) (kvb_v18 (W2 m ρ c))
    (fun n j => (congrFun (W2_arr m ρ c 3) (ix2 n j)).trans (region0_value (V1 m ρ) c n j))
    (kv1_x m ρ c) (kv1_w1 m ρ c) (kv1_dinv m ρ c) n j
theorem kv2_src (e : Fin 1740800) : kvb_v5 (W2 m ρ c) (ix1 e) = sK e :=
  (congrFun (keep_v5_2_1 m ρ c) (ix1 e)).trans (kv1_src m ρ c e)
theorem kv2_dst (e : Fin 1740800) : kvb_v6 (W2 m ρ c) (ix1 e) = dK e :=
  (congrFun (keep_v6_2_1 m ρ c) (ix1 e)).trans (kv1_dst m ρ c e)
theorem kv2_dinv (n : Fin 102400) : kvb_v14 (W2 m ρ c) (ix2 n (0 : Fin 1)) = Cert.Spec.dinv dK n :=
  (congrFun (keep_v14_2_1 m ρ c) (ix2 n (0 : Fin 1))).trans (kv1_dinv m ρ c n)
theorem kv2_x : kvb_arg0 (W2 m ρ c) = xK := keep_arg0_2_0 m ρ c
theorem kv2_rt : kvb_arg3 (W2 m ρ c) = kv_rt m c := keep_arg3_2_0 m ρ c
theorem kv2_b1 : kvb_arg5 (W2 m ρ c) = b1K := keep_arg5_2_0 m ρ c
theorem kv2_w2 : kvb_arg6 (W2 m ρ c) = w2K := keep_arg6_2_0 m ρ c

/-! ## Region 1's entry -/

theorem kv5_agg1 (n : Fin 102400) (j : Fin 64) :
    kvb_v28 (W5 m ρ c) (ix2 n j) = Cert.Spec.aggK sK dK (Cert.Spec.hs1K xK w1K dK) n j :=
  kv_agg_of sK dK (kvb_v5 (W2 m ρ c)) (kvb_v6 (W2 m ρ c)) (kvb_v18 (W2 m ρ c)) (kvb_v28 (W5 m ρ c)) _
    (host1_agg (W2 m ρ c)) (kv2_src m ρ c) (kv2_dst m ρ c) (kv2_hs1 m ρ c) n j
theorem kv5_root (g : Fin 128) (k : Fin 64) :
    kvb_v47 (W5 m ρ c) (ix2 g k) = Cert.Spec.h1K xK w1K b1K sK dK (Cert.Spec.rootRow rtK g) k :=
  kv_root_of xK w1K b1K sK dK rtK (kvb_v28 (W5 m ρ c)) (kvb_v14 (W2 m ρ c)) (kvb_arg5 (W2 m ρ c))
    (kvb_arg3 (W2 m ρ c)) (kvb_v47 (W5 m ρ c))
    (host1_root (W2 m ρ c)) (kv5_agg1 m ρ c) (kv2_dinv m ρ c) (kv2_b1 m ρ c)
    (fun g => congrFun (kv2_rt m ρ c) (ix1 g)) g k
theorem kv5_z (g : Fin 128) (j : Fin 64) : kvb_v58 (W5 m ρ c) (ix2 g j) = Cert.Spec.zK xK w2K rtK g j :=
  kv_z_of xK w2K rtK (kvb_arg0 (W2 m ρ c)) (kvb_arg6 (W2 m ρ c)) (kvb_arg3 (W2 m ρ c)) (kvb_v58 (W5 m ρ c))
    (host1_z (W2 m ρ c)) (kv2_x m ρ c) (kv2_w2 m ρ c) (fun g => congrFun (kv2_rt m ρ c) (ix1 g)) g j
theorem kv5_w2t (k j : Fin 64) :
    kvb_v55 (W5 m ρ c) (ix2 k j) = w2K (ix2 (⟨k.val, by omega⟩ : Fin 832) j) :=
  (host1_w2top (W2 m ρ c) k j).trans (congrFun (kv2_w2 m ρ c) _)
theorem kv5_dinv (n : Fin 102400) : kvb_v14 (W5 m ρ c) (ix2 n (0 : Fin 1)) = Cert.Spec.dinv dK n :=
  (congrFun (keep_v14_5_1 m ρ c) (ix2 n (0 : Fin 1))).trans (kv1_dinv m ρ c n)
theorem kv5_b1 (k : Fin 64) : kvb_v15 (W5 m ρ c) (ix2 (0 : Fin 1) k) = b1K (ix1 k) :=
  (congrFun (keep_v15_5_1 m ρ c) (ix2 (0 : Fin 1) k)).trans (kv1_b1 m ρ c k)
theorem kv5_bt (n : Fin 102400) : kvb_v17 (W5 m ρ c) (ix2 n (0 : Fin 1)) = kv_bt m c (ix1 n) :=
  (congrFun (keep_v17_5_1 m ρ c) (ix2 n (0 : Fin 1))).trans (kv1_bt m ρ c n)

/-! ## Region 1's exit -/

theorem kv6_hs2 (n : Fin 102400) (j : Fin 64) :
    kvb_v59 (W6 m ρ c) (ix2 n j) = Cert.Spec.hs2K xK w1K b1K w2K sK dK btK rtK n j :=
  kv_hs2_of xK w1K b1K w2K sK dK btK rtK (kvb_v28 (W5 m ρ c)) (kvb_v14 (W5 m ρ c)) (kvb_v15 (W5 m ρ c))
    (kvb_v17 (W5 m ρ c)) (kvb_v58 (W5 m ρ c)) (kvb_v55 (W5 m ρ c)) (kvb_v59 (W6 m ρ c))
    (fun n j => (congrFun (W6_arr m ρ c 6) (ix2 n j)).trans (region1_value (V5 m ρ) c n j))
    (kv5_agg1 m ρ c) (kv5_dinv m ρ c) (kv5_b1 m ρ c) (kv5_bt m ρ c) (kv5_z m ρ c) (kv5_w2t m ρ c) n j
theorem kv6_src (e : Fin 1740800) : kvb_v5 (W6 m ρ c) (ix1 e) = sK e :=
  (congrFun (keep_v5_6_1 m ρ c) (ix1 e)).trans (kv1_src m ρ c e)
theorem kv6_dst (e : Fin 1740800) : kvb_v6 (W6 m ρ c) (ix1 e) = dK e :=
  (congrFun (keep_v6_6_1 m ρ c) (ix1 e)).trans (kv1_dst m ρ c e)

/-! ## Region 2's entry -/

theorem kv7_agg2 (n : Fin 102400) (j : Fin 64) :
    kvb_v69 (W7 m ρ c) (ix2 n j) = Cert.Spec.aggK sK dK (Cert.Spec.hs2K xK w1K b1K w2K sK dK btK rtK) n j :=
  kv_agg_of sK dK (kvb_v5 (W6 m ρ c)) (kvb_v6 (W6 m ρ c)) (kvb_v59 (W6 m ρ c)) (kvb_v69 (W7 m ρ c)) _
    (host2_agg (W6 m ρ c)) (kv6_src m ρ c) (kv6_dst m ρ c) (kv6_hs2 m ρ c) n j
theorem kv7_dinv (n : Fin 102400) : kvb_v14 (W7 m ρ c) (ix2 n (0 : Fin 1)) = Cert.Spec.dinv dK n :=
  (congrFun (keep_v14_7_1 m ρ c) (ix2 n (0 : Fin 1))).trans (kv1_dinv m ρ c n)
theorem kv7_b2 (j : Fin 64) : kvb_v16 (W7 m ρ c) (ix2 (0 : Fin 1) j) = b2K (ix1 j) :=
  (congrFun (keep_v16_7_1 m ρ c) (ix2 (0 : Fin 1) j)).trans (kv1_b2 m ρ c j)
theorem kv7_bt (n : Fin 102400) : kvb_v17 (W7 m ρ c) (ix2 n (0 : Fin 1)) = kv_bt m c (ix1 n) :=
  (congrFun (keep_v17_7_1 m ρ c) (ix2 n (0 : Fin 1))).trans (kv1_bt m ρ c n)

/-! ## Region 2's exit -/

theorem kv8_sums (g : Fin 128) (j : Fin 64) :
    kvb_v70_0 (W8 m ρ c) (ix2 g j) = Cert.Spec.accSum xK w1K b1K w2K b2K sK dK btK rtK 24 g j :=
  kv_sums_of xK w1K b1K w2K b2K sK dK btK rtK (kvb_v69 (W7 m ρ c)) (kvb_v14 (W7 m ρ c)) (kvb_v16 (W7 m ρ c))
    (kvb_v17 (W7 m ρ c)) (kvb_v70_0 (W8 m ρ c))
    (fun g j => (congrFun (W8_arr m ρ c 4) (ix2 g j)).trans (region2_sums (V7 m ρ) c g j))
    (kv7_agg2 m ρ c) (kv7_dinv m ρ c) (kv7_b2 m ρ c) (kv7_bt m ρ c) g j
theorem kv8_cnt (g : Fin 128) : kvb_v70_1 (W8 m ρ c) (ix2 (0 : Fin 1) g) = Cert.Spec.accCnt btK 24 g :=
  kv_cnt_of btK (kvb_v17 (W7 m ρ c)) (kvb_v70_1 (W8 m ρ c))
    (fun g => (congrFun (W8_arr m ρ c 5) (ix2 (0 : Fin 1) g)).trans (region2_cnt (V7 m ρ) c g))
    (kv7_bt m ρ c) g
theorem kv8_root (g : Fin 128) (k : Fin 64) :
    kvb_v47 (W8 m ρ c) (ix2 g k) = Cert.Spec.h1K xK w1K b1K sK dK (Cert.Spec.rootRow rtK g) k :=
  (congrFun (keep_v47_8_5 m ρ c) (ix2 g k)).trans (kv5_root m ρ c g k)

/-! ## The result -/

/-- Entry (g, col) of the kernel program's result is the kernel's form of the launch arrays. -/
theorem kernel_value (g col : Fin 128) :
    kv_out m ρ c (ix2 g col)
      = Cert.Spec.outK (kv_x m c) (kv_w1 m c) (kv_b1 m c) (kv_w2 m c) (kv_b2 m c) (Cert.Spec.srcOf (kv_ei m c))
          (Cert.Spec.dstOf (kv_ei m c)) (fun n => kv_bt m c (ix1 n)) (fun g => kv_rt m c (ix1 g)) g col :=
  kv_out_of xK w1K b1K w2K b2K sK dK btK rtK (kvb_v70_0 (W8 m ρ c)) (kvb_v47 (W8 m ρ c)) (kvb_v70_1 (W8 m ρ c))
    (kv_out m ρ c) (host3_out (W8 m ρ c)) (kv8_sums m ρ c) (kv8_cnt m ρ c) (kv8_root m ρ c) g col

end Run

end Cert.KernelIdeal.Val

end
-- ==== Proof.RefValue1.lean ====
/-
  The reference's edge lists, its symmetric normalisation and its first layer, each read at an index.

  The program joins the given edges with one self-loop per node (sources and targets, 1740800 words each), counts the
  edges landing on every node, takes dinv = (max deg 1)^(-1/2), weights edge e by dinv at its source row times dinv at
  its target row (both rows read the numpy way: wrapped, then clamped), and adds the weighted rows of x W1 into their
  target rows before the bias. Every stage equals the corresponding formula of the specification, index by index. The
  program computes the edge lists, dinv and the weights a second time under other buffer names; the same readings hold
  of those.
-/
import proofs.«405491_j5480378270219_3_alg».proof.Proof.RefRead
import proofs.«405491_j5480378270219_3_alg».proof.Proof.Spec
import proofs.«405491_j5480378270219_3_alg».proof.Proof.LibRows
import Idealize.ShloMosaic.Lib.Pipeline.Value
import Idealize.ShloMosaic.Lib.ValueIdx
import Idealize.ShloMosaic.Lib.IdealHost
import Idealize.ShloMosaic.PureOps.Ideal
import Idealize.ShloMosaic.PureOps.Ideal.Laws

set_option maxRecDepth 16384

noncomputable section

namespace Cert.ReferenceIdeal.RefVal

open Cert.ReferenceIdeal Cert.ReferenceIdeal.Gen Cert.ReferenceIdeal.Read Idealize.ShloMosaic Idealize.ShloMosaic.ValueIdx
open scoped BigOperators

variable (x0 : FVec Ideal S102400x768 .f32) (x1 : IVec S2x1638400 32) (x2 : IVec S102400 32) (x3 : IVec S128 32)
  (x4 : FVec Ideal S768x64 .f32) (x5 : FVec Ideal S64 .f32) (x6 : FVec Ideal S832x64 .f32) (x7 : FVec Ideal S64 .f32)

/-! ## Words and joins -/

/-- numpy's wrap as the program prints it: a signed compare against zero selects v + len over v. -/
theorem select_wrap (len v : BitVec 32) :
    Scalar.select (IntOp.cmpi .slt v 0#32) (IntOp.addi v len) v = Cert.Spec.wrapPos len v := by
  unfold Scalar.select IntOp.cmpi IntOp.addi Cert.Spec.wrapPos
  cases h : v.slt 0#32 <;> simp [h]

/-- Two lists joined end to end, read at a position inside the first. -/
theorem concat_left (a : IVec S1638400 32) (b : IVec S102400 32) (e : Fin 1740800) (h : e.val < 1638400) :
    concatenate S1740800 0 [⟨S1638400, a⟩, ⟨S102400, b⟩] concatenates_S1638400_S102400_S1740800_d0 (ix1 e)
      = a (ix1 (⟨e.val, h⟩ : Fin 1638400)) := by
  refine concatenate_pair_apply_left (0 : Fin 1) a b concatenates_S1638400_S102400_S1740800_d0 (ix1 e) rfl
    (ix1 (⟨e.val, h⟩ : Fin 1638400)) ?_
  intro c
  match c with
  | ⟨0, _⟩ => rfl

/-- Two lists joined end to end, read at a position past the first. -/
theorem concat_right (a : IVec S1638400 32) (b : IVec S102400 32) (e : Fin 1740800) (h : ¬ e.val < 1638400) :
    concatenate S1740800 0 [⟨S1638400, a⟩, ⟨S102400, b⟩] concatenates_S1638400_S102400_S1740800_d0 (ix1 e)
      = b (ix1 (⟨e.val - 1638400, by have := e.isLt; omega⟩ : Fin 102400)) := by
  refine concatenate_pair_apply_right (0 : Fin 1) a b concatenates_S1638400_S102400_S1740800_d0 (ix1 e) rfl rfl
    (ix1 (⟨e.val - 1638400, by have := e.isLt; omega⟩ : Fin 102400)) ?_ ?_
  · intro c hc
    match c with
    | ⟨0, _⟩ => exact absurd rfl hc
  · show e.val - 1638400 + 1638400 = e.val
    omega

/-! ## The edge lists -/

/-- The joined sources at e: the given source below 1638400, the node's own number above. -/
theorem ref_src (e : Fin 1740800) : val_main_v6 (F := Ideal) x1 (ix1 e) = Cert.Spec.srcOf x1 e := by
  unfold val_main_v6 Cert.Spec.srcOf
  by_cases h : e.val < 1638400
  · rw [dif_pos h, concat_left _ _ e h, val_main_v1_apply, val_main_v0_apply]
    congr 1
    funext a
    match a with
    | ⟨0, _⟩ => exact Fin.ext rfl
    | ⟨1, _⟩ => exact Fin.ext (Nat.mod_eq_of_lt h)
  · rw [dif_neg h, concat_right _ _ e h]
    rfl

/-- The joined targets at e. -/
theorem ref_dst (e : Fin 1740800) : val_main_v7 (F := Ideal) x1 (ix1 e) = Cert.Spec.dstOf x1 e := by
  unfold val_main_v7 Cert.Spec.dstOf
  by_cases h : e.val < 1638400
  · rw [dif_pos h, concat_left _ _ e h, val_main_v3_apply, val_main_v2_apply]
    congr 1
    funext a
    match a with
    | ⟨0, _⟩ => exact Fin.ext rfl
    | ⟨1, _⟩ => exact Fin.ext (Nat.mod_eq_of_lt h)
  · rw [dif_neg h, concat_right _ _ e h]
    rfl

/-! ## The normalisation -/

/-- The target column the degree's scatter reads is the target list. -/
theorem ref_col10 (e : Fin 1740800) :
    val_main_v10 (F := Ideal) x1 (ix2 e (0 : Fin 1)) = Cert.Spec.dstOf x1 e := by
  have hi : idx_main_v10 (ix2 e (0 : Fin 1)) = ix1 e := by
    funext a
    match a with
    | ⟨0, _⟩ => rfl
  rw [val_main_v10_apply, hi, ref_dst]

/-- The number of edges landing on node n. -/
theorem ref_deg (n : Fin 102400) :
    val_main_v11 (F := Ideal) x1 (ix1 n) = Cert.Spec.deg (Cert.Spec.dstOf x1) n := by
  unfold val_main_v11 Cert.Spec.deg
  refine (Cert.LibRows.scatterAdd_take_apply scatter_S102400_S1740800x1_S1740800_n_0_0_1 rfl rfl rfl rfl
    (val_main_v9 (F := Ideal)) (val_main_v10 (F := Ideal) x1) (val_main_v8 (F := Ideal)) n).trans ?_
  refine congrArg₂ (· + ·) ?_ (Finset.sum_congr (Finset.filter_congr fun e _ => ?_) fun e _ => ?_)
  · rw [val_main_v9_apply, val_main_cst_0_apply, Ideal.ofBits_def, Ideal.ofBits_zero_f32]
  · rw [ref_col10]
    exact Iff.rfl
  · rw [val_main_v8_apply, val_main_cst_apply, Ideal.ofBits_def, Cert.LibRows.ofBits_one_f32]

/-- The reciprocal square root of the clamped degree at node n. -/
theorem ref_dinv (n : Fin 102400) :
    val_main_v14 (F := Ideal) x1 (ix1 n) = Cert.Spec.dinv (Cert.Spec.dstOf x1) n := by
  rw [val_main_v14_apply, val_main_v13_apply, ref_deg, val_main_v12_apply, val_main_cst_1_apply, Ideal.ofBits_def,
    Cert.LibRows.ofBits_one_f32, Ideal.hostUnary_rsqrt_def, Ideal.maximumf_def]
  rfl

/-- The source column the first dinv gather reads: the source word wrapped by the node count. -/
theorem ref_col20 (e : Fin 1740800) :
    val_main_v20 (F := Ideal) x1 (ix2 e (0 : Fin 1))
      = Cert.Spec.wrapPos (BitVec.ofNat 32 102400) (Cert.Spec.srcOf x1 e) := by
  have hi : idx_main_v20 (ix2 e (0 : Fin 1)) = ix1 e := by
    funext a
    match a with
    | ⟨0, _⟩ => rfl
  rw [val_main_v20_apply, hi, val_main_v19_apply, val_main_v16_apply, val_main_v18_apply, ref_src,
    val_main_v15_apply, val_main_c_apply, val_main_v17_apply, val_main_c_2_apply]
  exact select_wrap _ _

/-- The target column the second dinv gather reads: the target word wrapped by the node count. -/
theorem ref_col27 (e : Fin 1740800) :
    val_main_v27 (F := Ideal) x1 (ix2 e (0 : Fin 1))
      = Cert.Spec.wrapPos (BitVec.ofNat 32 102400) (Cert.Spec.dstOf x1 e) := by
  have hi : idx_main_v27 (ix2 e (0 : Fin 1)) = ix1 e := by
    funext a
    match a with
    | ⟨0, _⟩ => rfl
  rw [val_main_v27_apply, hi, val_main_v26_apply, val_main_v23_apply, val_main_v25_apply, ref_dst,
    val_main_v22_apply, val_main_c_3_apply, val_main_v24_apply, val_main_c_4_apply]
  exact select_wrap _ _

/-- dinv gathered at an edge's source row. -/
theorem ref_dinv_src (e : Fin 1740800) :
    val_main_v21 (F := Ideal) x1 (ix1 e)
      = Cert.Spec.dinv (Cert.Spec.dstOf x1) (Cert.Spec.srcRow (Cert.Spec.srcOf x1) e) := by
  unfold val_main_v21
  refine (Cert.LibRows.gather_take_apply gather_S102400_S1740800x1_S1740800_n_0_n_n_0_1_1 rfl rfl rfl rfl
    (val_main_v14 (F := Ideal) x1) (val_main_v20 (F := Ideal) x1) e (by decide)).trans ?_
  rw [ref_dinv]
  refine congrArg (Cert.Spec.dinv (Cert.Spec.dstOf x1)) (Fin.ext ?_)
  show min (val_main_v20 (F := Ideal) x1 (ix2 e (0 : Fin 1))).toInt.toNat (102400 - 1) = _
  rw [ref_col20]
  rfl

/-- dinv gathered at an edge's target row. -/
theorem ref_dinv_dst (e : Fin 1740800) :
    val_main_v28 (F := Ideal) x1 (ix1 e)
      = Cert.Spec.dinv (Cert.Spec.dstOf x1) (Cert.Spec.dstRow (Cert.Spec.dstOf x1) e) := by
  unfold val_main_v28
  refine (Cert.LibRows.gather_take_apply gather_S102400_S1740800x1_S1740800_n_0_n_n_0_1_1 rfl rfl rfl rfl
    (val_main_v14 (F := Ideal) x1) (val_main_v27 (F := Ideal) x1) e (by decide)).trans ?_
  rw [ref_dinv]
  refine congrArg (Cert.Spec.dinv (Cert.Spec.dstOf x1)) (Fin.ext ?_)
  show min (val_main_v27 (F := Ideal) x1 (ix2 e (0 : Fin 1))).toInt.toNat (102400 - 1) = _
  rw [ref_col27]
  rfl

/-- Edge e's weight: dinv at its source row times dinv at its target row. -/
theorem ref_norm (e : Fin 1740800) :
    val_main_v29 (F := Ideal) x1 (ix1 e) = Cert.Spec.edgeNorm (Cert.Spec.srcOf x1) (Cert.Spec.dstOf x1) e := by
  rw [val_main_v29_apply, ref_dinv_src, ref_dinv_dst, Ideal.mulf_def]
  rfl

/-! ## The first layer -/

/-- The projection x W1 at (r, j). -/
theorem ref_proj1 (r : Fin 102400) (j : Fin 64) :
    val_main_v4 (F := Ideal) x0 x4 (ix2 r j) = Cert.Spec.proj1 x0 x4 r j := by
  rw [val_main_v4_apply]
  unfold Cert.Spec.proj1
  refine Finset.sum_congr rfl fun k _ => ?_
  have hl : lidx_main_v4 (ix2 r j) k = ix2 r k := by
    funext a
    match a with
    | ⟨0, _⟩ => rfl
    | ⟨1, _⟩ => rfl
  have hr : ridx_main_v4 (ix2 r j) k = ix2 k j := by
    funext a
    match a with
    | ⟨0, _⟩ => rfl
    | ⟨1, _⟩ => rfl
  rw [hl, hr]

/-- The source column the row gather reads: the source word wrapped by the node count. -/
theorem ref_col35 (e : Fin 1740800) :
    val_main_v35 (F := Ideal) x1 (ix2 e (0 : Fin 1))
      = Cert.Spec.wrapPos (BitVec.ofNat 32 102400) (Cert.Spec.srcOf x1 e) := by
  have hi : idx_main_v35 (ix2 e (0 : Fin 1)) = ix1 e := by
    funext a
    match a with
    | ⟨0, _⟩ => rfl
  rw [val_main_v35_apply, hi, val_main_v34_apply, val_main_v31_apply, val_main_v33_apply, ref_src,
    val_main_v30_apply, val_main_c_5_apply, val_main_v32_apply, val_main_c_6_apply]
  exact select_wrap _ _

/-- The projected row gathered at an edge's source row. -/
theorem ref_rows36 (e : Fin 1740800) (j : Fin 64) :
    val_main_v36 (F := Ideal) x0 x1 x4 (ix2 e j)
      = Cert.Spec.proj1 x0 x4 (Cert.Spec.srcRow (Cert.Spec.srcOf x1) e) j := by
  unfold val_main_v36
  refine (Cert.LibRows.gather_rows_apply gather_S102400x64_S1740800x1_S1740800x64_1_0_n_n_0_1_164 rfl rfl rfl rfl rfl
    rfl (val_main_v4 (F := Ideal) x0 x4) (val_main_v35 (F := Ideal) x1) e j (by decide)).trans ?_
  rw [ref_proj1]
  refine congrArg (fun r => Cert.Spec.proj1 x0 x4 r j) (Fin.ext ?_)
  show min (val_main_v35 (F := Ideal) x1 (ix2 e (0 : Fin 1))).toInt.toNat (102400 - 1) = _
  rw [ref_col35]
  rfl

/-- The edge weight broadcast along the 64 features. -/
theorem ref_bcast38 (e : Fin 1740800) (j : Fin 64) :
    val_main_v38 (F := Ideal) x1 (ix2 e j)
      = Cert.Spec.edgeNorm (Cert.Spec.srcOf x1) (Cert.Spec.dstOf x1) e := by
  have hi : idx_main_v37 (idx_main_v38 (ix2 e j)) = ix1 e := by
    funext a
    match a with
    | ⟨0, _⟩ => rfl
  rw [val_main_v38_apply, val_main_v37_apply, hi, ref_norm]

/-- The raw target column the row scatter reads is the target list. -/
theorem ref_col41 (e : Fin 1740800) :
    val_main_v41 (F := Ideal) x1 (ix2 e (0 : Fin 1)) = Cert.Spec.dstOf x1 e := by
  have hi : idx_main_v41 (ix2 e (0 : Fin 1)) = ix1 e := by
    funext a
    match a with
    | ⟨0, _⟩ => rfl
  rw [val_main_v41_apply, hi, ref_dst]

/-- The weighted source rows added into their target rows. -/
theorem ref_agg1 (n : Fin 102400) (j : Fin 64) :
    val_main_v42 (F := Ideal) x0 x1 x4 (ix2 n j)
      = Cert.Spec.aggRef (Cert.Spec.srcOf x1) (Cert.Spec.dstOf x1) (Cert.Spec.proj1 x0 x4) n j := by
  unfold val_main_v42 Cert.Spec.aggRef
  refine (Cert.LibRows.scatterAdd_rows_apply scatter_S102400x64_S1740800x1_S1740800x64_1_0_0_1 rfl rfl rfl rfl
    (val_main_v40 (F := Ideal)) (val_main_v41 (F := Ideal) x1) (val_main_v39 (F := Ideal) x0 x1 x4) n j).trans ?_
  refine congrArg₂ (· + ·) ?_ (Finset.sum_congr (Finset.filter_congr fun e _ => ?_) fun e _ => ?_)
  · rw [val_main_v40_apply, val_main_cst_7_apply, Ideal.ofBits_def, Ideal.ofBits_zero_f32]
  · rw [ref_col41]
    exact Iff.rfl
  · rw [val_main_v39_apply, ref_rows36, ref_bcast38, Ideal.mulf_def]

/-- The first layer's output at (n, j). -/
theorem ref_h1 (n : Fin 102400) (j : Fin 64) :
    val_main_v45 (F := Ideal) x0 x1 x4 x5 (ix2 n j)
      = Cert.Spec.h1Ref x0 x4 x5 (Cert.Spec.srcOf x1) (Cert.Spec.dstOf x1) n j := by
  have hb : idx_main_v43 (idx_main_v44 (ix2 n j)) = ix1 j := by
    funext a
    match a with
    | ⟨0, _⟩ => rfl
  rw [val_main_v45_apply, ref_agg1, val_main_v44_apply, val_main_v43_apply, hb, Ideal.addf_def]
  rfl

/-! ## The second computation of the same quantities -/

/-- The joined sources at e: the given source below 1638400, the node's own number above (the second computation). -/
theorem ref_src2 (e : Fin 1740800) : val_main_v64 (F := Ideal) x1 (ix1 e) = Cert.Spec.srcOf x1 e := by
  unfold val_main_v64 Cert.Spec.srcOf
  by_cases h : e.val < 1638400
  · rw [dif_pos h, concat_left _ _ e h, val_main_v1_apply, val_main_v0_apply]
    congr 1
    funext a
    match a with
    | ⟨0, _⟩ => exact Fin.ext rfl
    | ⟨1, _⟩ => exact Fin.ext (Nat.mod_eq_of_lt h)
  · rw [dif_neg h, concat_right _ _ e h]
    rfl

/-- The joined targets at e (the second computation). -/
theorem ref_dst2 (e : Fin 1740800) : val_main_v65 (F := Ideal) x1 (ix1 e) = Cert.Spec.dstOf x1 e := by
  unfold val_main_v65 Cert.Spec.dstOf
  by_cases h : e.val < 1638400
  · rw [dif_pos h, concat_left _ _ e h, val_main_v3_apply, val_main_v2_apply]
    congr 1
    funext a
    match a with
    | ⟨0, _⟩ => exact Fin.ext rfl
    | ⟨1, _⟩ => exact Fin.ext (Nat.mod_eq_of_lt h)
  · rw [dif_neg h, concat_right _ _ e h]
    rfl

/-- The target column the degree's scatter reads is the target list (the second computation). -/
theorem ref_col68 (e : Fin 1740800) :
    val_main_v68 (F := Ideal) x1 (ix2 e (0 : Fin 1)) = Cert.Spec.dstOf x1 e := by
  have hi : idx_main_v68 (ix2 e (0 : Fin 1)) = ix1 e := by
    funext a
    match a with
    | ⟨0, _⟩ => rfl
  rw [val_main_v68_apply, hi, ref_dst2]

/-- The number of edges landing on node n (the second computation). -/
theorem ref_deg2 (n : Fin 102400) :
    val_main_v69 (F := Ideal) x1 (ix1 n) = Cert.Spec.deg (Cert.Spec.dstOf x1) n := by
  unfold val_main_v69 Cert.Spec.deg
  refine (Cert.LibRows.scatterAdd_take_apply scatter_S102400_S1740800x1_S1740800_n_0_0_1 rfl rfl rfl rfl
    (val_main_v67 (F := Ideal)) (val_main_v68 (F := Ideal) x1) (val_main_v66 (F := Ideal)) n).trans ?_
  refine congrArg₂ (· + ·) ?_ (Finset.sum_congr (Finset.filter_congr fun e _ => ?_) fun e _ => ?_)
  · rw [val_main_v67_apply, val_main_cst_13_apply, Ideal.ofBits_def, Ideal.ofBits_zero_f32]
  · rw [ref_col68]
    exact Iff.rfl
  · rw [val_main_v66_apply, val_main_cst_12_apply, Ideal.ofBits_def, Cert.LibRows.ofBits_one_f32]

/-- The reciprocal square root of the clamped degree at node n (the second computation). -/
theorem ref_dinv2 (n : Fin 102400) :
    val_main_v72 (F := Ideal) x1 (ix1 n) = Cert.Spec.dinv (Cert.Spec.dstOf x1) n := by
  rw [val_main_v72_apply, val_main_v71_apply, ref_deg2, val_main_v70_apply, val_main_cst_14_apply, Ideal.ofBits_def,
    Cert.LibRows.ofBits_one_f32, Ideal.hostUnary_rsqrt_def, Ideal.maximumf_def]
  rfl

/-- The source column the first dinv gather reads: the source word wrapped by the node count (the second computation). -/
theorem ref_col78 (e : Fin 1740800) :
    val_main_v78 (F := Ideal) x1 (ix2 e (0 : Fin 1))
      = Cert.Spec.wrapPos (BitVec.ofNat 32 102400) (Cert.Spec.srcOf x1 e) := by
  have hi : idx_main_v78 (ix2 e (0 : Fin 1)) = ix1 e := by
    funext a
    match a with
    | ⟨0, _⟩ => rfl
  rw [val_main_v78_apply, hi, val_main_v77_apply, val_main_v74_apply, val_main_v76_apply, ref_src2,
    val_main_v73_apply, val_main_c_15_apply, val_main_v75_apply, val_main_c_16_apply]
  exact select_wrap _ _

/-- The target column the second dinv gather reads: the target word wrapped by the node count (the second computation). -/
theorem ref_col85 (e : Fin 1740800) :
    val_main_v85 (F := Ideal) x1 (ix2 e (0 : Fin 1))
      = Cert.Spec.wrapPos (BitVec.ofNat 32 102400) (Cert.Spec.dstOf x1 e) := by
  have hi : idx_main_v85 (ix2 e (0 : Fin 1)) = ix1 e := by
    funext a
    match a with
    | ⟨0, _⟩ => rfl
  rw [val_main_v85_apply, hi, val_main_v84_apply, val_main_v81_apply, val_main_v83_apply, ref_dst2,
    val_main_v80_apply, val_main_c_17_apply, val_main_v82_apply, val_main_c_18_apply]
  exact select_wrap _ _

/-- dinv gathered at an edge's source row (the second computation). -/
theorem ref_dinv_src2 (e : Fin 1740800) :
    val_main_v79 (F := Ideal) x1 (ix1 e)
      = Cert.Spec.dinv (Cert.Spec.dstOf x1) (Cert.Spec.srcRow (Cert.Spec.srcOf x1) e) := by
  unfold val_main_v79
  refine (Cert.LibRows.gather_take_apply gather_S102400_S1740800x1_S1740800_n_0_n_n_0_1_1 rfl rfl rfl rfl
    (val_main_v72 (F := Ideal) x1) (val_main_v78 (F := Ideal) x1) e (by decide)).trans ?_
  rw [ref_dinv2]
  refine congrArg (Cert.Spec.dinv (Cert.Spec.dstOf x1)) (Fin.ext ?_)
  show min (val_main_v78 (F := Ideal) x1 (ix2 e (0 : Fin 1))).toInt.toNat (102400 - 1) = _
  rw [ref_col78]
  rfl

/-- dinv gathered at an edge's target row (the second computation). -/
theorem ref_dinv_dst2 (e : Fin 1740800) :
    val_main_v86 (F := Ideal) x1 (ix1 e)
      = Cert.Spec.dinv (Cert.Spec.dstOf x1) (Cert.Spec.dstRow (Cert.Spec.dstOf x1) e) := by
  unfold val_main_v86
  refine (Cert.LibRows.gather_take_apply gather_S102400_S1740800x1_S1740800_n_0_n_n_0_1_1 rfl rfl rfl rfl
    (val_main_v72 (F := Ideal) x1) (val_main_v85 (F := Ideal) x1) e (by decide)).trans ?_
  rw [ref_dinv2]
  refine congrArg (Cert.Spec.dinv (Cert.Spec.dstOf x1)) (Fin.ext ?_)
  show min (val_main_v85 (F := Ideal) x1 (ix2 e (0 : Fin 1))).toInt.toNat (102400 - 1) = _
  rw [ref_col85]
  rfl

/-- Edge e's weight: dinv at its source row times dinv at its target row (the second computation). -/
theorem ref_norm2 (e : Fin 1740800) :
    val_main_v87 (F := Ideal) x1 (ix1 e) = Cert.Spec.edgeNorm (Cert.Spec.srcOf x1) (Cert.Spec.dstOf x1) e := by
  rw [val_main_v87_apply, ref_dinv_src2, ref_dinv_dst2, Ideal.mulf_def]
  rfl

end Cert.ReferenceIdeal.RefVal

end
-- ==== Proof.RefValue2.lean ====
/-
  The reference's second layer, read at an index.

  The node's graph is its batch word taken the numpy way on an axis of 128 and clamped; that graph's root is the
  root_index word there, taken the numpy way on an axis of 102400 and clamped; the root's feature row is x's row
  there. The second layer's input at node n is the first layer's row (64 columns) beside that root row (768 columns),
  rectified; its projection is the sum over the 832 columns against W2. The aggregation gathers the projected row at
  each edge's source, scales it by the edge's weight, adds it into the row the edge's target word names, and adds
  the bias.
-/
import proofs.«405491_j5480378270219_3_alg».proof.Proof.RefRead
import proofs.«405491_j5480378270219_3_alg».proof.Proof.Spec
import proofs.«405491_j5480378270219_3_alg».proof.Proof.LibRows
import proofs.«405491_j5480378270219_3_alg».proof.Proof.RefValue1
import Idealize.ShloMosaic.Lib.Pipeline.Value
import Idealize.ShloMosaic.Lib.ValueIdx
import Idealize.ShloMosaic.PureOps.Ideal.Laws

set_option maxRecDepth 16384

noncomputable section

namespace Cert.ReferenceIdeal.RefVal

open Cert.ReferenceIdeal Cert.ReferenceIdeal.Read Idealize.ShloMosaic Idealize.ShloMosaic.ValueIdx
open scoped BigOperators

variable (x0 : FVec Ideal S102400x768 .f32) (x1 : IVec S2x1638400 32) (x2 : IVec S102400 32) (x3 : IVec S128 32)
  (x4 : FVec Ideal S768x64 .f32) (x5 : FVec Ideal S64 .f32) (x6 : FVec Ideal S832x64 .f32) (x7 : FVec Ideal S64 .f32)

/-! ## Scalar and index pieces -/

/-- jnp's table[idx] on one word: select (v < 0) (v + len) v is the numpy wrap of v on an axis of length len. -/
theorem l2_select_slt_wrap (len v : BitVec 32) :
    Scalar.select (IntOp.cmpi .slt v 0#32) (IntOp.addi v len) v = Cert.Spec.wrapPos len v := by
  unfold Scalar.select IntOp.cmpi IntOp.addi Cert.Spec.wrapPos
  by_cases h : v.slt 0#32 = true
  · rw [if_pos h]
    simp only [h]
    rfl
  · rw [if_neg h]
    have h' : v.slt 0#32 = false := by simpa using h
    simp only [h']
    rfl

/-- A gather's clamped row at a word equal to w is the clamp of w. -/
theorem l2_clamp_congr (N : Nat) (hN : 0 < N) (v w : BitVec 32) (h : v = w) (hlt : min v.toInt.toNat (N - 1) < N) :
    (⟨min v.toInt.toNat (N - 1), hlt⟩ : Fin N) = Cert.Spec.clampPos N hN w := by
  subst h
  rfl

theorem l2_idx51 (n : Fin 102400) : idx_main_v51 (ix2 n (0 : Fin 1)) = ix1 n := by
  funext a
  match a with
  | ⟨0, _⟩ => rfl

theorem l2_idx58 (n : Fin 102400) : idx_main_v58 (ix2 n (0 : Fin 1)) = ix1 n := by
  funext a
  match a with
  | ⟨0, _⟩ => rfl

theorem l2_idx93 (e : Fin 1740800) : idx_main_v93 (ix2 e (0 : Fin 1)) = ix1 e := by
  funext a
  match a with
  | ⟨0, _⟩ => rfl

theorem l2_idx95 (e : Fin 1740800) : idx_main_v95 (ix2 e (0 : Fin 1)) = ix1 e := by
  funext a
  match a with
  | ⟨0, _⟩ => rfl

theorem l2_idx96 (e : Fin 1740800) (j : Fin 64) : idx_main_v96 (ix2 e j) = ix2 e (0 : Fin 1) := by
  funext a
  match a with
  | ⟨0, _⟩ => rfl
  | ⟨1, _⟩ => rfl

theorem l2_idx99 (e : Fin 1740800) : idx_main_v99 (ix2 e (0 : Fin 1)) = ix1 e := by
  funext a
  match a with
  | ⟨0, _⟩ => rfl

theorem l2_idx102 (n : Fin 102400) (j : Fin 64) : idx_main_v101 (idx_main_v102 (ix2 n j)) = ix1 j := by
  funext a
  match a with
  | ⟨0, _⟩ => rfl

theorem l2_lidx62 (n : Fin 102400) (j : Fin 64) (k : Fin 832) : lidx_main_v62 (ix2 n j) k = ix2 n k := by
  funext a
  match a with
  | ⟨0, _⟩ => rfl
  | ⟨1, _⟩ => rfl

theorem l2_ridx62 (n : Fin 102400) (j : Fin 64) (k : Fin 832) : ridx_main_v62 (ix2 n j) k = ix2 k j := by
  funext a
  match a with
  | ⟨0, _⟩ => rfl
  | ⟨1, _⟩ => rfl

/-! ## The root of a node's graph -/

/-- The batch word of node n, wrapped on the 128 graphs. -/
theorem l2_graphw (n : Fin 102400) :
    val_main_v50 (F := Ideal) x2 (ix1 n) = Cert.Spec.wrapPos 128#32 (x2 (ix1 n)) := by
  rw [val_main_v50_apply, val_main_v47_apply, val_main_v49_apply, val_main_v46_apply, val_main_c_8_apply,
    val_main_v48_apply, val_main_c_9_apply]
  exact l2_select_slt_wrap _ _

/-- root_index read at node n's graph. -/
theorem l2_root (n : Fin 102400) :
    val_main_v52 (F := Ideal) x2 x3 (ix1 n)
      = x3 (ix1 (Cert.Spec.graphOf (fun n : Fin 102400 => x2 (ix1 n)) n)) := by
  have hw : val_main_v51 (F := Ideal) x2 (ix2 n (0 : Fin 1)) = Cert.Spec.wrapPos 128#32 (x2 (ix1 n)) := by
    rw [val_main_v51_apply, l2_idx51, l2_graphw]
  unfold val_main_v52
  rw [Cert.LibRows.gather_take_apply gather_S128_S102400x1_S102400_n_0_n_n_0_1_1 rfl rfl rfl rfl x3 _ n (by decide),
    l2_clamp_congr 128 (by decide) _ _ hw]
  rfl

/-- That root word, wrapped on the 102400 nodes. -/
theorem l2_rootw (n : Fin 102400) :
    val_main_v57 (F := Ideal) x2 x3 (ix1 n)
      = Cert.Spec.wrapPos 102400#32 (x3 (ix1 (Cert.Spec.graphOf (fun n : Fin 102400 => x2 (ix1 n)) n))) := by
  rw [val_main_v57_apply, val_main_v54_apply, val_main_v56_apply, val_main_v53_apply, val_main_c_10_apply,
    val_main_v55_apply, val_main_c_11_apply, l2_root]
  exact l2_select_slt_wrap _ _

/-- The feature row of the root of node n's graph: the batch word, wrapped on 128 and clamped, reads root_index;
    that word, wrapped on 102400 and clamped, reads x's row. -/
theorem ref_rootx (n : Fin 102400) (k : Fin 768) :
    val_main_v59 (F := Ideal) x0 x2 x3 (ix2 n k)
      = x0 (ix2 (Cert.Spec.rootRow (fun g : Fin 128 => x3 (ix1 g))
          (Cert.Spec.graphOf (fun n : Fin 102400 => x2 (ix1 n)) n)) k) := by
  have hw : val_main_v58 (F := Ideal) x2 x3 (ix2 n (0 : Fin 1))
      = Cert.Spec.wrapPos 102400#32 (x3 (ix1 (Cert.Spec.graphOf (fun n : Fin 102400 => x2 (ix1 n)) n))) := by
    rw [val_main_v58_apply, l2_idx58, l2_rootw]
  unfold val_main_v59
  rw [Cert.LibRows.gather_rows_apply gather_S102400x768_S102400x1_S102400x768_1_0_n_n_0_1_1768 rfl rfl rfl rfl rfl rfl
      x0 _ n k (by decide),
    l2_clamp_congr 102400 (by decide) _ _ hw]
  rfl

/-! ## The second projection -/

/-- The concatenation of the first layer's row and the root's feature row, at column k. -/
theorem l2_cat (n : Fin 102400) (k : Fin 832) :
    val_main_v60 (F := Ideal) x0 x1 x2 x3 x4 x5 (ix2 n k)
      = Cert.Spec.catRef x0 x4 x5 (Cert.Spec.srcOf x1) (Cert.Spec.dstOf x1)
          (fun n : Fin 102400 => x2 (ix1 n)) (fun g : Fin 128 => x3 (ix1 g)) n k := by
  unfold val_main_v60 Cert.Spec.catRef
  by_cases h : k.val < 64
  · rw [dif_pos h]
    refine (concatenate_pair_apply_left (t := S102400x832) (s₁ := S102400x64) (s₂ := S102400x768) _ _ _ _ (ix2 n k) rfl
      (ix2 n (⟨k.val, h⟩ : Fin 64)) (fun b => ?_)).trans
      (ref_h1 x0 x1 x4 x5 n ⟨k.val, h⟩)
    match b with
    | ⟨0, _⟩ => rfl
    | ⟨1, _⟩ => rfl
  · rw [dif_neg h]
    refine (concatenate_pair_apply_right (t := S102400x832) (s₁ := S102400x64) (s₂ := S102400x768) _ _ _ _ (ix2 n k) rfl rfl
      (ix2 n (⟨k.val - 64, by have := k.isLt; omega⟩ : Fin 768)) (fun b hb => ?_) ?_).trans
      (ref_rootx x0 x2 x3 n ⟨k.val - 64, by have := k.isLt; omega⟩)
    · match b with
      | ⟨0, _⟩ => rfl
      | ⟨1, _⟩ => exact absurd rfl hb
    · show k.val - 64 + 64 = k.val
      omega

/-- The second layer's projection: the rectified concatenation of the first layer's row and the root's feature row,
    summed over its 832 columns against W2. -/
theorem ref_proj2 (n : Fin 102400) (j : Fin 64) :
    val_main_v62 (F := Ideal) x0 x1 x2 x3 x4 x5 x6 (ix2 n j)
      = Cert.Spec.proj2Ref x0 x4 x5 x6 (Cert.Spec.srcOf x1) (Cert.Spec.dstOf x1)
          (fun n : Fin 102400 => x2 (ix1 n)) (fun g : Fin 128 => x3 (ix1 g)) n j := by
  rw [val_main_v62_apply]
  unfold Cert.Spec.proj2Ref
  refine Finset.sum_congr rfl fun k _ => ?_
  rw [l2_lidx62, l2_ridx62, val_main_v61_apply, val_main_call0_v0_apply, val_main_call0_cst_apply, l2_cat]
  show max _ (Ideal.ofBits .f32 0x00000000#32) * _ = _
  rw [Ideal.ofBits_zero_f32]

/-! ## The second aggregation -/

/-- Edge e's source word, wrapped on the 102400 nodes, as the gather's column holds it. -/
theorem l2_srcw (e : Fin 1740800) :
    val_main_v93 (F := Ideal) x1 (ix2 e (0 : Fin 1)) = Cert.Spec.wrapPos 102400#32 (Cert.Spec.srcOf x1 e) := by
  rw [val_main_v93_apply, l2_idx93, val_main_v92_apply, val_main_v89_apply, val_main_v91_apply, val_main_v88_apply,
    val_main_c_19_apply, val_main_v90_apply, val_main_c_20_apply, ref_src2]
  exact l2_select_slt_wrap _ _

/-- The projected row gathered at edge e's source, scaled by the edge's weight. -/
theorem l2_msg (e : Fin 1740800) (j : Fin 64) :
    val_main_v97 (F := Ideal) x0 x1 x2 x3 x4 x5 x6 (ix2 e j)
      = Cert.Spec.proj2Ref x0 x4 x5 x6 (Cert.Spec.srcOf x1) (Cert.Spec.dstOf x1)
          (fun n : Fin 102400 => x2 (ix1 n)) (fun g : Fin 128 => x3 (ix1 g))
          (Cert.Spec.srcRow (Cert.Spec.srcOf x1) e) j
        * Cert.Spec.edgeNorm (Cert.Spec.srcOf x1) (Cert.Spec.dstOf x1) e := by
  rw [val_main_v97_apply, val_main_v96_apply, l2_idx96, val_main_v95_apply, l2_idx95, ref_norm2]
  unfold val_main_v94
  rw [Cert.LibRows.gather_rows_apply gather_S102400x64_S1740800x1_S1740800x64_1_0_n_n_0_1_164 rfl rfl rfl rfl rfl rfl
      _ _ e j (by decide),
    l2_clamp_congr 102400 (by decide) _ _ (l2_srcw x1 e), ref_proj2]
  rfl

/-- The second layer's output: the weighted projected source rows added into their targets, plus the bias. -/
theorem ref_h2 (n : Fin 102400) (j : Fin 64) :
    val_main_v103 (F := Ideal) x0 x1 x2 x3 x4 x5 x6 x7 (ix2 n j)
      = Cert.Spec.h2Ref x0 x4 x5 x6 x7 (Cert.Spec.srcOf x1) (Cert.Spec.dstOf x1)
          (fun n : Fin 102400 => x2 (ix1 n)) (fun g : Fin 128 => x3 (ix1 g)) n j := by
  have hd : ∀ e : Fin 1740800, val_main_v99 (F := Ideal) x1 (ix2 e (0 : Fin 1)) = Cert.Spec.dstOf x1 e := by
    intro e
    rw [val_main_v99_apply, l2_idx99, ref_dst2]
  rw [val_main_v103_apply, val_main_v102_apply, val_main_v101_apply, l2_idx102]
  unfold val_main_v100
  rw [Cert.LibRows.scatterAdd_rows_apply scatter_S102400x64_S1740800x1_S1740800x64_1_0_0_1 rfl rfl rfl rfl _ _ _ n j,
    val_main_v98_apply, val_main_cst_21_apply]
  unfold Cert.Spec.h2Ref Cert.Spec.aggRef
  show (Ideal.ofBits .f32 0x00000000#32 + _) + _ = _
  rw [Ideal.ofBits_zero_f32]
  refine congrArg (fun t : EReal => (0 + t) + x7 (ix1 j))
    (Finset.sum_congr ?_ fun e _ => l2_msg x0 x1 x2 x3 x4 x5 x6 e j)
  ext e
  rw [Finset.mem_filter, Finset.mem_filter, hd]
  exact Iff.rfl

end Cert.ReferenceIdeal.RefVal

end
-- ==== Proof.RefValue3.lean ====
/-
  The reference's last stage read index by index: the root of each node's graph looked up a second time and the first
  layer's rows gathered there; each node's final features (the rectified second layer beside its graph's root's
  first-layer row); the per-graph sums and node counts, added in at the raw batch word; and the result, each sum
  divided by the larger of its graph's count and one.
-/
import proofs.«405491_j5480378270219_3_alg».proof.Proof.RefRead
import proofs.«405491_j5480378270219_3_alg».proof.Proof.Spec
import proofs.«405491_j5480378270219_3_alg».proof.Proof.LibRows
import proofs.«405491_j5480378270219_3_alg».proof.Proof.RefValue1
import proofs.«405491_j5480378270219_3_alg».proof.Proof.RefValue2
import Idealize.ShloMosaic.Lib.ValueIdx
import Idealize.ShloMosaic.Lib.Pipeline.Value
import Idealize.ShloMosaic.PureOps.Ideal.Laws

set_option maxRecDepth 16384

noncomputable section

namespace Cert.ReferenceIdeal.RefVal

open Cert.ReferenceIdeal Cert.ReferenceIdeal.Read Idealize.ShloMosaic Idealize.ShloMosaic.ValueIdx
open scoped BigOperators

variable (x0 : FVec Ideal S102400x768 .f32) (x1 : IVec S2x1638400 32) (x2 : IVec S102400 32) (x3 : IVec S128 32)
  (x4 : FVec Ideal S768x64 .f32) (x5 : FVec Ideal S64 .f32) (x6 : FVec Ideal S832x64 .f32) (x7 : FVec Ideal S64 .f32)

/-! ## Words and sums -/

/-- Choosing v + len where v is negative and v elsewhere is numpy's wrap of v on an axis of length len. -/
theorem l3_select_wrap (len v : BitVec 32) :
    Scalar.select (IntOp.cmpi .slt v 0#32) (IntOp.addi v len) v = Cert.Spec.wrapPos len v := by
  unfold Scalar.select IntOp.cmpi IntOp.addi Cert.Spec.wrapPos
  cases h : v.slt 0#32 <;> simp

/-- The sum over the positions whose word is r read signed is the sum over the positions that land on r. -/
theorem l3_sum_lands {M N : Nat} (w : Fin M → BitVec 32) (r : Fin N) (f : Fin M → EReal) :
    ∑ e ∈ Finset.univ.filter (fun e : Fin M => (w e).toInt = (r.val : Int)), f e
      = ∑ e ∈ Finset.univ.filter (fun e : Fin M => Cert.Spec.Lands (w e) r), f e := by
  refine Finset.sum_congr ?_ (fun _ _ => rfl)
  ext e
  rw [Finset.mem_filter, Finset.mem_filter]
  exact Iff.rfl

/-- An accumulated sum read off words: with the start zero, the words w and the addends f, it is zero plus the sum of f
    over the positions whose word lands on r. -/
theorem l3_sum_lands_congr {M N : Nat} (idx w : Fin M → BitVec 32) (upd f : Fin M → EReal) (x : EReal) (r : Fin N)
    (hx : x = 0) (hidx : ∀ e, idx e = w e) (hupd : ∀ e, upd e = f e) :
    x + ∑ e ∈ Finset.univ.filter (fun e : Fin M => (idx e).toInt = (r.val : Int)), upd e
      = 0 + ∑ e ∈ Finset.univ.filter (fun e : Fin M => Cert.Spec.Lands (w e) r), f e := by
  obtain rfl : idx = w := funext hidx
  obtain rfl : upd = f := funext hupd
  rw [hx, l3_sum_lands]

/-- Two 64-column arrays joined along the columns read the first at a column below 64. -/
theorem l3_cat_left (hcat : Shape.Concatenates [(⟨2, ![102400, 64]⟩ : Shape), ⟨2, ![102400, 64]⟩] ⟨2, ![102400, 128]⟩ 1)
    (x y : (⟨2, ![102400, 64]⟩ : Shape).Idx → EReal) (n : Fin 102400) (c : Fin 128) (hc : c.val < 64) :
    concatenate ⟨2, ![102400, 128]⟩ 1 [⟨⟨2, ![102400, 64]⟩, x⟩, ⟨⟨2, ![102400, 64]⟩, y⟩] hcat (ix2 n c)
      = x (ix2 n (⟨c.val, hc⟩ : Fin 64)) :=
  concatenate_pair_apply_left 1 x y hcat _ rfl _ (fun b => by
    match b with
    | ⟨0, _⟩ => rfl
    | ⟨1, _⟩ => rfl)

/-- ... and the second, 64 columns back, from column 64 on. -/
theorem l3_cat_right (hcat : Shape.Concatenates [(⟨2, ![102400, 64]⟩ : Shape), ⟨2, ![102400, 64]⟩] ⟨2, ![102400, 128]⟩ 1)
    (x y : (⟨2, ![102400, 64]⟩ : Shape).Idx → EReal) (n : Fin 102400) (c : Fin 128) (hc : ¬ c.val < 64) :
    concatenate ⟨2, ![102400, 128]⟩ 1 [⟨⟨2, ![102400, 64]⟩, x⟩, ⟨⟨2, ![102400, 64]⟩, y⟩] hcat (ix2 n c)
      = y (ix2 n (⟨c.val - 64, by omega⟩ : Fin 64)) :=
  concatenate_pair_apply_right 1 x y hcat _ rfl rfl _
    (fun b hb => by
      match b with
      | ⟨0, _⟩ => rfl
      | ⟨1, _⟩ => exact absurd rfl hb)
    (by show c.val - 64 + 64 = c.val; omega)

/-- The two float words the stage uses. -/
theorem l3_zero_word : (FloatOps.ofBits (F := Ideal) .f32 0x00000000#32 : EReal) = 0 := Ideal.ofBits_zero_f32
theorem l3_one_word : (FloatOps.ofBits (F := Ideal) .f32 0x3F800000#32 : EReal) = 1 := Cert.LibRows.ofBits_one_f32

/-! ## Positions: entry (e, 0) of a column made from an array is the array's entry e -/

theorem l3_idx110 (n : Fin 102400) : idx_main_v110 (ix2 n (0 : Fin 1)) = ix1 n := by
  funext a
  match a with
  | ⟨0, _⟩ => rfl

theorem l3_idx117 (n : Fin 102400) : idx_main_v117 (ix2 n (0 : Fin 1)) = ix1 n := by
  funext a
  match a with
  | ⟨0, _⟩ => rfl

theorem l3_idx121 (n : Fin 102400) : idx_main_v121 (ix2 n (0 : Fin 1)) = ix1 n := by
  funext a
  match a with
  | ⟨0, _⟩ => rfl

theorem l3_idx125 (n : Fin 102400) : idx_main_v125 (ix2 n (0 : Fin 1)) = ix1 n := by
  funext a
  match a with
  | ⟨0, _⟩ => rfl

theorem l3_idx129 (g : Fin 128) : idx_main_v129 (ix2 g (0 : Fin 1)) = ix1 g := by
  funext a
  match a with
  | ⟨0, _⟩ => rfl

/-- Entry (g, c) of the counts spread over the columns is entry (g, 0) of the counts' column. -/
theorem l3_idx130 (g c : Fin 128) : idx_main_v130 (ix2 g c) = ix2 g (0 : Fin 1) := by
  funext a
  match a with
  | ⟨0, _⟩ => rfl
  | ⟨1, _⟩ => rfl

/-! ## The root of a node's graph, looked up a second time -/

/-- The batch word wrapped on the 128 graphs. -/
theorem l3_graphw (n : Fin 102400) :
    val_main_v109 (F := Ideal) x2 (ix1 n) = Cert.Spec.wrapPos (BitVec.ofNat 32 128) (x2 (ix1 n)) := by
  rw [val_main_v109_apply, val_main_v106_apply, val_main_v108_apply, val_main_v105_apply, val_main_c_22_apply,
    val_main_v107_apply, val_main_c_23_apply]
  exact l3_select_wrap _ _

/-- The root word of the node's graph. -/
theorem l3_root (n : Fin 102400) :
    val_main_v111 (F := Ideal) x2 x3 (ix1 n)
      = x3 (ix1 (Cert.Spec.graphOf (fun n : Fin 102400 => x2 (ix1 n)) n)) := by
  have hw : val_main_v110 (F := Ideal) x2 (ix2 n (0 : Fin 1))
      = Cert.Spec.wrapPos (BitVec.ofNat 32 128) (x2 (ix1 n)) := by
    rw [val_main_v110_apply, l3_idx110, l3_graphw]
  unfold val_main_v111
  rw [Cert.LibRows.gather_take_apply gather_S128_S102400x1_S102400_n_0_n_n_0_1_1 rfl rfl rfl rfl x3
    (val_main_v110 (F := Ideal) x2) n (by decide)]
  simp only [hw]
  rfl

/-- That root word wrapped on the 102400 nodes. -/
theorem l3_rootw (n : Fin 102400) :
    val_main_v116 (F := Ideal) x2 x3 (ix1 n)
      = Cert.Spec.wrapPos (BitVec.ofNat 32 102400)
          (x3 (ix1 (Cert.Spec.graphOf (fun n : Fin 102400 => x2 (ix1 n)) n))) := by
  rw [val_main_v116_apply, val_main_v113_apply, val_main_v115_apply, val_main_v112_apply, val_main_c_24_apply,
    val_main_v114_apply, val_main_c_25_apply, l3_root]
  exact l3_select_wrap _ _

/-! ## The stage -/

/-- The first layer's rows gathered at the root of each node's graph. -/
theorem ref_rooth1 (n : Fin 102400) (k : Fin 64) :
    val_main_v118 (F := Ideal) x0 x1 x2 x3 x4 x5 (ix2 n k)
      = Cert.Spec.h1Ref x0 x4 x5 (Cert.Spec.srcOf x1) (Cert.Spec.dstOf x1)
          (Cert.Spec.rootRow (fun g : Fin 128 => x3 (ix1 g))
            (Cert.Spec.graphOf (fun n : Fin 102400 => x2 (ix1 n)) n)) k := by
  have hw : val_main_v117 (F := Ideal) x2 x3 (ix2 n (0 : Fin 1))
      = Cert.Spec.wrapPos (BitVec.ofNat 32 102400)
          (x3 (ix1 (Cert.Spec.graphOf (fun n : Fin 102400 => x2 (ix1 n)) n))) := by
    rw [val_main_v117_apply, l3_idx117, l3_rootw]
  unfold val_main_v118
  rw [Cert.LibRows.gather_rows_apply gather_S102400x64_S102400x1_S102400x64_1_0_n_n_0_1_164 rfl rfl rfl rfl rfl rfl
    (val_main_v45 (F := Ideal) x0 x1 x4 x5) (val_main_v117 (F := Ideal) x2 x3) n k (by decide)]
  rw [ref_h1]
  simp only [hw]
  rfl

/-- A node's final features: the rectified second layer beside its graph's root's first-layer row. -/
theorem ref_feat (n : Fin 102400) (c : Fin 128) :
    val_main_v119 (F := Ideal) x0 x1 x2 x3 x4 x5 x6 x7 (ix2 n c)
      = Cert.Spec.featRef x0 x4 x5 x6 x7 (Cert.Spec.srcOf x1) (Cert.Spec.dstOf x1)
          (fun n : Fin 102400 => x2 (ix1 n)) (fun g : Fin 128 => x3 (ix1 g)) n c := by
  unfold val_main_v119 Cert.Spec.featRef
  by_cases hc : c.val < 64
  · rw [dif_pos hc, l3_cat_left _ _ _ n c hc, val_main_v104_apply, val_main_call1_v0_apply, val_main_call1_cst_apply,
      ref_h2, l3_zero_word]
    rfl
  · rw [dif_neg hc, l3_cat_right _ _ _ n c hc, ref_rooth1]

/-- Each graph's sum of its nodes' features: a node is added in exactly when its batch word, read signed, is the graph. -/
theorem ref_sums (g c : Fin 128) :
    val_main_v122 (F := Ideal) x0 x1 x2 x3 x4 x5 x6 x7 (ix2 g c)
      = Cert.Spec.sumsRef x0 x4 x5 x6 x7 (Cert.Spec.srcOf x1) (Cert.Spec.dstOf x1)
          (fun n : Fin 102400 => x2 (ix1 n)) (fun g : Fin 128 => x3 (ix1 g)) g c := by
  have hx : val_main_v120 (F := Ideal) (ix2 g c) = (0 : EReal) := by
    rw [val_main_v120_apply, val_main_cst_26_apply, l3_zero_word]
  have hw : ∀ e : Fin 102400, val_main_v121 (F := Ideal) x2 (ix2 e (0 : Fin 1)) = x2 (ix1 e) := by
    intro e
    rw [val_main_v121_apply, l3_idx121]
  unfold val_main_v122 Cert.Spec.sumsRef
  rw [Cert.LibRows.scatterAdd_rows_apply scatter_S128x128_S102400x1_S102400x128_1_0_0_1 rfl rfl rfl rfl
    (val_main_v120 (F := Ideal)) (val_main_v121 (F := Ideal) x2)
    (val_main_v119 (F := Ideal) x0 x1 x2 x3 x4 x5 x6 x7) g c]
  exact l3_sum_lands_congr (fun e : Fin 102400 => val_main_v121 (F := Ideal) x2 (ix2 e (0 : Fin 1)))
    (fun e : Fin 102400 => x2 (ix1 e))
    (fun e : Fin 102400 => val_main_v119 (F := Ideal) x0 x1 x2 x3 x4 x5 x6 x7 (ix2 e c))
    (fun e : Fin 102400 => Cert.Spec.featRef x0 x4 x5 x6 x7 (Cert.Spec.srcOf x1) (Cert.Spec.dstOf x1)
      (fun n : Fin 102400 => x2 (ix1 n)) (fun g : Fin 128 => x3 (ix1 g)) e c)
    _ g hx hw (fun e => ref_feat x0 x1 x2 x3 x4 x5 x6 x7 e c)

/-- Each graph's node count. -/
theorem ref_cnt (g : Fin 128) :
    val_main_v126 (F := Ideal) x2 (ix1 g) = Cert.Spec.cntRef (fun n : Fin 102400 => x2 (ix1 n)) g := by
  have hx : val_main_v124 (F := Ideal) (ix1 g) = (0 : EReal) := by
    rw [val_main_v124_apply, val_main_cst_28_apply, l3_zero_word]
  have hw : ∀ e : Fin 102400, val_main_v125 (F := Ideal) x2 (ix2 e (0 : Fin 1)) = x2 (ix1 e) := by
    intro e
    rw [val_main_v125_apply, l3_idx125]
  have hu : ∀ e : Fin 102400, val_main_v123 (F := Ideal) (ix1 e) = (1 : EReal) := by
    intro e
    rw [val_main_v123_apply, val_main_cst_27_apply, l3_one_word]
  unfold val_main_v126 Cert.Spec.cntRef
  rw [Cert.LibRows.scatterAdd_take_apply scatter_S128_S102400x1_S102400_n_0_0_1 rfl rfl rfl rfl
    (val_main_v124 (F := Ideal)) (val_main_v125 (F := Ideal) x2) (val_main_v123 (F := Ideal)) g]
  exact l3_sum_lands_congr (fun e : Fin 102400 => val_main_v125 (F := Ideal) x2 (ix2 e (0 : Fin 1)))
    (fun e : Fin 102400 => x2 (ix1 e)) (fun e : Fin 102400 => val_main_v123 (F := Ideal) (ix1 e))
    (fun _ : Fin 102400 => (1 : EReal)) _ g hx hw hu

/-- The result: each graph's sums divided by the larger of its count and one. -/
theorem ref_out (g c : Fin 128) :
    val_main_v131 (F := Ideal) x0 x1 x2 x3 x4 x5 x6 x7 (ix2 g c)
      = Cert.Spec.outRef x0 x4 x5 x6 x7 (Cert.Spec.srcOf x1) (Cert.Spec.dstOf x1)
          (fun n : Fin 102400 => x2 (ix1 n)) (fun g : Fin 128 => x3 (ix1 g)) g c := by
  rw [val_main_v131_apply, val_main_v130_apply, l3_idx130, val_main_v129_apply, l3_idx129, val_main_v128_apply,
    val_main_v127_apply, val_main_cst_29_apply, l3_one_word, ref_sums, ref_cnt]
  rfl

end Cert.ReferenceIdeal.RefVal

end
-- ==== Proof.Math.lean ====
/-
  The kernel's form and the reference's form are one function, when every node's batch word is a graph number.

  Three laws carry it. (1) dinv n is a nonnegative real (the inverse square root of a count that is at least 1), and
  multiplication by a nonnegative real distributes over any sum of extended reals; with the associativity of the product
  this moves the target's factor out of an edge sum, and an edge that lands on n reads n as its target row. (2) Under the
  range hypothesis the batch word of node n IS its graph: the one-hot row selects that graph's pre-multiplied root row,
  and the sum over the 832 concatenated columns is the sum over the first 64 plus the sum over the last 768. (3) The
  25 tiles of 4096 rows partition the nodes, a sum of one-hot multiples is the sum over the nodes of the graph, and a
  sum of card equal terms is card times the term.
-/
import proofs.«405491_j5480378270219_3_alg».proof.Proof.Spec

noncomputable section

namespace Cert.Spec

open Idealize.ShloMosaic Idealize.ShloMosaic.ValueIdx
open scoped BigOperators

/-! ## Laws of the extended reals -/

/-- Multiplication by a nonnegative real distributes over a finite sum. -/
theorem sum_mul_of_nonneg {ι : Type*} (S : Finset ι) (f : ι → EReal) (c : EReal) (hc0 : 0 ≤ c) (hct : c ≠ ⊤) :
    (∑ i ∈ S, f i) * c = ∑ i ∈ S, f i * c := by
  classical
  induction S using Finset.induction_on with
  | empty => simp
  | insert a S ha ih =>
    rw [Finset.sum_insert ha, Finset.sum_insert ha, EReal.right_distrib_of_nonneg_of_ne_top hc0 hct, ih]

/-- A sum of ones is the number of its terms. -/
theorem sum_one_eq_card {ι : Type*} (S : Finset ι) : (∑ _i ∈ S, (1 : EReal)) = (S.card : EReal) := by
  rw [Finset.sum_const, nsmul_one]

/-- A sum of card equal terms is card times the term, for every extended real. -/
theorem sum_const_eq_card_mul {ι : Type*} (S : Finset ι) (v : EReal) : (∑ _i ∈ S, v) = (S.card : EReal) * v := by
  rw [Finset.sum_const, EReal.nsmul_eq_mul]

/-- The inverse square root of the larger of a count and one is a nonnegative real. -/
theorem rsqrt_max_natCast (k : ℕ) : 0 ≤ Ideal.rsqrt (max (k : EReal) 1) ∧ Ideal.rsqrt (max (k : EReal) 1) ≠ ⊤ := by
  have h1 : max (k : EReal) 1 = ((max (k : ℝ) 1 : ℝ) : EReal) := by
    rw [EReal.coe_strictMono.monotone.map_max, EReal.coe_one, EReal.coe_natCast]
  have hpos : (0 : ℝ) < max (k : ℝ) 1 := lt_of_lt_of_le one_pos (le_max_right _ _)
  rw [h1]
  have h2 : Ideal.rsqrt ((max (k : ℝ) 1 : ℝ) : EReal) = (((Real.sqrt (max (k : ℝ) 1))⁻¹ : ℝ) : EReal) := by
    show (if max (k : ℝ) 1 < 0 then (⊥ : EReal) else if max (k : ℝ) 1 = 0 then ⊤ else ((Real.sqrt (max (k : ℝ) 1))⁻¹ : ℝ)) = _
    rw [if_neg (not_lt.mpr hpos.le), if_neg hpos.ne']
  rw [h2]
  exact ⟨EReal.coe_nonneg.mpr (inv_nonneg.mpr (Real.sqrt_nonneg _)), EReal.coe_ne_top _⟩

/-! ## Positions -/

/-- A word that lands on row r reads row r. -/
theorem rowOf_of_lands {N : Nat} (hN : 0 < N) (v : BitVec 32) (r : Fin N) (h : Lands v r) : rowOf N hN v = r := by
  unfold Lands at h
  have hnn : ¬ (v.slt 0#32 = true) := by
    rw [BitVec.slt_iff_toInt_lt, BitVec.toInt_zero]
    omega
  unfold rowOf wrapPos
  rw [if_neg hnn]
  unfold clampPos
  apply Fin.ext
  have := r.isLt
  show min v.toInt.toNat (N - 1) = r.val
  omega

/-- The signed value of the word of a small natural number. -/
theorem toInt_ofNat_small (k : Nat) (hk : k < 128) : (BitVec.ofNat 32 k).toInt = (k : Int) := by
  rw [BitVec.toInt_eq_toNat_cond, BitVec.toNat_ofNat]
  have : k % 2 ^ 32 = k := Nat.mod_eq_of_lt (by omega)
  rw [this]
  split <;> omega

/-- The one-hot entry is one exactly where the batch word lands. -/
theorem hot_eq (bt : Fin 102400 → BitVec 32) (n : Fin 102400) (g : Fin 128) :
    hot bt n g = if Lands (bt n) g then 1 else 0 := by
  unfold hot
  have hiff : bt n = BitVec.ofNat 32 g.val ↔ Lands (bt n) g := by
    unfold Lands
    rw [← toInt_ofNat_small g.val g.isLt]
    exact BitVec.toInt_inj.symm
  by_cases h : bt n = BitVec.ofNat 32 g.val
  · rw [if_pos h, if_pos (hiff.mp h)]
  · rw [if_neg h, if_neg (fun h' => h (hiff.mpr h'))]

/-- A batch word in range lands on the graph it reads. -/
theorem lands_graphOf (bt : Fin 102400 → BitVec 32) (hbt : ∀ n, 0 ≤ (bt n).toInt ∧ (bt n).toInt < 128)
    (n : Fin 102400) : Lands (bt n) (graphOf bt n) := by
  have h0 := (hbt n).1
  have h1 := (hbt n).2
  have hl : Lands (bt n) (⟨(bt n).toInt.toNat, by omega⟩ : Fin 128) := by
    show (bt n).toInt = (((bt n).toInt.toNat : Nat) : Int)
    omega
  have := rowOf_of_lands (N := 128) (by decide) (bt n) _ hl
  unfold graphOf
  rw [this]
  exact hl

/-- A batch word in range lands on g exactly when g is the graph it reads. -/
theorem lands_iff_graphOf (bt : Fin 102400 → BitVec 32) (hbt : ∀ n, 0 ≤ (bt n).toInt ∧ (bt n).toInt < 128)
    (n : Fin 102400) (g : Fin 128) : Lands (bt n) g ↔ g = graphOf bt n := by
  constructor
  · intro h
    exact (rowOf_of_lands (by decide) (bt n) g h).symm
  · intro h
    rw [h]
    exact lands_graphOf bt hbt n

/-! ## The normalisation factor -/

/-- The factor at every node is a nonnegative real. -/
theorem dinv_nonneg_ne_top (d : Fin 1740800 → BitVec 32) (n : Fin 102400) : 0 ≤ dinv d n ∧ dinv d n ≠ ⊤ := by
  unfold dinv deg
  rw [zero_add, sum_one_eq_card]
  exact rsqrt_max_natCast _

/-! ## One layer's aggregation -/

/-- Rows pre-scaled at the source, summed, and scaled at the target are the reference's weighted sum. -/
theorem aggK_mul_dinv (s d : Fin 1740800 → BitVec 32) (P : Fin 102400 → Fin 64 → EReal) (n : Fin 102400) (j : Fin 64) :
    aggK s d (fun n j => P n j * dinv d n) n j * dinv d n = aggRef s d P n j := by
  unfold aggK aggRef
  rw [zero_add, zero_add, sum_mul_of_nonneg _ _ _ (dinv_nonneg_ne_top d n).1 (dinv_nonneg_ne_top d n).2]
  apply Finset.sum_congr rfl
  intro e he
  have hl : Lands (d e) n := (Finset.mem_filter.mp he).2
  have hd : dstRow d e = n := rowOf_of_lands _ _ _ hl
  unfold edgeNorm
  rw [hd, mul_assoc]

section Layers

variable (x : FVec Ideal ⟨2, ![102400, 768]⟩ .f32) (W1 : FVec Ideal ⟨2, ![768, 64]⟩ .f32) (b1 : FVec Ideal ⟨1, ![64]⟩ .f32)
  (W2 : FVec Ideal ⟨2, ![832, 64]⟩ .f32) (b2 : FVec Ideal ⟨1, ![64]⟩ .f32)
  (s d : Fin 1740800 → BitVec 32) (bt : Fin 102400 → BitVec 32) (rt : Fin 128 → BitVec 32)

/-- The first layer's outputs agree. -/
theorem h1K_eq (n : Fin 102400) (j : Fin 64) : h1K x W1 b1 s d n j = h1Ref x W1 b1 s d n j := by
  unfold h1K h1Ref
  have h : hs1K x W1 d = fun n j => proj1 x W1 n j * dinv d n := rfl
  rw [h, aggK_mul_dinv]

/-- The one-hot row selects the entry of the node's graph. -/
theorem sum_hot_mul (hbt : ∀ n, 0 ≤ (bt n).toInt ∧ (bt n).toInt < 128) (n : Fin 102400) (F : Fin 128 → EReal) :
    ∑ g : Fin 128, hot bt n g * F g = F (graphOf bt n) := by
  rw [Finset.sum_eq_single (graphOf bt n)]
  · rw [hot_eq, if_pos (lands_graphOf bt hbt n), one_mul]
  · intro g _ hg
    rw [hot_eq, if_neg (fun h => hg ((lands_iff_graphOf bt hbt n g).mp h)), zero_mul]
  · intro h
    exact absurd (Finset.mem_univ _) h

/-- A sum over the 832 concatenated columns is the sum over the first 64 plus the sum over the last 768. -/
theorem sum_split_832 (f : Fin 832 → EReal) :
    ∑ k : Fin 832, f k
      = ∑ k : Fin 64, f (⟨k.val, by omega⟩ : Fin 832) + ∑ k : Fin 768, f (⟨64 + k.val, by omega⟩ : Fin 832) :=
  Fin.sum_univ_add (a := 64) (b := 768) f

/-- The concatenated row's first 64 columns are the first layer's row. -/
theorem catRef_lt (n : Fin 102400) (k : Fin 64) :
    catRef x W1 b1 s d bt rt n (⟨k.val, by omega⟩ : Fin 832) = h1Ref x W1 b1 s d n k := by
  unfold catRef
  exact dif_pos k.isLt

/-- The concatenated row's last 768 columns are the root features of the node's graph. -/
theorem catRef_ge (n : Fin 102400) (k : Fin 768) :
    catRef x W1 b1 s d bt rt n (⟨64 + k.val, by omega⟩ : Fin 832) = x (ix2 (rootRow rt (graphOf bt n)) k) := by
  unfold catRef
  have hk : ¬ ((⟨64 + k.val, by omega⟩ : Fin 832).val < 64) := by
    show ¬ (64 + k.val < 64)
    omega
  rw [dif_neg hk]
  have he : (⟨(⟨64 + k.val, by omega⟩ : Fin 832).val - 64, by omega⟩ : Fin 768) = k := Fin.ext (by simp)
  rw [he]

/-- The second projection, split and pre-scaled, is the reference's projection scaled at the source. -/
theorem hs2K_eq (hbt : ∀ n, 0 ≤ (bt n).toInt ∧ (bt n).toInt < 128) (n : Fin 102400) (j : Fin 64) :
    hs2K x W1 b1 W2 s d bt rt n j = proj2Ref x W1 b1 W2 s d bt rt n j * dinv d n := by
  unfold hs2K proj2Ref
  rw [sum_split_832, sum_hot_mul bt hbt n (fun g => zK x W2 rt g j)]
  refine congrArg (fun t => t * dinv d n) ?_
  refine congrArg₂ (fun a b => a + b) ?_ ?_
  · apply Finset.sum_congr rfl
    intro k _
    rw [catRef_lt, h1K_eq]
  · unfold zK
    apply Finset.sum_congr rfl
    intro k _
    rw [catRef_ge]

/-- The rectified second layers agree. -/
theorem r2K_eq (hbt : ∀ n, 0 ≤ (bt n).toInt ∧ (bt n).toInt < 128) (n : Fin 102400) (j : Fin 64) :
    r2K x W1 b1 W2 b2 s d bt rt n j = max (h2Ref x W1 b1 W2 b2 s d bt rt n j) 0 := by
  unfold r2K h2Ref
  have h : hs2K x W1 b1 W2 s d bt rt = fun n j => proj2Ref x W1 b1 W2 s d bt rt n j * dinv d n := by
    funext n j
    exact hs2K_eq x W1 b1 W2 s d bt rt hbt n j
  rw [h, aggK_mul_dinv]

end Layers

/-! ## The tiles -/

/-- The 25 tiles of 4096 rows partition the nodes. -/
theorem sum_tiles (F : Fin 102400 → EReal) :
    ∑ t ∈ Finset.range 25, ∑ i : Fin 4096, F (tileRow t i) = ∑ n : Fin 102400, F n := by
  rw [← Fin.sum_univ_eq_sum_range (fun t => ∑ i : Fin 4096, F (tileRow t i)) 25]
  rw [← Fintype.sum_prod_type' (fun (t : Fin 25) (i : Fin 4096) => F (tileRow t.val i))]
  let e : Fin 25 × Fin 4096 ≃ Fin 102400 := finProdFinEquiv (m := 25) (n := 4096)
  apply Fintype.sum_equiv e
  intro p
  refine congrArg F ?_
  apply Fin.ext
  show (p.1.val % 25) * 4096 + p.2.val = p.2.val + 4096 * p.1.val
  have := Nat.mod_eq_of_lt p.1.isLt
  omega

/-- A sum of one-hot multiples is the sum over the nodes whose batch word lands on the graph. -/
theorem sum_hot_filter (bt : Fin 102400 → BitVec 32) (g : Fin 128) (F : Fin 102400 → EReal) :
    ∑ n : Fin 102400, hot bt n g * F n = ∑ n ∈ Finset.univ.filter (fun n => Lands (bt n) g), F n := by
  rw [Finset.sum_filter]
  apply Finset.sum_congr rfl
  intro n _
  rw [hot_eq]
  by_cases h : Lands (bt n) g
  · rw [if_pos h, if_pos h, one_mul]
  · rw [if_neg h, if_neg h, zero_mul]

/-- The accumulated counts are the sum of the tiles' counts. -/
theorem accCnt_eq (bt : Fin 102400 → BitVec 32) (t : Nat) (g : Fin 128) :
    accCnt bt t g = 0 + ∑ u ∈ Finset.range (t + 1), tileCnt bt u g := by
  induction t with
  | zero =>
    show 0 + tileCnt bt 0 g = _
    rw [Finset.sum_range_one]
  | succ t ih =>
    show accCnt bt t g + tileCnt bt (t + 1) g = _
    rw [ih, Finset.sum_range_succ _ (t + 1), add_assoc]

/-- The kernel's count is the reference's. -/
theorem accCnt_eq_cntRef (bt : Fin 102400 → BitVec 32) (g : Fin 128) : accCnt bt 24 g = cntRef bt g := by
  rw [accCnt_eq]
  show 0 + ∑ u ∈ Finset.range 25, tileCnt bt u g = _
  unfold tileCnt cntRef
  rw [sum_tiles (fun n => hot bt n g), ← sum_hot_filter bt g (fun _ => 1)]
  simp only [mul_one]

section Sums

variable (x : FVec Ideal ⟨2, ![102400, 768]⟩ .f32) (W1 : FVec Ideal ⟨2, ![768, 64]⟩ .f32) (b1 : FVec Ideal ⟨1, ![64]⟩ .f32)
  (W2 : FVec Ideal ⟨2, ![832, 64]⟩ .f32) (b2 : FVec Ideal ⟨1, ![64]⟩ .f32)
  (s d : Fin 1740800 → BitVec 32) (bt : Fin 102400 → BitVec 32) (rt : Fin 128 → BitVec 32)

/-- The accumulated sums are the sum of the tiles' sums. -/
theorem accSum_eq (t : Nat) (g : Fin 128) (j : Fin 64) :
    accSum x W1 b1 W2 b2 s d bt rt t g j
      = 0 + ∑ u ∈ Finset.range (t + 1), tileSum x W1 b1 W2 b2 s d bt rt u g j := by
  induction t with
  | zero =>
    show 0 + tileSum x W1 b1 W2 b2 s d bt rt 0 g j = _
    rw [Finset.sum_range_one]
  | succ t ih =>
    show accSum x W1 b1 W2 b2 s d bt rt t g j + tileSum x W1 b1 W2 b2 s d bt rt (t + 1) g j = _
    rw [ih, Finset.sum_range_succ _ (t + 1), add_assoc]

/-- The first 64 columns of a graph's sum. -/
theorem accSum_eq_sumsRef (hbt : ∀ n, 0 ≤ (bt n).toInt ∧ (bt n).toInt < 128) (g c : Fin 128) (h : c.val < 64) :
    accSum x W1 b1 W2 b2 s d bt rt 24 g ⟨c.val, h⟩ = sumsRef x W1 b1 W2 b2 s d bt rt g c := by
  rw [accSum_eq]
  show 0 + ∑ u ∈ Finset.range 25, tileSum x W1 b1 W2 b2 s d bt rt u g ⟨c.val, h⟩ = _
  unfold tileSum sumsRef
  rw [sum_tiles (fun n => hot bt n g * r2K x W1 b1 W2 b2 s d bt rt n ⟨c.val, h⟩), sum_hot_filter]
  refine congrArg (fun t => 0 + t) ?_
  apply Finset.sum_congr rfl
  intro n _
  unfold featRef
  rw [dif_pos h, r2K_eq x W1 b1 W2 b2 s d bt rt hbt]

/-- The last 64 columns of a graph's sum: the node count times the root's first-layer row. -/
theorem cnt_mul_eq_sumsRef (g c : Fin 128) (h : ¬ c.val < 64) (hc : c.val - 64 < 64) :
    accCnt bt 24 g * h1K x W1 b1 s d (rootRow rt g) ⟨c.val - 64, hc⟩ = sumsRef x W1 b1 W2 b2 s d bt rt g c := by
  rw [accCnt_eq_cntRef]
  unfold cntRef sumsRef
  rw [zero_add, zero_add, sum_one_eq_card, ← sum_const_eq_card_mul]
  apply Finset.sum_congr rfl
  intro n hn
  have hl : Lands (bt n) g := (Finset.mem_filter.mp hn).2
  have hg : graphOf bt n = g := rowOf_of_lands _ _ _ hl
  unfold featRef
  rw [dif_neg h, hg, h1K_eq]

end Sums

/-- The two forms agree at every entry of the result, when every batch word is in [0, 128). -/
theorem outK_eq_outRef (x : FVec Ideal ⟨2, ![102400, 768]⟩ .f32) (W1 : FVec Ideal ⟨2, ![768, 64]⟩ .f32)
    (b1 : FVec Ideal ⟨1, ![64]⟩ .f32) (W2 : FVec Ideal ⟨2, ![832, 64]⟩ .f32) (b2 : FVec Ideal ⟨1, ![64]⟩ .f32)
    (s d : Fin 1740800 → BitVec 32) (bt : Fin 102400 → BitVec 32) (rt : Fin 128 → BitVec 32)
    (hbt : ∀ n, 0 ≤ (bt n).toInt ∧ (bt n).toInt < 128) (g c : Fin 128) :
    outK x W1 b1 W2 b2 s d bt rt g c = outRef x W1 b1 W2 b2 s d bt rt g c := by
  unfold outK outRef
  by_cases h : c.val < 64
  · rw [dif_pos h, accSum_eq_sumsRef x W1 b1 W2 b2 s d bt rt hbt g c h, accCnt_eq_cntRef]
  · rw [dif_neg h, cnt_mul_eq_sumsRef x W1 b1 W2 b2 s d bt rt g c h, accCnt_eq_cntRef]

end Cert.Spec

end
-- ==== Proof.PreBatch.lean ====
/-
  What the precondition says of the batch words: the last two conjuncts of the printed predicate are "every batch word is
  at least 0" and "every batch word is below 128", each an all-reduction by and of a signed comparison; the predicate being
  one, every conjunct is one, and an all-reduction that is one has a one at every index.
-/
import proofs.«405491_j5480378270219_3_alg».proof.Pre_finite_inputs
import proofs.«405491_j5480378270219_3_alg».proof.Proof.Gen.Pre_finite_inputs
import Idealize.ShloMosaic.Lib.ReduceAll
import Idealize.ShloMosaic.Lib.ValueIdx

namespace Cert.PreBatch

open Idealize.ShloMosaic Idealize.ShloMosaic.ValueIdx Cert.Pre_finite_inputs

instance : Subsingleton S_.Idx := ⟨fun a b => funext fun d => d.elim0⟩

/-- Under the precondition every batch word, read signed, lies in [0, 128). -/
theorem batch_range (x0 : FVec Ideal S102400x768 .f32) (x1 : IVec S2x1638400 32) (x2 : IVec S102400 32) (x3 : IVec S128 32)
    (x4 : FVec Ideal S768x64 .f32) (x5 : FVec Ideal S64 .f32) (x6 : FVec Ideal S832x64 .f32) (x7 : FVec Ideal S64 .f32)
    (h : Cert.Pre_finite_inputs.fn (F := Ideal) x0 x1 x2 x3 x4 x5 x6 x7 = fun _ => 1#1) (n : Fin 102400) :
    0 ≤ (x2 (ix1 n)).toInt ∧ (x2 (ix1 n)).toInt < 128 := by
  have h0 := congrFun h ix0
  dsimp only [fn, fn_part1] at h0
  obtain ⟨h27, h30⟩ := IntOp.andi_eq_one.mp h0
  obtain ⟨_, h26⟩ := IntOp.andi_eq_one.mp h27
  have hge := Host.reduce_andi_all _ _ _ _ _ h26 (ix1 n)
  have hlt := Host.reduce_andi_all _ _ _ _ _ h30 (ix1 n)
  refine ⟨?_, ?_⟩
  · have := IntOp.cmpi_sge.mp hge
    exact this
  · have := IntOp.cmpi_slt.mp hlt
    exact this

end Cert.PreBatch
-- ==== Proof.lean ====
/-
  The claim. The three frames are the generated ones (the reference's is its generated run with the result dropped);
  the idealization rewrote nothing, so there is nothing to preserve. The value claim: the kernel program's run ends with
  the result buffer at the last boundary's contents, which index by index is the kernel's form of the two-layer graph
  convolution and per-graph mean; the reference's run ends at its stages' composition, index by index the reference's
  form; and under the precondition every batch word is a graph number, so the two forms are one function: the target's
  normalisation factor is a nonnegative real and moves out of each edge sum, the one-hot row selects the node's graph's
  pre-multiplied root row, the tiles partition the nodes, and a sum of equal terms is the count times the term.
-/
import proofs.«405491_j5480378270219_3_alg».proof.Defs
import proofs.«405491_j5480378270219_3_alg».proof.Proof.Gen.Kernel
import proofs.«405491_j5480378270219_3_alg».proof.Proof.Gen.Kernel.Skeleton
import proofs.«405491_j5480378270219_3_alg».proof.Proof.Gen.Kernel.Launch
import proofs.«405491_j5480378270219_3_alg».proof.Proof.Gen.Kernel.Points
import proofs.«405491_j5480378270219_3_alg».proof.Proof.Gen.Kernel.Frame
import proofs.«405491_j5480378270219_3_alg».proof.Proof.Gen.KernelIdeal
import proofs.«405491_j5480378270219_3_alg».proof.Proof.Gen.KernelIdeal.Skeleton
import proofs.«405491_j5480378270219_3_alg».proof.Proof.Gen.KernelIdeal.Launch
import proofs.«405491_j5480378270219_3_alg».proof.Proof.Gen.KernelIdeal.Points
import proofs.«405491_j5480378270219_3_alg».proof.Proof.Gen.KernelIdeal.Frame
import proofs.«405491_j5480378270219_3_alg».proof.Proof.Gen.ReferenceIdeal
import proofs.«405491_j5480378270219_3_alg».proof.Proof.Gen.Pre_finite_inputs
import proofs.«405491_j5480378270219_3_alg».proof.Proof.RefRun
import proofs.«405491_j5480378270219_3_alg».proof.Proof.RefRead
import proofs.«405491_j5480378270219_3_alg».proof.Proof.KernelRun
import proofs.«405491_j5480378270219_3_alg».proof.Proof.KernelValue
import proofs.«405491_j5480378270219_3_alg».proof.Proof.RefValue3
import proofs.«405491_j5480378270219_3_alg».proof.Proof.Math
import proofs.«405491_j5480378270219_3_alg».proof.Proof.PreBatch
import Idealize.ShloMosaic.Adequacy
import Idealize.ShloMosaic.Init

noncomputable section

namespace Cert.Proof

open Idealize.ShloMosaic Idealize.SL.Sem Idealize.ShloMosaic.ValueIdx Idealize.ShloMosaic.TcCoe

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at one function of the shared arguments. -/
theorem algebraic : Cert.algebraic_KernelIdeal_ReferenceIdeal := by
  intro m ρ m' ρ' hpre hagree
  refine ⟨fun c => Cert.KernelIdeal.Gen.W9 m ρ c (Proc.devRef .tc Cert.KernelIdeal.main_v78),
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v131_eq, a0, a1, a2, a3, a4, a5, a6, a7]
  funext i
  obtain ⟨g, col, rfl⟩ : ∃ (g col : Fin 128), i = ix2 g col := ⟨i 0, i 1, eq_ix2 i⟩
  refine (Cert.ReferenceIdeal.RefVal.ref_out _ _ _ _ _ _ _ _ g col).trans ?_
  refine Eq.trans ?_ (Cert.KernelIdeal.Val.kernel_value m ρ c g col).symm
  exact (Cert.Spec.outK_eq_outRef _ _ _ _ _ _ _ _ _
    (Cert.PreBatch.batch_range _ _ _ _ _ _ _ _ (hpre c)) g col).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
